-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S800000 32) (main_arg3 : IVec S800000 32) (main_v48 : IVec S_ 1) (main_v50 : IVec S800000 1) : IVec S_ 1 :=
  let main_c_19 : IVec S_ 32 := constantI S_ 32 50000#32
  let main_v51 : IVec S800000 32 := broadcastInDim S800000 ![] bcast_S_S800000 main_c_19
  let main_v52 : IVec S800000 1 := cmpi .slt main_arg2 main_v51
  let main_v53 : IVec S800000 1 := andi main_v50 main_v52
  let main_c_20 : IVec S_ 1 := constantI S_ 1 1#1
  let main_v54 : IVec S_ 1 := (fun x v => Host.reduce IntOp.andi x v reducesTo_S800000_S_d0 h_S_) main_v53 main_c_20
  let main_v55 : IVec S_ 1 := andi main_v48 main_v54
  let main_c_21 : IVec S_ 32 := constantI S_ 32 0#32
  let main_v56 : IVec S800000 32 := broadcastInDim S800000 ![] bcast_S_S800000 main_c_21
  let main_v57 : IVec S800000 1 := cmpi .sge main_arg3 main_v56
  let main_c_22 : IVec S_ 32 := constantI S_ 32 50000#32
  let main_v58 : IVec S800000 32 := broadcastInDim S800000 ![] bcast_S_S800000 main_c_22
  let main_v59 : IVec S800000 1 := cmpi .slt main_arg3 main_v58
  let main_v60 : IVec S800000 1 := andi main_v57 main_v59
  let main_c_23 : IVec S_ 1 := constantI S_ 1 1#1
  let main_v61 : IVec S_ 1 := (fun x v => Host.reduce IntOp.andi x v reducesTo_S800000_S_d0 h_S_) main_v60 main_c_23
  let main_v62 : IVec S_ 1 := andi main_v55 main_v61
  main_v62

def fn_part2 {F : FTy → Type} [FloatOps F] (main_arg2 : IVec S800000 32) (main_arg3 : IVec S800000 32) (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg2 main_v49
  fn_part3 (F := F) main_arg2 main_arg3 main_v48 main_v50

def fn_part1 {F : FTy → Type} [FloatOps F] (main_arg2 : IVec S800000 32) (main_arg3 : IVec S800000 32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S128x8 : Shape := ⟨2, ![128, 8]⟩
abbrev S8x128 : Shape := ⟨2, ![8, 128]⟩
abbrev S128x384 : Shape := ⟨2, ![128, 384]⟩
abbrev S384 : Shape := ⟨1, ![384]⟩
abbrev S50000x384 : Shape := ⟨2, ![50000, 384]⟩
abbrev S5000x128 : Shape := ⟨2, ![5000, 128]⟩
abbrev S5000x384 : Shape := ⟨2, ![5000, 384]⟩
abbrev S1x384 : Shape := ⟨2, ![1, 384]⟩
abbrev S8000x128 : Shape := ⟨2, ![8000, 128]⟩
abbrev S1x128 : Shape := ⟨2, ![1, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x8 : Shape := ⟨2, ![800000, 8]⟩
abbrev S3200x128 : Shape := ⟨2, ![3200, 128]⟩
abbrev S3200x8 : Shape := ⟨2, ![3200, 8]⟩
abbrev S50000x8 : Shape := ⟨2, ![50000, 8]⟩
abbrev S50000x8x16 : Shape := ⟨3, ![50000, 8, 16]⟩
abbrev S800000x8x16 : Shape := ⟨3, ![800000, 8, 16]⟩

abbrev nBuf : Space → Nat
  | .hbm => 109
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x8, .f32⟩
  | .hbm, ⟨13, _⟩ => ⟨S8x128, .f32⟩
  | .hbm, ⟨14, _⟩ => ⟨S128x384, .f32⟩
  | .hbm, ⟨15, _⟩ => ⟨S384, .f32⟩
  | .hbm, ⟨16, _⟩ => ⟨S50000x384, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S800000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S1, .i32⟩
  | .hbm, ⟨30, _⟩ => ⟨S_, .i32⟩
  | .hbm, ⟨31, _⟩ => ⟨S800000x1, .i32⟩
  | .hbm, ⟨32, _⟩ => ⟨S800000x1, .i1⟩
  | .hbm, ⟨33, _⟩ => ⟨S1x1, .i32⟩
  | .hbm, ⟨34, _⟩ => ⟨S800000x1, .i32⟩
  | .hbm, ⟨35, _⟩ => ⟨S800000x1, .i1⟩
  | .hbm, ⟨36, _⟩ => ⟨S800000x1, .i1⟩
  | .hbm, ⟨37, _⟩ => ⟨S_, .i1⟩
  | .hbm, ⟨38, _⟩ => ⟨S800000, .i1⟩
  | .hbm, ⟨39, _⟩ => ⟨S800000x128, .f32⟩
  | .hbm, ⟨40, _⟩ => ⟨S800000x128, .i1⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S1, .i32⟩
  | .hbm, ⟨53, _⟩ => ⟨S_, .i32⟩
  | .hbm, ⟨54, _⟩ => ⟨S800000x1, .i32⟩
  | .hbm, ⟨55, _⟩ => ⟨S800000x1, .i1⟩
  | .hbm, ⟨56, _⟩ => ⟨S1x1, .i32⟩
  | .hbm, ⟨57, _⟩ => ⟨S800000x1, .i32⟩
  | .hbm, ⟨58, _⟩ => ⟨S800000x1, .i1⟩
  | .hbm, ⟨59, _⟩ => ⟨S800000x1, .i1⟩
  | .hbm, ⟨60, _⟩ => ⟨S_, .i1⟩
  | .hbm, ⟨61, _⟩ => ⟨S800000, .i1⟩
  | .hbm, ⟨62, _⟩ => ⟨S800000x128, .f32⟩
  | .hbm, ⟨63, _⟩ => ⟨S800000x128, .i1⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S1, .i32⟩
  | .hbm, ⟨76, _⟩ => ⟨S_, .i32⟩
  | .hbm, ⟨77, _⟩ => ⟨S800000x1, .i32⟩
  | .hbm, ⟨78, _⟩ => ⟨S800000x1, .i1⟩
  | .hbm, ⟨79, _⟩ => ⟨S1x1, .i32⟩
  | .hbm, ⟨80, _⟩ => ⟨S800000x1, .i32⟩
  | .hbm, ⟨81, _⟩ => ⟨S800000x1, .i1⟩
  | .hbm, ⟨82, _⟩ => ⟨S800000x1, .i1⟩
  | .hbm, ⟨83, _⟩ => ⟨S_, .i1⟩
  | .hbm, ⟨84, _⟩ => ⟨S800000, .i1⟩
  | .hbm, ⟨85, _⟩ => ⟨S800000x128, .f32⟩
  | .hbm, ⟨86, _⟩ => ⟨S800000x128, .i1⟩
  | .hbm, ⟨87, _⟩ => ⟨S_, .f32⟩
  | .hbm, ⟨88, _⟩ => ⟨S800000x128, .f32⟩
  | .hbm, ⟨89, _⟩ => ⟨S800000x128, .f32⟩
  | .hbm, ⟨90, _⟩ => ⟨S800000x128, .f32⟩
  | .hbm, ⟨91, _⟩ => ⟨S800000x128, .f32⟩
  | .hbm, ⟨92, _⟩ => ⟨S800000x8, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S_, .f32⟩
  | .hbm, ⟨98, _⟩ => ⟨S50000x8, .f32⟩
  | .hbm, ⟨99, _⟩ => ⟨S800000x1, .i32⟩
  | .hbm, ⟨100, _⟩ => ⟨S50000x8, .f32⟩
  | .hbm, ⟨101, _⟩ => ⟨S50000x8x16, .f32⟩
  | .hbm, ⟨102, _⟩ => ⟨S50000x128, .f32⟩
  | .hbm, ⟨103, _⟩ => ⟨S_, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S50000x8x16, .f32⟩
  | .hbm, ⟨108, _⟩ => ⟨S800000x8x16, .f32⟩
  | .local _ .vmem, ⟨0, _⟩ => ⟨S5000x128, .f32⟩
  | .local _ .vmem, ⟨1, _⟩ => ⟨S5000x128, .f32⟩
  | .local _ .vmem, ⟨2, _⟩ => ⟨S128x384, .f32⟩
  | .local _ .vmem, ⟨3, _⟩ => ⟨S384, .f32⟩
  | .local _ .vmem, ⟨4, _⟩ => ⟨S5000x384, .f32⟩
  | .local _ .vmem, ⟨5, _⟩ => ⟨S5000x384, .f32⟩
  | .local _ .vmem, ⟨6, _⟩ => ⟨S8000x128, .f32⟩
  | .local _ .vmem, ⟨7, _⟩ => ⟨S8000x128, .f32⟩
  | .local _ .vmem, ⟨8, _⟩ => ⟨S128x128, .f32⟩
  | .local _ .vmem, ⟨9, _⟩ => ⟨S128, .f32⟩
  | .local _ .vmem, ⟨10, _⟩ => ⟨S8000x128, .f32⟩
  | .local _ .vmem, ⟨11, _⟩ => ⟨S8000x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S3200x128, .f32⟩
  | .local _ .vmem, ⟨17, _⟩ => ⟨S3200x128, .f32⟩
  | .local _ .vmem, ⟨18, _⟩ => ⟨S3200x128, .f32⟩
  | .local _ .vmem, ⟨19, _⟩ => ⟨S3200x128, .f32⟩
  | .local _ .vmem, ⟨20, _⟩ => ⟨S128x8, .f32⟩
  | .local _ .vmem, ⟨21, _⟩ => ⟨S8x128, .f32⟩
  | .local _ .vmem, ⟨22, _⟩ => ⟨S3200x128, .f32⟩
  | .local _ .vmem, ⟨23, _⟩ => ⟨S3200x128, .f32⟩
  | .local _ .vmem, ⟨24, _⟩ => ⟨S3200x128, .f32⟩
  | .local _ .vmem, ⟨25, _⟩ => ⟨S3200x128, .f32⟩
  | .local _ .vmem, ⟨26, _⟩ => ⟨S3200x8, .f32⟩
  | .local _ .vmem, ⟨27, _⟩ => ⟨S3200x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v7 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v8 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v9 : Ref sig .tc := ⟨.hbm, 89, rfl⟩
abbrev main_v10_0 : Ref sig .tc := ⟨.hbm, 90, rfl⟩
abbrev main_v10_1 : Ref sig .tc := ⟨.hbm, 91, rfl⟩
abbrev main_v10_2 : Ref sig .tc := ⟨.hbm, 92, rfl⟩
abbrev main_cst_1 : Ref sig .tc := ⟨.hbm, 93, rfl⟩
abbrev main_v11 : Ref sig .tc := ⟨.hbm, 94, rfl⟩
abbrev main_v12 : Ref sig .tc := ⟨.hbm, 95, rfl⟩
abbrev main_v13 : Ref sig .tc := ⟨.hbm, 96, rfl⟩
abbrev main_cst_2 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18 : Ref sig .tc := ⟨.hbm, 102, rfl⟩
abbrev main_cst_3 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc2_sem7_1 : DmaSem sig := 25
abbrev cc2_sem8_0 : DmaSem sig := 26
abbrev cc2_sem8_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3200x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3200x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3200x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S3200x8 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S384_S384_0 : ∀ a, (![0] : Fin 1 → Nat) a + S384.size a ≤ S384.size a
  h_S384 : 0 < S384.numel
  shapeCasts_S384_S384 : S384.ShapeCasts S384
  shapeCasts_S384_S1x384 : S384.ShapeCasts S1x384
  broadcasts_S1x384_S5000x384 : S1x384.Broadcasts S5000x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  inb_S3200x8_S3200x8_0_0 : ∀ a, (![0, 0] : Fin 2 → Nat) a + S3200x8.size a ≤ S3200x8.size a
  h_S3200x8 : 0 < S3200x8.numel
  bcast_S_S50000x128 : S_.BroadcastsInDim S50000x128 (![] : Fin 0 → Fin S50000x128.rank)
  bcast_S_S50000x8 : S_.BroadcastsInDim S50000x8 (![] : Fin 0 → Fin S50000x8.rank)
  bcast_S50000x8_S50000x8x16_0_1 : S50000x8.BroadcastsInDim S50000x8x16 (![0, 1] : Fin 2 → Fin S50000x8x16.rank)
  shapeCasts_S50000x8x16_S50000x128 : S50000x8x16.ShapeCasts S50000x128
  shapeCasts_S50000x128_S50000x8x16 : S50000x128.ShapeCasts S50000x8x16
  shapeCasts_S800000x128_S800000x8x16 : S800000x128.ShapeCasts S800000x8x16
  dot_S5000x128_S128x384_S5000x384_1_0_0_1_n_n_wf : DotDims.WF S5000x128 S128x384 S5000x384 [1] [0] [0] [1] [] []
  dot_S8000x128_S128x128_S8000x128_1_0_0_1_n_n_wf : DotDims.WF S8000x128 S128x128 S8000x128 [1] [0] [0] [1] [] []
  gather_S50000x128_S800000x1_S800000x128_1_0_n_n_0_1_1128_wf : GatherDims.WF S50000x128 S800000x1 S800000x128 [1] [0] [] [0] [] 1 ![1, 128]
  dot_S3200x128_S128x8_S3200x8_1_0_0_1_n_n_wf : DotDims.WF S3200x128 S128x8 S3200x8 [1] [0] [0] [1] [] []
  dot_S3200x8_S8x128_S3200x128_1_0_0_1_n_n_wf : DotDims.WF S3200x8 S8x128 S3200x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384.size a ≤ S384.size a
  hwx0_2 : ∀ i : grid0.Coords, EltTy.bits .f32 = 32 ∨ (Rect.block (s := S384) S384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x384.size a ≤ S50000x384.size a
  hwx0_3 : ∀ i : grid0.Coords, EltTy.bits .f32 = 32 ∨ (Rect.block (s := S50000x384) S5000x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S800000x128.size a
  hwx1_0 : ∀ i : grid1.Coords, EltTy.bits .f32 = 32 ∨ (Rect.block (s := S800000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S800000x128.size a
  hwx2_0 : ∀ i : grid2.Coords, EltTy.bits .f32 = 32 ∨ (Rect.block (s := S800000x128) S3200x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x128.size a ≤ S800000x128.size a
  hwx2_1 : ∀ i : grid2.Coords, EltTy.bits .f32 = 32 ∨ (Rect.block (s := S800000x128) S3200x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3200x128.size a ≤ S800000x128.size a
  hwx2_2 : ∀ i : grid2.Coords, EltTy.bits .f32 = 32 ∨ (Rect.block (s := S800000x128) S3200x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3200x128.size a ≤ S800000x128.size a
  hwx2_3 : ∀ i : grid2.Coords, EltTy.bits .f32 = 32 ∨ (Rect.block (s := S800000x128) S3200x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x8.size a ≤ S128x8.size a
  hwx2_4 : ∀ i : grid2.Coords, EltTy.bits .f32 = 32 ∨ (Rect.block (s := S128x8) S128x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S3200x128.size a ≤ S800000x128.size a
  hwx2_6 : ∀ i : grid2.Coords, EltTy.bits .f32 = 32 ∨ (Rect.block (s := S800000x128) S3200x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3200x128.size a ≤ S800000x128.size a
  hwx2_7 : ∀ i : grid2.Coords, EltTy.bits .f32 = 32 ∨ (Rect.block (s := S800000x128) S3200x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S3200x8.size a ≤ S800000x8.size a
  hwx2_8 : ∀ i : grid2.Coords, EltTy.bits .f32 = 32 ∨ (Rect.block (s := S800000x8) S3200x8.size (cc2_transform_8 i) (hinb2_8 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x8_S3200x8_1_0_0_1_n_n : DotDims S3200x128 S128x8 S3200x8 where
  lhsContracting := [1]
  rhsContracting := [0]
  lhsNonContracting := [0]
  rhsNonContracting := [1]
  lhsBatch := []
  rhsBatch := []
  wf := dot_S3200x128_S128x8_S3200x8_1_0_0_1_n_n_wf
def dot_S3200x8_S8x128_S3200x128_1_0_0_1_n_n : DotDims S3200x8 S8x128 S3200x128 where
  lhsContracting := [1]
  rhsContracting := [0]
  lhsNonContracting := [0]
  rhsNonContracting := [1]
  lhsBatch := []
  rhsBatch := []
  wf := dot_S3200x8_S8x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S3200x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S3200x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S3200x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_cst) S128x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_cst_0) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v10_0) S3200x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v10_1) S3200x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v10_2) S3200x8.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S50000x128, .f32⟩
  | .hbm, ⟨15, _⟩ => ⟨S50000x128, .f32⟩
  | .hbm, ⟨16, _⟩ => ⟨S50000x8x16, .f32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S50000x8x16, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S50000x8x16, .f32⟩
  | .hbm, ⟨27, _⟩ => ⟨S800000x128, .f32⟩
  | .hbm, ⟨28, _⟩ => ⟨S1x128, .f32⟩
  | .hbm, ⟨29, _⟩ => ⟨S800000x128, .f32⟩
  | .hbm, ⟨30, _⟩ => ⟨S800000x128, .f32⟩
  | .hbm, ⟨31, _⟩ => ⟨S800000x8x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x8x16, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x8x16, .f32⟩
  | .hbm, ⟨50, _⟩ => ⟨S800000x8x16, .f32⟩
  | .hbm, ⟨51, _⟩ => ⟨S_, .f32⟩
  | .hbm, ⟨52, _⟩ => ⟨S_, .f32⟩
  | .hbm, ⟨53, _⟩ => ⟨S800000x8x16, .f32⟩
  | .hbm, ⟨54, _⟩ => ⟨S800000x8x16, .f32⟩
  | .hbm, ⟨55, _⟩ => ⟨S800000x8x16, .f32⟩
  | .hbm, ⟨56, _⟩ => ⟨S_, .f32⟩
  | .hbm, ⟨57, _⟩ => ⟨S800000x8, .f32⟩
  | .hbm, ⟨58, _⟩ => ⟨S800000x8x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S800000x8x1, .f32⟩
  | .hbm, ⟨63, _⟩ => ⟨S800000x8x1, .f32⟩
  | .hbm, ⟨64, _⟩ => ⟨S_, .f32⟩
  | .hbm, ⟨65, _⟩ => ⟨S800000x8x1, .f32⟩
  | .hbm, ⟨66, _⟩ => ⟨S800000x8x1, .f32⟩
  | .hbm, ⟨67, _⟩ => ⟨S800000x8x1, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x8x16, .f32⟩
  | .hbm, ⟨77, _⟩ => ⟨S800000x8x16, .f32⟩
  | .hbm, ⟨78, _⟩ => ⟨S800000x8x16, .f32⟩
  | .hbm, ⟨79, _⟩ => ⟨S_, .f32⟩
  | .hbm, ⟨80, _⟩ => ⟨S50000x8x16, .f32⟩
  | .hbm, ⟨81, _⟩ => ⟨S800000x1, .i32⟩
  | .hbm, ⟨82, _⟩ => ⟨S50000x8x16, .f32⟩
  | .hbm, ⟨83, _⟩ => ⟨S_, .f32⟩
  | .hbm, ⟨84, _⟩ => ⟨S50000x8x1, .f32⟩
  | .hbm, ⟨85, _⟩ => ⟨S800000x1, .i32⟩
  | .hbm, ⟨86, _⟩ => ⟨S50000x8x1, .f32⟩
  | .hbm, ⟨87, _⟩ => ⟨S_, .f32⟩
  | .hbm, ⟨88, _⟩ => ⟨S50000x8x1, .f32⟩
  | .hbm, ⟨89, _⟩ => ⟨S50000x8x1, .f32⟩
  | .hbm, ⟨90, _⟩ => ⟨S50000x8x16, .f32⟩
  | .hbm, ⟨91, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_c_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S1x128_S800000x128_0_1 : S1x128.BroadcastsInDim S800000x128 (![0, 1] : Fin 2 → Fin S800000x128.rank)
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Bits.NodeProj.lean ====
/- The node-projection region (the first kernel call of the program): the kernel body's half of the frame, at
   a PARAMETER `V` — the TensorCore's buffer contents when the region is entered. Per window its block at a grid
   point; what the body leaves in the output window's buffer, as a function of the three input blocks; the body's
   triple; the pipeline's proof data and its body obligation. Generic in the float instance. -/
import proofs.«425955_j21569325760859_2_alg».proof.Proof.Gen.Kernel.Launch
import proofs.«425955_j21569325760859_2_alg».proof.Proof.Gen.Kernel.Skeleton
import proofs.«425955_j21569325760859_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it: a tile of 5000 rows of the
    node features (window 0) and of the projected output (window 3); the whole weight matrix (window 1) and the
    whole bias vector (window 2) at every point. -/
def blkNode (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds its block at every point, for any proof data whose array is `V`'s and
    whose body leaves the block in place. -/
theorem beforeNode_0_of {c : Dev nD} (dat : Dat τ (Elt F) Unit ℕ (UR sig nD τ) ℕ cfg0 c) (hA : dat.A 0 = V c (Pipeline.arrRef spec0 0))
    (hafter : ∀ t, dat.after 0 t = blkNode V c 0 t) (t : Fin cfg0.N) (d) : dat.before 0 t d = blkNode V c 0 t :=
  (dat.before_in_eq_fetched 0 rfl (fun _ => rfl) (fun _ _ _ => rfl) (fun t => by rw [hafter]; unfold Dat.blockOf blkNode; rw [hA]; try rfl) t d).trans
    (by unfold Dat.fetched Dat.blockOf blkNode; rw [hA]; try rfl)

/-- The weight matrix's staging buffer holds the matrix at every point, fetched there (the first point) or not
    (every later one: its block index never moves). -/
theorem beforeNode_1_of {c : Dev nD} (dat : Dat τ (Elt F) Unit ℕ (UR sig nD τ) ℕ cfg0 c) (hA : dat.A 1 = V c (Pipeline.arrRef spec0 1))
    (hafter : ∀ t, dat.after 1 t = blkNode V c 1 t) (t : Fin cfg0.N) (d) : dat.before 1 t d = blkNode V c 1 t :=
  (dat.before_in_eq_fetched 1 rfl (fun _ => rfl) (fun _ _ _ => rfl) (fun t => by rw [hafter]; unfold Dat.blockOf blkNode; rw [hA]; try rfl) t d).trans
    (by unfold Dat.fetched Dat.blockOf blkNode; rw [hA]; try rfl)

/-- The bias vector's staging buffer holds the vector at every point, likewise. -/
theorem beforeNode_2_of {c : Dev nD} (dat : Dat τ (Elt F) Unit ℕ (UR sig nD τ) ℕ cfg0 c) (hA : dat.A 2 = V c (Pipeline.arrRef spec0 2))
    (hafter : ∀ t, dat.after 2 t = blkNode V c 2 t) (t : Fin cfg0.N) (d) : dat.before 2 t d = blkNode V c 2 t :=
  (dat.before_in_eq_fetched 2 rfl (fun _ => rfl) (fun _ _ _ => rfl) (fun t => by rw [hafter]; unfold Dat.blockOf blkNode; rw [hA]; try rfl) t d).trans
    (by unfold Dat.fetched Dat.blockOf blkNode; rw [hA]; try rfl)

/-! ## The body's accesses: each buffer whole -/

abbrev rFeat : Rect S5000x128 := Rect.unit (s := S5000x128) ![0, 0] S5000x128.size inb_S5000x128_S5000x128_0_0
abbrev rWeight : Rect S128x384 := Rect.unit (s := S128x384) ![0, 0] S128x384.size inb_S128x384_S128x384_0_0
abbrev rBias : Rect S384 := Rect.unit (s := S384) ![0] S384.size inb_S384_S384_0
abbrev rProj : Rect S5000x384 := Rect.unit (s := S5000x384) ![0, 0] S5000x384.size inb_S5000x384_S5000x384_0_0

/-! ## What the body leaves in the output window's buffer -/

/-- The projected tile's staging buffer after the body, from the three input blocks: its one whole-buffer store,
    of the payload (feature tile times weight matrix, plus the bias down the rows) over what the body loaded. -/
def outNode (x0 : Vec F S5000x128 .f32) (x1 : Vec F S128x384 .f32) (x2 : Vec F S384 .f32) : Vec F S5000x384 .f32 :=
  View.canon [⟨rProj, k0_pay1 (View.ld x0 rFeat) (View.ld x1 rWeight) (View.ld x2 rBias)⟩]

/-- The one store is of the whole buffer, so it covers it. -/
theorem coverNode (p0 : Vec F S5000x384 .f32) (y : S5000x384.Idx) :
    ∃ pc ∈ ([⟨rProj, p0⟩] : List (View.Piece (Elt F) S5000x384 .f32)), y ∈ pc.1.set :=
  View.cover_of_tiled [⟨rProj, p0⟩] S5000x384.size (by rfl) y

/-! ## The body's triple -/

set_option maxHeartbeats 1000000 in
/-- The kernel body on whole staging memrefs, the inputs' at read contents `x0 x1 x2` and the output's at anything,
    runs to the continuation holding the inputs' as they were and the output's at `outNode` of the inputs'. The
    body's load of the output buffer before its store names a value nothing reads. -/
theorem sound_linear0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S384 .f32) (harg3 : arg3.IsWhole) (arg4 : Memref sig .tc .vmem S5000x384 .f32) (harg4 : arg4.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outNode x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverNode _)

/-! ## The pipeline's proof data -/

/-- The proof data of the node-projection pipeline on core `c`: the arrays as the region finds them (`V`); after
    the body at point `t` each input's buffer at its block and the output's at `outNode` of the input blocks; the
    invariant the scoped rest and the generator register, untouched; nothing owed; full shares. -/
def datNode (c : Dev nD) : Dat τ (Elt F) Unit ℕ (UR sig nD τ) ℕ cfg0 c where
  A w := V c (Pipeline.arrRef spec0 w)
  after w t := match w with
    | ⟨0, _⟩ => blkNode V c 0 t
    | ⟨1, _⟩ => blkNode V c 1 t
    | ⟨2, _⟩ => blkNode V c 2 t
    | ⟨3, _⟩ => outNode (blkNode V c 0 t) (blkNode V c 1 t) (blkNode V c 2 t)
  Φ _ := Pipeline.ΦA spec0 c
  q _ := fullShare
  owed _ := 0

/-- The proof data's arrays are the region-entry contents. -/
theorem datNode_A (c : Dev nD) (w : Fin cfg0.W) : (datNode V c).A w = V c (Pipeline.arrRef spec0 w) := by
  dsimp only [datNode]

/-- What the body leaves, window by window. -/
theorem datNode_after_0 (c : Dev nD) (t : Fin cfg0.N) : (datNode V c).after 0 t = blkNode V c 0 t := by dsimp only [datNode]
theorem datNode_after_1 (c : Dev nD) (t : Fin cfg0.N) : (datNode V c).after 1 t = blkNode V c 1 t := by dsimp only [datNode]
theorem datNode_after_2 (c : Dev nD) (t : Fin cfg0.N) : (datNode V c).after 2 t = blkNode V c 2 t := by dsimp only [datNode]
theorem datNode_after_3 (c : Dev nD) (t : Fin cfg0.N) :
    (datNode V c).after 3 t = outNode (blkNode V c 0 t) (blkNode V c 1 t) (blkNode V c 2 t) := by dsimp only [datNode]

/-- Each input's current staging buffer holds its block at every point, fetched there or not. -/
theorem datNode_before_0 (c : Dev nD) (t : Fin cfg0.N) (d) : (datNode V c).before 0 t d = blkNode V c 0 t :=
  beforeNode_0_of V (datNode V c) (datNode_A V c 0) (datNode_after_0 V c) t d
theorem datNode_before_1 (c : Dev nD) (t : Fin cfg0.N) (d) : (datNode V c).before 1 t d = blkNode V c 1 t :=
  beforeNode_1_of V (datNode V c) (datNode_A V c 1) (datNode_after_1 V c) t d
theorem datNode_before_2 (c : Dev nD) (t : Fin cfg0.N) (d) : (datNode V c).before 2 t d = blkNode V c 2 t :=
  beforeNode_2_of V (datNode V c) (datNode_A V c 2) (datNode_after_2 V c) t d

/-! ## The body obligation, at a generic point -/

/-- What the body is called with at point `t`, the windows one by one, -/
def bodyPreNode (c : Dev nD) (t : Fin cfg0.N) : sProp 𝕄 :=
  iprop((datNode V c).Φ t.castSucc ∗ (datNode V c).owesAt () t.castSucc
    ∗ (∃ d, owns (c : Thread nD τ) (st0_0 t) fullShare ((datNode V c).before 0 t d))
    ∗ (∃ d, owns (c : Thread nD τ) (st0_1 t) fullShare ((datNode V c).before 1 t d))
    ∗ (∃ d, owns (c : Thread nD τ) (st0_2 t) fullShare ((datNode V c).before 2 t d))
    ∗ (∃ d, owns (c : Thread nD τ) (st0_3 t) fullShare ((datNode V c).before 3 t d)))

/-- and what it returns. -/
def bodyPostNode (c : Dev nD) (t : Fin cfg0.N) : sProp 𝕄 :=
  iprop((datNode V c).Φ t.succ ∗ (datNode V c).owesAt () t.succ
    ∗ owns (c : Thread nD τ) (st0_0 t) fullShare ((datNode V c).after 0 t)
    ∗ owns (c : Thread nD τ) (st0_1 t) fullShare ((datNode V c).after 1 t)
    ∗ owns (c : Thread nD τ) (st0_2 t) fullShare ((datNode V c).after 2 t)
    ∗ owns (c : Thread nD τ) (st0_3 t) fullShare ((datNode V c).after 3 t))

/-- The body at any point: the inputs' memrefs hold their blocks, so the body's triple applies; the invariant and the
    core's debt pass through unread. -/
theorem sound_bodyNode (c : Dev nD) (t : Fin cfg0.N) :
    bodyPreNode V c t ⊢ wp frame (wpE (defs₀ (F := F)) Variants.none c none) Set.univ (bodyAt0 t) (fun _ => bodyPostNode V c t) := by
  unfold bodyPreNode bodyPostNode bodyAt0
  simp only [datNode_before_0, datNode_before_1, datNode_before_2]
  rw [show (datNode V c).Φ t.succ = (datNode V c).Φ t.castSucc from rfl,
    show (datNode V c).owesAt () t.succ = (datNode V c).owesAt () t.castSucc from rfl,
    datNode_after_0, datNode_after_1, datNode_after_2, datNode_after_3]
  iintro ⟨HΦ, Ho, ⟨%d0, H0⟩, ⟨%d1, H1⟩, ⟨%d2, H2⟩, ⟨%d3, H3⟩⟩
  iapply (sound_linear0 c Set.univ _ _ _ _ _ _ _ _ _ (blkNode V c 0 t) (blkNode V c 1 t) (blkNode V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligationNode (c : Dev nD) : BodyObligation (datNode (F := F) V c) (defs₀ (F := F)) Variants.none () Set.univ := fun t => by
  rw [bigSep_W0, bigSep_W0]
  exact sound_bodyNode V c t

end Cert.Kernel.Att

end
-- ==== Proof.Bits.EdgeProj.lean ====
/- The kernel body's half of the frame for the second pallas_call (the edge projection: a row tile of the edge
   features times a square weight matrix plus a bias row), at a PARAMETER `V`: the TensorCore's buffer contents
   when the region is entered.  Each window's block at a grid point, what the body leaves in the output window's
   buffer as a function of the input blocks, the body's triple, the pipeline's proof data and the body obligation. -/
import proofs.«425955_j21569325760859_2_alg».proof.Proof.Gen.Kernel.Launch
import proofs.«425955_j21569325760859_2_alg».proof.Proof.Gen.Kernel.Skeleton
import proofs.«425955_j21569325760859_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it (`V`). -/
def edgeProjBlk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The row tile of the edge features (window 0) is in its current buffer at every point, for ANY proof data whose
    array is `V`'s and whose body leaves the block in place. -/
theorem before_feat_of {c : Dev nD} (dat : Dat τ (Elt F) Unit ℕ (UR sig nD τ) ℕ cfg1 c)
    (hA : dat.A 0 = V c (Pipeline.arrRef spec1 0))
    (hafter : ∀ t, dat.after 0 t = edgeProjBlk V c 0 t) (t : Fin cfg1.N) (d) :
    dat.before 0 t d = edgeProjBlk V c 0 t :=
  (dat.before_in_eq_fetched 0 rfl (fun _ => rfl) (fun _ _ _ => rfl)
      (fun t => by rw [hafter]; unfold Dat.blockOf edgeProjBlk; rw [hA]; try rfl) t d).trans
    (by unfold Dat.fetched Dat.blockOf edgeProjBlk; rw [hA]; try rfl)

/-- The weight matrix (window 1), fetched at the first point only, is in its buffer at every point: unfetched, its
    block index has not moved. -/
theorem before_weight_of {c : Dev nD} (dat : Dat τ (Elt F) Unit ℕ (UR sig nD τ) ℕ cfg1 c)
    (hA : dat.A 1 = V c (Pipeline.arrRef spec1 1))
    (hafter : ∀ t, dat.after 1 t = edgeProjBlk V c 1 t) (t : Fin cfg1.N) (d) :
    dat.before 1 t d = edgeProjBlk V c 1 t :=
  (dat.before_in_eq_fetched 1 rfl (fun _ => rfl) (fun _ _ _ => rfl)
      (fun t => by rw [hafter]; unfold Dat.blockOf edgeProjBlk; rw [hA]; try rfl) t d).trans
    (by unfold Dat.fetched Dat.blockOf edgeProjBlk; rw [hA]; try rfl)

/-- The bias row (window 2), fetched at the first point only, likewise. -/
theorem before_bias_of {c : Dev nD} (dat : Dat τ (Elt F) Unit ℕ (UR sig nD τ) ℕ cfg1 c)
    (hA : dat.A 2 = V c (Pipeline.arrRef spec1 2))
    (hafter : ∀ t, dat.after 2 t = edgeProjBlk V c 2 t) (t : Fin cfg1.N) (d) :
    dat.before 2 t d = edgeProjBlk V c 2 t :=
  (dat.before_in_eq_fetched 2 rfl (fun _ => rfl) (fun _ _ _ => rfl)
      (fun t => by rw [hafter]; unfold Dat.blockOf edgeProjBlk; rw [hA]; try rfl) t d).trans
    (by unfold Dat.fetched Dat.blockOf edgeProjBlk; rw [hA]; try rfl)

/-! ## The body's accesses: each a whole buffer -/

abbrev rectTile : Rect S8000x128 := Rect.unit (s := S8000x128) ![0, 0] S8000x128.size inb_S8000x128_S8000x128_0_0
abbrev rectWeight : Rect S128x128 := Rect.unit (s := S128x128) ![0, 0] S128x128.size inb_S128x128_S128x128_0_0
abbrev rectBias : Rect S128 := Rect.unit (s := S128) ![0] S128.size inb_S128_S128_0

/-! ## What the body leaves in the output window's buffer -/

/-- The output tile's buffer after the body, from the three input blocks: its one whole-buffer store of the
    payload (the tile times the weights plus the bias row). -/
def edgeProjOut (x0 : Vec F S8000x128 .f32) (x1 : Vec F S128x128 .f32) (x2 : Vec F S128 .f32) : Vec F S8000x128 .f32 :=
  View.canon [⟨rectTile, k1_pay1 (View.ld x0 rectTile) (View.ld x1 rectWeight) (View.ld x2 rectBias)⟩]

/-- The one store is of the whole buffer, so it covers it. -/
theorem cover_out (p0 : Vec F S8000x128 .f32) (y : S8000x128.Idx) :
    ∃ pc ∈ ([⟨rectTile, p0⟩] : List (View.Piece (Elt F) S8000x128 .f32)), y ∈ pc.1.set :=
  View.cover_of_tiled [⟨rectTile, p0⟩] S8000x128.size (by rfl) y

/-! ## The body's triple -/

set_option maxHeartbeats 1000000 in
/-- The kernel body on whole staging memrefs, the inputs' at read contents `x0 x1 x2` and the output's at anything,
    runs to the continuation holding the inputs' as they were and the output's at `edgeProjOut` of the inputs'.  The
    body reads the output buffer once before storing all of it: that value is of the unknown prior contents and
    nothing uses it. -/
theorem sound_kernelEdgeProj (c : Dev nD) (E : Set ℕ) (i : grid1.Coords)
    (arg1 : Memref sig .tc .vmem S8000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S8000x128 .f32) (harg4 : arg4.IsWhole)
    (x0 : Vec F S8000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (edgeProjOut x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data of the edge projection's pipeline on core `c`: the arrays as the region finds them (`V`); after
    the body at point `t` each input's buffer at its block and the output's at `edgeProjOut` of the input blocks;
    the invariant the scoped rest and the generator register, untouched; nothing owed; full shares. -/
def datEdgeProj (c : Dev nD) : Dat τ (Elt F) Unit ℕ (UR sig nD τ) ℕ cfg1 c where
  A w := V c (Pipeline.arrRef spec1 w)
  after w t := match w with
    | ⟨0, _⟩ => edgeProjBlk V c 0 t
    | ⟨1, _⟩ => edgeProjBlk V c 1 t
    | ⟨2, _⟩ => edgeProjBlk V c 2 t
    | ⟨3, _⟩ => edgeProjOut (edgeProjBlk V c 0 t) (edgeProjBlk V c 1 t) (edgeProjBlk V c 2 t)
  Φ _ := Pipeline.ΦA spec1 c
  q _ := fullShare
  owed _ := 0

/-- The proof data's arrays are the region-entry contents. -/
theorem datEdgeProj_A (c : Dev nD) (w : Fin cfg1.W) : (datEdgeProj V c).A w = V c (Pipeline.arrRef spec1 w) := by
  dsimp only [datEdgeProj]

/-- What the body leaves, window by window. -/
theorem datEdgeProj_after_0 (c : Dev nD) (t : Fin cfg1.N) : (datEdgeProj V c).after 0 t = edgeProjBlk V c 0 t := by
  dsimp only [datEdgeProj]
theorem datEdgeProj_after_1 (c : Dev nD) (t : Fin cfg1.N) : (datEdgeProj V c).after 1 t = edgeProjBlk V c 1 t := by
  dsimp only [datEdgeProj]
theorem datEdgeProj_after_2 (c : Dev nD) (t : Fin cfg1.N) : (datEdgeProj V c).after 2 t = edgeProjBlk V c 2 t := by
  dsimp only [datEdgeProj]
theorem datEdgeProj_after_3 (c : Dev nD) (t : Fin cfg1.N) :
    (datEdgeProj V c).after 3 t = edgeProjOut (edgeProjBlk V c 0 t) (edgeProjBlk V c 1 t) (edgeProjBlk V c 2 t) := by
  dsimp only [datEdgeProj]

/-- Each input's current staging buffer holds its block at every point, fetched there or not. -/
theorem datEdgeProj_before_0 (c : Dev nD) (t : Fin cfg1.N) (d) : (datEdgeProj V c).before 0 t d = edgeProjBlk V c 0 t :=
  before_feat_of V (datEdgeProj V c) (datEdgeProj_A V c 0) (datEdgeProj_after_0 V c) t d
theorem datEdgeProj_before_1 (c : Dev nD) (t : Fin cfg1.N) (d) : (datEdgeProj V c).before 1 t d = edgeProjBlk V c 1 t :=
  before_weight_of V (datEdgeProj V c) (datEdgeProj_A V c 1) (datEdgeProj_after_1 V c) t d
theorem datEdgeProj_before_2 (c : Dev nD) (t : Fin cfg1.N) (d) : (datEdgeProj V c).before 2 t d = edgeProjBlk V c 2 t :=
  before_bias_of V (datEdgeProj V c) (datEdgeProj_A V c 2) (datEdgeProj_after_2 V c) t d

/-! ## The body obligation, at a generic point -/

/-- What the body is called with at point `t`, the windows one by one, -/
def bodyPreEdgeProj (c : Dev nD) (t : Fin cfg1.N) : sProp 𝕄 :=
  iprop((datEdgeProj V c).Φ t.castSucc ∗ (datEdgeProj V c).owesAt () t.castSucc
    ∗ (∃ d, owns (c : Thread nD τ) (st1_0 t) fullShare ((datEdgeProj V c).before 0 t d))
    ∗ (∃ d, owns (c : Thread nD τ) (st1_1 t) fullShare ((datEdgeProj V c).before 1 t d))
    ∗ (∃ d, owns (c : Thread nD τ) (st1_2 t) fullShare ((datEdgeProj V c).before 2 t d))
    ∗ (∃ d, owns (c : Thread nD τ) (st1_3 t) fullShare ((datEdgeProj V c).before 3 t d)))

/-- and what it returns. -/
def bodyPostEdgeProj (c : Dev nD) (t : Fin cfg1.N) : sProp 𝕄 :=
  iprop((datEdgeProj V c).Φ t.succ ∗ (datEdgeProj V c).owesAt () t.succ
    ∗ owns (c : Thread nD τ) (st1_0 t) fullShare ((datEdgeProj V c).after 0 t)
    ∗ owns (c : Thread nD τ) (st1_1 t) fullShare ((datEdgeProj V c).after 1 t)
    ∗ owns (c : Thread nD τ) (st1_2 t) fullShare ((datEdgeProj V c).after 2 t)
    ∗ owns (c : Thread nD τ) (st1_3 t) fullShare ((datEdgeProj V c).after 3 t))

/-- The body at any point: the inputs' memrefs hold their blocks, so the body's triple applies; the invariant and
    the core's debts pass through unread. -/
theorem sound_bodyEdgeProj (c : Dev nD) (t : Fin cfg1.N) :
    bodyPreEdgeProj V c t ⊢ wp frame (wpE (defs₀ (F := F)) Variants.none c none) Set.univ (bodyAt1 t) (fun _ => bodyPostEdgeProj V c t) := by
  unfold bodyPreEdgeProj bodyPostEdgeProj bodyAt1
  simp only [datEdgeProj_before_0, datEdgeProj_before_1, datEdgeProj_before_2]
  rw [show (datEdgeProj V c).Φ t.succ = (datEdgeProj V c).Φ t.castSucc from rfl,
    show (datEdgeProj V c).owesAt () t.succ = (datEdgeProj V c).owesAt () t.castSucc from rfl,
    datEdgeProj_after_0, datEdgeProj_after_1, datEdgeProj_after_2, datEdgeProj_after_3]
  iintro ⟨HΦ, Ho, ⟨%d0, H0⟩, ⟨%d1, H1⟩, ⟨%d2, H2⟩, ⟨%d3, H3⟩⟩
  iapply (sound_kernelEdgeProj c Set.univ _ _ _ _ _ _ _ _ _ (edgeProjBlk V c 0 t) (edgeProjBlk V c 1 t) (edgeProjBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligationEdgeProj (c : Dev nD) :
    BodyObligation (datEdgeProj (F := F) V c) (defs₀ (F := F)) Variants.none () Set.univ := fun t => by
  rw [bigSep_W1, bigSep_W1]
  exact sound_bodyEdgeProj V c t

end Cert.Kernel.Att

end
-- ==== Proof.Bits.EdgeAttn.lean ====
/- The edge-attention region of the kernel program: the kernel body's half of the
   frame, at a parameter `V`, the TensorCore's buffer contents when the region is entered. Each input
   window's staging buffer holds its block of the array it windows; the body stores three whole buffers
   (scores, weighted values, head weights), each the payload of the input blocks. -/
import proofs.«425955_j21569325760859_2_alg».proof.Proof.Gen.Kernel.Launch
import proofs.«425955_j21569325760859_2_alg».proof.Proof.Gen.Kernel.Skeleton
import proofs.«425955_j21569325760859_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def edgeBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem edge_before_of_0 {c : Dev nD} (dat : Dat τ (Elt F) Unit ℕ (UR sig nD τ) ℕ cfg2 c) (hA : dat.A 0 = V c (Pipeline.arrRef spec2 0))
    (hafter : ∀ t, dat.after 0 t = edgeBlk V c 0 t) (t : Fin cfg2.N) (d) : dat.before 0 t d = edgeBlk V c 0 t :=
  (dat.before_in_eq_fetched 0 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 1's current staging buffer holds its block at every point, fetched there or not, for any proof
    data whose array is `V`'s and whose body leaves the block in place. -/
theorem edge_before_of_1 {c : Dev nD} (dat : Dat τ (Elt F) Unit ℕ (UR sig nD τ) ℕ cfg2 c) (hA : dat.A 1 = V c (Pipeline.arrRef spec2 1))
    (hafter : ∀ t, dat.after 1 t = edgeBlk V c 1 t) (t : Fin cfg2.N) (d) : dat.before 1 t d = edgeBlk V c 1 t :=
  (dat.before_in_eq_fetched 1 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 2's current staging buffer holds its block at every point, fetched there or not, for any proof
    data whose array is `V`'s and whose body leaves the block in place. -/
theorem edge_before_of_2 {c : Dev nD} (dat : Dat τ (Elt F) Unit ℕ (UR sig nD τ) ℕ cfg2 c) (hA : dat.A 2 = V c (Pipeline.arrRef spec2 2))
    (hafter : ∀ t, dat.after 2 t = edgeBlk V c 2 t) (t : Fin cfg2.N) (d) : dat.before 2 t d = edgeBlk V c 2 t :=
  (dat.before_in_eq_fetched 2 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 3's current staging buffer holds its block at every point, fetched there or not, for any proof
    data whose array is `V`'s and whose body leaves the block in place. -/
theorem edge_before_of_3 {c : Dev nD} (dat : Dat τ (Elt F) Unit ℕ (UR sig nD τ) ℕ cfg2 c) (hA : dat.A 3 = V c (Pipeline.arrRef spec2 3))
    (hafter : ∀ t, dat.after 3 t = edgeBlk V c 3 t) (t : Fin cfg2.N) (d) : dat.before 3 t d = edgeBlk V c 3 t :=
  (dat.before_in_eq_fetched 3 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 4's current staging buffer holds its block at every point, fetched there or not, for any proof
    data whose array is `V`'s and whose body leaves the block in place. -/
theorem edge_before_of_4 {c : Dev nD} (dat : Dat τ (Elt F) Unit ℕ (UR sig nD τ) ℕ cfg2 c) (hA : dat.A 4 = V c (Pipeline.arrRef spec2 4))
    (hafter : ∀ t, dat.after 4 t = edgeBlk V c 4 t) (t : Fin cfg2.N) (d) : dat.before 4 t d = edgeBlk V c 4 t :=
  (dat.before_in_eq_fetched 4 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 5's current staging buffer holds its block at every point, fetched there or not, for any proof
    data whose array is `V`'s and whose body leaves the block in place. -/
theorem edge_before_of_5 {c : Dev nD} (dat : Dat τ (Elt F) Unit ℕ (UR sig nD τ) ℕ cfg2 c) (hA : dat.A 5 = V c (Pipeline.arrRef spec2 5))
    (hafter : ∀ t, dat.after 5 t = edgeBlk V c 5 t) (t : Fin cfg2.N) (d) : dat.before 5 t d = edgeBlk V c 5 t :=
  (dat.before_in_eq_fetched 5 rfl (fun _ => rfl) (fun _ _ _ => rfl) (fun t => by rw [hafter]; unfold Dat.blockOf edgeBlk; rw [hA]; try rfl) t d).trans
    (by unfold Dat.fetched Dat.blockOf edgeBlk; rw [hA]; try rfl)

/-! ## The body's accesses: each a whole buffer -/

abbrev rTile : Rect S3200x128 := Rect.unit (s := S3200x128) ![0, 0] S3200x128.size inb_S3200x128_S3200x128_0_0
abbrev rSel : Rect S128x8 := Rect.unit (s := S128x8) ![0, 0] S128x8.size inb_S128x8_S128x8_0_0
abbrev rSpread : Rect S8x128 := Rect.unit (s := S8x128) ![0, 0] S8x128.size inb_S8x128_S8x128_0_0
abbrev rHead : Rect S3200x8 := Rect.unit (s := S3200x8) ![0, 0] S3200x8.size inb_S3200x8_S3200x8_0_0

/-! ## What the body leaves in each output window's buffer -/

/-- The scores' buffer after the body: its one whole-buffer store, the score payload of the key, query and edge-feature blocks. -/
def outScore (xk xq xe : Vec F S3200x128 .f32) : Vec F S3200x128 .f32 :=
  View.canon [⟨rTile, k2_pay1 (View.ld xk rTile) (View.ld xq rTile) (View.ld xe rTile)⟩]

/-- The weighted values' buffer after the body: its one whole-buffer store, the payload of all six input blocks. -/
def outWval (xk xq xv xe : Vec F S3200x128 .f32) (m1 : Vec F S128x8 .f32) (m2 : Vec F S8x128 .f32) : Vec F S3200x128 .f32 :=
  View.canon [⟨rTile, k2_pay3 (View.ld xk rTile) (View.ld xq rTile) (View.ld xv rTile) (View.ld xe rTile) (View.ld m1 rSel) (View.ld m2 rSpread)⟩]

/-- The head weights' buffer after the body: its one whole-buffer store. -/
def outWgt (xk xq xe : Vec F S3200x128 .f32) (m1 : Vec F S128x8 .f32) : Vec F S3200x8 .f32 :=
  View.canon [⟨rHead, k2_pay2 (View.ld xk rTile) (View.ld xq rTile) (View.ld xe rTile) (View.ld m1 rSel)⟩]

/-- A whole-buffer store covers the buffer. -/
theorem cover_tile (p : Vec F S3200x128 .f32) (y : S3200x128.Idx) :
    ∃ pc ∈ ([⟨rTile, p⟩] : List (View.Piece (Elt F) S3200x128 .f32)), y ∈ pc.1.set :=
  View.cover_of_tiled [⟨rTile, p⟩] S3200x128.size (by rfl) y

theorem cover_head (p : Vec F S3200x8 .f32) (y : S3200x8.Idx) :
    ∃ pc ∈ ([⟨rHead, p⟩] : List (View.Piece (Elt F) S3200x8 .f32)), y ∈ pc.1.set :=
  View.cover_of_tiled [⟨rHead, p⟩] S3200x8.size (by rfl) y

/-! ## The body's triple -/

set_option maxHeartbeats 1000000 in
/-- The kernel body on whole staging memrefs, the inputs' at read contents and the outputs' at anything, runs to the
    continuation holding the inputs' as they were and each output's at its payload of the inputs'. Each output
    buffer is loaded once before it is stored whole: the loaded value is of the buffer's unknown contents and
    nothing reads it. -/
theorem sound_edge_kernel (c : Dev nD) (E : Set ℕ) (i : grid2.Coords) (arg1 : Memref sig .tc .vmem S3200x128 .f32) (harg1 : arg1.IsWhole) (arg2 : Memref sig .tc .vmem S3200x128 .f32) (harg2 : arg2.IsWhole) (arg3 : Memref sig .tc .vmem S3200x128 .f32) (harg3 : arg3.IsWhole) (arg4 : Memref sig .tc .vmem S3200x128 .f32) (harg4 : arg4.IsWhole) (arg5 : Memref sig .tc .vmem S128x8 .f32) (harg5 : arg5.IsWhole) (arg6 : Memref sig .tc .vmem S8x128 .f32) (harg6 : arg6.IsWhole) (arg7 : Memref sig .tc .vmem S3200x128 .f32) (harg7 : arg7.IsWhole) (arg8 : Memref sig .tc .vmem S3200x128 .f32) (harg8 : arg8.IsWhole) (arg9 : Memref sig .tc .vmem S3200x8 .f32) (harg9 : arg9.IsWhole)
    (xk xq xv xe : Vec F S3200x128 .f32) (m1 : Vec F S128x8 .f32) (m2 : Vec F S8x128 .f32) (K : PUnit → sProp 𝕄) :
    iprop(owns (c : Thread nD τ) arg1 fullShare xk
        ∗ owns (c : Thread nD τ) arg2 fullShare xq
        ∗ owns (c : Thread nD τ) arg3 fullShare xv
        ∗ owns (c : Thread nD τ) arg4 fullShare xe
        ∗ owns (c : Thread nD τ) arg5 fullShare m1
        ∗ owns (c : Thread nD τ) arg6 fullShare m2
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare xk
            ∗ owns (c : Thread nD τ) arg2 fullShare xq
            ∗ owns (c : Thread nD τ) arg3 fullShare xv
            ∗ owns (c : Thread nD τ) arg4 fullShare xe
            ∗ owns (c : Thread nD τ) arg5 fullShare m1
            ∗ owns (c : Thread nD τ) arg6 fullShare m2
            ∗ owns (c : Thread nD τ) arg7 fullShare (outScore xk xq xe)
            ∗ owns (c : Thread nD τ) arg8 fullShare (outWval xk xq xv xe m1 m2)
            ∗ owns (c : Thread nD τ) arg9 fullShare (outWgt xk xq xe m1)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8 arg9 harg9) K := by
  simp only [cc2__edge_kernel_eq_skeleton]; unfold cc2__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_tile _)
  isplitl [H8]
  · iexists _; isplitr
    swap; · iexact H8
    ipureintro
    exact View.read_writes_eq_canon _ _ _ (cover_tile _)
  iexists _; isplitr
  swap; · iexact H9
  ipureintro
  exact View.read_writes_eq_canon _ _ _ (cover_head _)

/-! ## The pipeline's proof data -/

/-- The proof data of the edge-attention pipeline on core `c`: the arrays as the region finds them; after the body at
    point `t` each input's buffer at its block and each output's at its payload of the input blocks; the invariant
    the scoped rest and the generator register, untouched; nothing owed; full shares. -/
def datEdge (c : Dev nD) : Dat τ (Elt F) Unit ℕ (UR sig nD τ) ℕ cfg2 c where
  A w := V c (Pipeline.arrRef spec2 w)
  after w t := match w with
    | ⟨0, _⟩ => edgeBlk V c 0 t
    | ⟨1, _⟩ => edgeBlk V c 1 t
    | ⟨2, _⟩ => edgeBlk V c 2 t
    | ⟨3, _⟩ => edgeBlk V c 3 t
    | ⟨4, _⟩ => edgeBlk V c 4 t
    | ⟨5, _⟩ => edgeBlk V c 5 t
    | ⟨6, _⟩ => outScore (edgeBlk V c 0 t) (edgeBlk V c 1 t) (edgeBlk V c 3 t)
    | ⟨7, _⟩ => outWval (edgeBlk V c 0 t) (edgeBlk V c 1 t) (edgeBlk V c 2 t) (edgeBlk V c 3 t) (edgeBlk V c 4 t) (edgeBlk V c 5 t)
    | ⟨8, _⟩ => outWgt (edgeBlk V c 0 t) (edgeBlk V c 1 t) (edgeBlk V c 3 t) (edgeBlk V c 4 t)
  Φ _ := Pipeline.ΦA spec2 c
  q _ := fullShare
  owed _ := 0

/-- The proof data's arrays are the region-entry contents. -/
theorem datEdge_A (c : Dev nD) (w : Fin cfg2.W) : (datEdge V c).A w = V c (Pipeline.arrRef spec2 w) := by
  dsimp only [datEdge]

/-- What the body leaves, window by window. -/
theorem datEdge_after_0 (c : Dev nD) (t : Fin cfg2.N) : (datEdge V c).after 0 t = edgeBlk V c 0 t := by dsimp only [datEdge]
theorem datEdge_after_1 (c : Dev nD) (t : Fin cfg2.N) : (datEdge V c).after 1 t = edgeBlk V c 1 t := by dsimp only [datEdge]
theorem datEdge_after_2 (c : Dev nD) (t : Fin cfg2.N) : (datEdge V c).after 2 t = edgeBlk V c 2 t := by dsimp only [datEdge]
theorem datEdge_after_3 (c : Dev nD) (t : Fin cfg2.N) : (datEdge V c).after 3 t = edgeBlk V c 3 t := by dsimp only [datEdge]
theorem datEdge_after_4 (c : Dev nD) (t : Fin cfg2.N) : (datEdge V c).after 4 t = edgeBlk V c 4 t := by dsimp only [datEdge]
theorem datEdge_after_5 (c : Dev nD) (t : Fin cfg2.N) : (datEdge V c).after 5 t = edgeBlk V c 5 t := by dsimp only [datEdge]
theorem datEdge_after_6 (c : Dev nD) (t : Fin cfg2.N) : (datEdge V c).after 6 t = outScore (edgeBlk V c 0 t) (edgeBlk V c 1 t) (edgeBlk V c 3 t) := by dsimp only [datEdge]
theorem datEdge_after_7 (c : Dev nD) (t : Fin cfg2.N) : (datEdge V c).after 7 t = outWval (edgeBlk V c 0 t) (edgeBlk V c 1 t) (edgeBlk V c 2 t) (edgeBlk V c 3 t) (edgeBlk V c 4 t) (edgeBlk V c 5 t) := by dsimp only [datEdge]
theorem datEdge_after_8 (c : Dev nD) (t : Fin cfg2.N) : (datEdge V c).after 8 t = outWgt (edgeBlk V c 0 t) (edgeBlk V c 1 t) (edgeBlk V c 3 t) (edgeBlk V c 4 t) := by dsimp only [datEdge]

/-- Each input's current staging buffer holds its block at every point, fetched there or not. -/
theorem datEdge_before_0 (c : Dev nD) (t : Fin cfg2.N) (d) : (datEdge V c).before 0 t d = edgeBlk V c 0 t :=
  edge_before_of_0 V (datEdge V c) (datEdge_A V c 0) (datEdge_after_0 V c) t d
theorem datEdge_before_1 (c : Dev nD) (t : Fin cfg2.N) (d) : (datEdge V c).before 1 t d = edgeBlk V c 1 t :=
  edge_before_of_1 V (datEdge V c) (datEdge_A V c 1) (datEdge_after_1 V c) t d
theorem datEdge_before_2 (c : Dev nD) (t : Fin cfg2.N) (d) : (datEdge V c).before 2 t d = edgeBlk V c 2 t :=
  edge_before_of_2 V (datEdge V c) (datEdge_A V c 2) (datEdge_after_2 V c) t d
theorem datEdge_before_3 (c : Dev nD) (t : Fin cfg2.N) (d) : (datEdge V c).before 3 t d = edgeBlk V c 3 t :=
  edge_before_of_3 V (datEdge V c) (datEdge_A V c 3) (datEdge_after_3 V c) t d
theorem datEdge_before_4 (c : Dev nD) (t : Fin cfg2.N) (d) : (datEdge V c).before 4 t d = edgeBlk V c 4 t :=
  edge_before_of_4 V (datEdge V c) (datEdge_A V c 4) (datEdge_after_4 V c) t d
theorem datEdge_before_5 (c : Dev nD) (t : Fin cfg2.N) (d) : (datEdge V c).before 5 t d = edgeBlk V c 5 t :=
  edge_before_of_5 V (datEdge V c) (datEdge_A V c 5) (datEdge_after_5 V c) t d

/-! ## The body obligation, at a generic point -/

/-- What the body is called with at point `t`, the windows one by one, -/
def edgeBodyPre (c : Dev nD) (t : Fin cfg2.N) : sProp 𝕄 :=
  iprop((datEdge V c).Φ t.castSucc ∗ (datEdge V c).owesAt () t.castSucc
    ∗ (∃ d, owns (c : Thread nD τ) (st2_0 t) fullShare ((datEdge V c).before 0 t d))
    ∗ (∃ d, owns (c : Thread nD τ) (st2_1 t) fullShare ((datEdge V c).before 1 t d))
    ∗ (∃ d, owns (c : Thread nD τ) (st2_2 t) fullShare ((datEdge V c).before 2 t d))
    ∗ (∃ d, owns (c : Thread nD τ) (st2_3 t) fullShare ((datEdge V c).before 3 t d))
    ∗ (∃ d, owns (c : Thread nD τ) (st2_4 t) fullShare ((datEdge V c).before 4 t d))
    ∗ (∃ d, owns (c : Thread nD τ) (st2_5 t) fullShare ((datEdge V c).before 5 t d))
    ∗ (∃ d, owns (c : Thread nD τ) (st2_6 t) fullShare ((datEdge V c).before 6 t d))
    ∗ (∃ d, owns (c : Thread nD τ) (st2_7 t) fullShare ((datEdge V c).before 7 t d))
    ∗ (∃ d, owns (c : Thread nD τ) (st2_8 t) fullShare ((datEdge V c).before 8 t d)))

/-- and what it returns. -/
def edgeBodyPost (c : Dev nD) (t : Fin cfg2.N) : sProp 𝕄 :=
  iprop((datEdge V c).Φ t.succ ∗ (datEdge V c).owesAt () t.succ
    ∗ owns (c : Thread nD τ) (st2_0 t) fullShare ((datEdge V c).after 0 t)
    ∗ owns (c : Thread nD τ) (st2_1 t) fullShare ((datEdge V c).after 1 t)
    ∗ owns (c : Thread nD τ) (st2_2 t) fullShare ((datEdge V c).after 2 t)
    ∗ owns (c : Thread nD τ) (st2_3 t) fullShare ((datEdge V c).after 3 t)
    ∗ owns (c : Thread nD τ) (st2_4 t) fullShare ((datEdge V c).after 4 t)
    ∗ owns (c : Thread nD τ) (st2_5 t) fullShare ((datEdge V c).after 5 t)
    ∗ owns (c : Thread nD τ) (st2_6 t) fullShare ((datEdge V c).after 6 t)
    ∗ owns (c : Thread nD τ) (st2_7 t) fullShare ((datEdge V c).after 7 t)
    ∗ owns (c : Thread nD τ) (st2_8 t) fullShare ((datEdge V c).after 8 t))

set_option maxHeartbeats 1000000 in
/-- The body at any point: the inputs' memrefs hold their blocks, so the body's triple applies; the invariant and
    the core's owed tallies pass through unread. -/
theorem sound_edge_body (c : Dev nD) (t : Fin cfg2.N) :
    edgeBodyPre V c t ⊢ wp frame (wpE (defs₀ (F := F)) Variants.none c none) Set.univ (bodyAt2 t) (fun _ => edgeBodyPost V c t) := by
  unfold edgeBodyPre edgeBodyPost bodyAt2
  simp only [datEdge_before_0, datEdge_before_1, datEdge_before_2, datEdge_before_3, datEdge_before_4, datEdge_before_5]
  rw [show (datEdge V c).Φ t.succ = (datEdge V c).Φ t.castSucc from rfl,
    show (datEdge V c).owesAt () t.succ = (datEdge V c).owesAt () t.castSucc from rfl,
    datEdge_after_0, datEdge_after_1, datEdge_after_2, datEdge_after_3, datEdge_after_4, datEdge_after_5, datEdge_after_6, datEdge_after_7, datEdge_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_edge_kernel c Set.univ _ _ _ _ _ _ _ _ _ _ _ _ _ _ _ _ _ _ _ (edgeBlk V c 0 t) (edgeBlk V c 1 t) (edgeBlk V c 2 t) (edgeBlk V c 3 t) (edgeBlk V c 4 t) (edgeBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligationEdge (c : Dev nD) : BodyObligation (datEdge (F := F) V c) (defs₀ (F := F)) Variants.none () Set.univ := fun t => by
  rw [bigSep_W2, bigSep_W2]
  exact sound_edge_body V c t

end Cert.Kernel.Att

end
-- ==== Proof.Bits.Run.lean ====
/- The kernel program's run, from the launch to the return.

   @main is nine items in a row: host operations, the node projection (one pipelined kernel region), host operations,
   the edge projection (a second region), three stretches of host operations (the three row gathers), the edge kernel
   (a third region) and the closing host operations. Between two items the TensorCore holds every unscoped buffer whole
   at known contents: those at the launch, then after each stretch of host operations what the operations compute
   from them, and after each region the region's arrays at what its write-backs leave, every other buffer as it was.
   Each region's body is run once per grid point against the region's proof data; the launch theorem for a program of
   several regions puts the items together. The final contents of every unscoped buffer are then read off the last
   valuation, which is what both the frame and the value claim start from. -/
import proofs.«425955_j21569325760859_2_alg».proof.Proof.Bits.NodeProj
import proofs.«425955_j21569325760859_2_alg».proof.Proof.Bits.EdgeProj
import proofs.«425955_j21569325760859_2_alg».proof.Proof.Bits.EdgeAttn
import proofs.«425955_j21569325760859_2_alg».proof.Proof.Gen.Kernel.Regions

set_option maxRecDepth 16384

noncomputable section

namespace Cert.Kernel.Att

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At the launch. -/
abbrev W0 : Dev nD → Valuation τ sig (Elt F) := fun c b => m ((c : Dev nD), b)
/-- After the first host operations (the two 0/1 matrices and the concatenated weights and biases). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the node projection: its arrays at what the write-backs leave. -/
def W2 (c : Dev nD) : Valuation τ sig (Elt F) :=
  Pipeline.withArrays spec0 c (W1 m c) fun w => (datNode (V1 m) c).arrAt w cfg0.N
theorem W2_arr (c : Dev nD) (w : Fin cfg0.W) :
    W2 m c (Proc.devRef .tc (Pipeline.arrRef spec0 w)) = (datNode (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exitNode_arr (c : Dev nD) (w : Fin cfg0.W) : (datNode (V1 m) c).arrAt w cfg0.N = V2 m c (Pipeline.arrRef spec0 w) :=
  (W2_arr m c w).symm
theorem exitNode_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three column slices (queries, keys, values of the nodes). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the edge projection. -/
def W4 (c : Dev nD) : Valuation τ sig (Elt F) :=
  Pipeline.withArrays spec1 c (W3 m c) fun w => (datEdgeProj (V3 m) c).arrAt w cfg1.N
theorem W4_arr (c : Dev nD) (w : Fin cfg1.W) :
    W4 m c (Proc.devRef .tc (Pipeline.arrRef spec1 w)) = (datEdgeProj (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exitEdgeProj_arr (c : Dev nD) (w : Fin cfg1.W) : (datEdgeProj (V3 m) c).arrAt w cfg1.N = V4 m c (Pipeline.arrRef spec1 w) :=
  (W4_arr m c w).symm
theorem exitEdgeProj_rest (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the three row gathers: keys of the sources, queries of the destinations, values of the sources. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev V7 : (c : Dev nD) → (b : Ref sig .tc) → Buf (Elt F) ((c : Thread nD τ).loc b) := fun c b => W7 m c b
/-- After the edge kernel. -/
def W8 (c : Dev nD) : Valuation τ sig (Elt F) :=
  Pipeline.withArrays spec2 c (W7 m c) fun w => (datEdge (V7 m) c).arrAt w cfg2.N
theorem W8_arr (c : Dev nD) (w : Fin cfg2.W) :
    W8 m c (Proc.devRef .tc (Pipeline.arrRef spec2 w)) = (datEdge (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem exitEdge_arr (c : Dev nD) (w : Fin cfg2.W) : (datEdge (V7 m) c).arrAt w cfg2.N = V8 m c (Pipeline.arrRef spec2 w) :=
  (W8_arr m c w).symm
theorem exitEdge_rest (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the closing host operations: the contents @main returns with. -/
abbrev W9 : Dev nD → Valuation τ sig (Elt F) := fun c => StableHlo.after hostOps3 (W8 m c)

/-! ## The proof data of the three pipelines, each at its region's entry contents -/

def pdats : (p : Fin 3) → (c : Dev nD) → Dat τ (Elt F) Unit ℕ (UR sig nD τ) ℕ (Pipeline.pin (pcfgs (F := F)) adm p) c
  | ⟨0, _⟩ => fun c => datNode (V1 m) c
  | ⟨1, _⟩ => fun c => datEdgeProj (V3 m) c
  | ⟨2, _⟩ => fun c => datEdge (V7 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- A stretch of host operations as an item: from every unscoped buffer at `W` to them at what the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W9 m c) ∗ ∃ r, prngReg c r)

/-! ## The three regions as items -/

set_option backward.isDefEq.respectTransparency.types false in
/-- The node projection: entered from every unscoped buffer at `W1`, left at `W2`. -/
def regNode : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationNode (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitNode_arr m c) (exitNode_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge projection: entered from `W3`, left at `W4`. -/
def regEdgeProj : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationEdgeProj (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitEdgeProj_arr m c) (exitEdgeProj_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge kernel: entered from `W7`, left at `W8`. -/
def regEdge : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligationEdge (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (exitEdge_arr m c) (exitEdge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the nine items, and the launch -/

abbrev segs : List (Pipeline.Seg (pcfgs (F := F)) adm (pdats m) () defs₀ 𝒱₀ L lv) :=
  [ .host (hseg hostOps0 hostOps0_sub hostOps0_fresh (W0 m)),
    .region (regNode m),
    .host (hseg hostOps1 hostOps1_sub hostOps1_fresh (W2 m)),
    .region (regEdgeProj m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (regEdge m),
    .host (hseg hostOps3 hostOps3_sub hostOps3_fresh (W8 m)) ]

/-- @main IS the run of the nine items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped buffer at the last valuation `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps3 (W8 m c)) ∗ R c) ⊢ _
        iintro ⟨Hh, ⟨Hp, Ho⟩⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## Buffers no item writes keep their contents -/

/-- An input array of the node projection is handed back as it was entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((datNode (V1 m) c).arrAt_in w hw _).trans (datNode_A (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((datEdgeProj (V3 m) c).arrAt_in w hw _).trans (datEdgeProj_A (V3 m) c w))
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((datEdge (V7 m) c).arrAt_in w hw _).trans (datEdge_A (V7 m) c w))

theorem W1_keep (c : Dev nD) (b : Ref sig .tc) (h : b ∉ hostOps0_W) : W1 m c b = W0 m c b :=
  StableHlo.after_of_writes_sub hostOps0 _ hostOps0_writes h
theorem W3_keep (c : Dev nD) (b : Ref sig .tc) (h : b ∉ hostOps1_W) : W3 m c b = W2 m c b :=
  StableHlo.after_of_writes_sub hostOps1 _ hostOps1_writes h
theorem W5_keep (c : Dev nD) (b : Ref sig .tc) (h : b ∉ hostOps2_W) : W5 m c b = W4 m c b :=
  StableHlo.after_of_writes_sub hostOps2 _ hostOps2_writes h
theorem W6_keep (c : Dev nD) (b : Ref sig .tc) (h : b ∉ hostOps2_1_W) : W6 m c b = W5 m c b :=
  StableHlo.after_of_writes_sub hostOps2_1 _ hostOps2_1_writes h
theorem W7_keep (c : Dev nD) (b : Ref sig .tc) (h : b ∉ hostOps2_2_W) : W7 m c b = W6 m c b :=
  StableHlo.after_of_writes_sub hostOps2_2 _ hostOps2_2_writes h
theorem W9_keep (c : Dev nD) (b : Ref sig .tc) (h : b ∉ hostOps3_W) : W9 m c b = W8 m c b :=
  StableHlo.after_of_writes_sub hostOps3 _ hostOps3_writes h

/-- A buffer that no stretch of host operations writes and no region changes ends as launched. -/
theorem W9_launch (c : Dev nD) (b : Ref sig .tc) (h9 : b ∉ hostOps3_W) (h8 : W8 m c b = W7 m c b) (h7 : b ∉ hostOps2_2_W)
    (h6 : b ∉ hostOps2_1_W) (h5 : b ∉ hostOps2_W) (h4 : W4 m c b = W3 m c b) (h3 : b ∉ hostOps1_W) (h2 : W2 m c b = W1 m c b)
    (h1 : b ∉ hostOps0_W) : W9 m c b = m ((c : Thread nD τ).loc b) :=
  (W9_keep m c b h9).trans <| h8.trans <| (W7_keep m c b h7).trans <| (W6_keep m c b h6).trans <| (W5_keep m c b h5).trans <|
    h4.trans <| (W3_keep m c b h3).trans <| h2.trans <| (W1_keep m c b h1).trans rfl

theorem W9_main_arg0 (c : Dev nD) : W9 m c main_arg0 = m ((c : Thread nD τ).loc main_arg0) :=
  W9_launch m c main_arg0 (by decide) (W8_of_ne m c _ (by decide)) (by decide) (by decide) (by decide) (W4_of_ne m c _ (by decide)) (by decide) (W2_in m c 0 rfl) (by decide)
theorem W9_main_arg1 (c : Dev nD) : W9 m c main_arg1 = m ((c : Thread nD τ).loc main_arg1) :=
  W9_launch m c main_arg1 (by decide) (W8_of_ne m c _ (by decide)) (by decide) (by decide) (by decide) (W4_in m c 0 rfl) (by decide) (W2_of_ne m c _ (by decide)) (by decide)
theorem W9_main_arg2 (c : Dev nD) : W9 m c main_arg2 = m ((c : Thread nD τ).loc main_arg2) :=
  W9_launch m c main_arg2 (by decide) (W8_of_ne m c _ (by decide)) (by decide) (by decide) (by decide) (W4_of_ne m c _ (by decide)) (by decide) (W2_of_ne m c _ (by decide)) (by decide)
theorem W9_main_arg3 (c : Dev nD) : W9 m c main_arg3 = m ((c : Thread nD τ).loc main_arg3) :=
  W9_launch m c main_arg3 (by decide) (W8_of_ne m c _ (by decide)) (by decide) (by decide) (by decide) (W4_of_ne m c _ (by decide)) (by decide) (W2_of_ne m c _ (by decide)) (by decide)
theorem W9_main_arg4 (c : Dev nD) : W9 m c main_arg4 = m ((c : Thread nD τ).loc main_arg4) :=
  W9_launch m c main_arg4 (by decide) (W8_of_ne m c _ (by decide)) (by decide) (by decide) (by decide) (W4_of_ne m c _ (by decide)) (by decide) (W2_of_ne m c _ (by decide)) (by decide)
theorem W9_main_arg5 (c : Dev nD) : W9 m c main_arg5 = m ((c : Thread nD τ).loc main_arg5) :=
  W9_launch m c main_arg5 (by decide) (W8_of_ne m c _ (by decide)) (by decide) (by decide) (by decide) (W4_of_ne m c _ (by decide)) (by decide) (W2_of_ne m c _ (by decide)) (by decide)
theorem W9_main_arg6 (c : Dev nD) : W9 m c main_arg6 = m ((c : Thread nD τ).loc main_arg6) :=
  W9_launch m c main_arg6 (by decide) (W8_of_ne m c _ (by decide)) (by decide) (by decide) (by decide) (W4_of_ne m c _ (by decide)) (by decide) (W2_of_ne m c _ (by decide)) (by decide)
theorem W9_main_arg7 (c : Dev nD) : W9 m c main_arg7 = m ((c : Thread nD τ).loc main_arg7) :=
  W9_launch m c main_arg7 (by decide) (W8_of_ne m c _ (by decide)) (by decide) (by decide) (by decide) (W4_of_ne m c _ (by decide)) (by decide) (W2_of_ne m c _ (by decide)) (by decide)
theorem W9_main_arg8 (c : Dev nD) : W9 m c main_arg8 = m ((c : Thread nD τ).loc main_arg8) :=
  W9_launch m c main_arg8 (by decide) (W8_of_ne m c _ (by decide)) (by decide) (by decide) (by decide) (W4_of_ne m c _ (by decide)) (by decide) (W2_of_ne m c _ (by decide)) (by decide)
theorem W9_main_arg9 (c : Dev nD) : W9 m c main_arg9 = m ((c : Thread nD τ).loc main_arg9) :=
  W9_launch m c main_arg9 (by decide) (W8_of_ne m c _ (by decide)) (by decide) (by decide) (by decide) (W4_of_ne m c _ (by decide)) (by decide) (W2_of_ne m c _ (by decide)) (by decide)
theorem W9_main_arg10 (c : Dev nD) : W9 m c main_arg10 = m ((c : Thread nD τ).loc main_arg10) :=
  W9_launch m c main_arg10 (by decide) (W8_of_ne m c _ (by decide)) (by decide) (by decide) (by decide) (W4_in m c 1 rfl) (by decide) (W2_of_ne m c _ (by decide)) (by decide)
theorem W9_main_arg11 (c : Dev nD) : W9 m c main_arg11 = m ((c : Thread nD τ).loc main_arg11) :=
  W9_launch m c main_arg11 (by decide) (W8_of_ne m c _ (by decide)) (by decide) (by decide) (by decide) (W4_in m c 2 rfl) (by decide) (W2_of_ne m c _ (by decide)) (by decide)

/-- THE FRAME, at any float instance: @main runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c),
      (h c _ (mem_uc main_arg10 (by decide))).trans (W9_main_arg10 m c),
      (h c _ (mem_uc main_arg11 (by decide))).trans (W9_main_arg11 m c)⟩) (run_all m ρ)

end Cert.Kernel.Att

end
-- ==== Proof.NodeProj.lean ====
/- The node-projection region (the first kernel call of the program): the kernel body's half of the frame, at
   a PARAMETER `V` — the TensorCore's buffer contents when the region is entered. Per window its block at a grid
   point; what the body leaves in the output window's buffer, as a function of the three input blocks; the body's
   triple; the pipeline's proof data and its body obligation. Generic in the float instance. -/
import proofs.«425955_j21569325760859_2_alg».proof.Proof.Gen.KernelIdeal.Launch
import proofs.«425955_j21569325760859_2_alg».proof.Proof.Gen.KernelIdeal.Skeleton
import proofs.«425955_j21569325760859_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it: a tile of 5000 rows of the
    node features (window 0) and of the projected output (window 3); the whole weight matrix (window 1) and the
    whole bias vector (window 2) at every point. -/
def blkNode (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature tile's staging buffer holds its block at every point, for any proof data whose array is `V`'s and
    whose body leaves the block in place. -/
theorem beforeNode_0_of {c : Dev nD} (dat : Dat τ (Elt F) Unit ℕ (UR sig nD τ) ℕ cfg0 c) (hA : dat.A 0 = V c (Pipeline.arrRef spec0 0))
    (hafter : ∀ t, dat.after 0 t = blkNode V c 0 t) (t : Fin cfg0.N) (d) : dat.before 0 t d = blkNode V c 0 t :=
  (dat.before_in_eq_fetched 0 rfl (fun _ => rfl) (fun _ _ _ => rfl) (fun t => by rw [hafter]; unfold Dat.blockOf blkNode; rw [hA]; try rfl) t d).trans
    (by unfold Dat.fetched Dat.blockOf blkNode; rw [hA]; try rfl)

/-- The weight matrix's staging buffer holds the matrix at every point, fetched there (the first point) or not
    (every later one: its block index never moves). -/
theorem beforeNode_1_of {c : Dev nD} (dat : Dat τ (Elt F) Unit ℕ (UR sig nD τ) ℕ cfg0 c) (hA : dat.A 1 = V c (Pipeline.arrRef spec0 1))
    (hafter : ∀ t, dat.after 1 t = blkNode V c 1 t) (t : Fin cfg0.N) (d) : dat.before 1 t d = blkNode V c 1 t :=
  (dat.before_in_eq_fetched 1 rfl (fun _ => rfl) (fun _ _ _ => rfl) (fun t => by rw [hafter]; unfold Dat.blockOf blkNode; rw [hA]; try rfl) t d).trans
    (by unfold Dat.fetched Dat.blockOf blkNode; rw [hA]; try rfl)

/-- The bias vector's staging buffer holds the vector at every point, likewise. -/
theorem beforeNode_2_of {c : Dev nD} (dat : Dat τ (Elt F) Unit ℕ (UR sig nD τ) ℕ cfg0 c) (hA : dat.A 2 = V c (Pipeline.arrRef spec0 2))
    (hafter : ∀ t, dat.after 2 t = blkNode V c 2 t) (t : Fin cfg0.N) (d) : dat.before 2 t d = blkNode V c 2 t :=
  (dat.before_in_eq_fetched 2 rfl (fun _ => rfl) (fun _ _ _ => rfl) (fun t => by rw [hafter]; unfold Dat.blockOf blkNode; rw [hA]; try rfl) t d).trans
    (by unfold Dat.fetched Dat.blockOf blkNode; rw [hA]; try rfl)

/-! ## The body's accesses: each buffer whole -/

abbrev rFeat : Rect S5000x128 := Rect.unit (s := S5000x128) ![0, 0] S5000x128.size inb_S5000x128_S5000x128_0_0
abbrev rWeight : Rect S128x384 := Rect.unit (s := S128x384) ![0, 0] S128x384.size inb_S128x384_S128x384_0_0
abbrev rBias : Rect S384 := Rect.unit (s := S384) ![0] S384.size inb_S384_S384_0
abbrev rProj : Rect S5000x384 := Rect.unit (s := S5000x384) ![0, 0] S5000x384.size inb_S5000x384_S5000x384_0_0

/-! ## What the body leaves in the output window's buffer -/

/-- The projected tile's staging buffer after the body, from the three input blocks: its one whole-buffer store,
    of the payload (feature tile times weight matrix, plus the bias down the rows) over what the body loaded. -/
def outNode (x0 : Vec F S5000x128 .f32) (x1 : Vec F S128x384 .f32) (x2 : Vec F S384 .f32) : Vec F S5000x384 .f32 :=
  View.canon [⟨rProj, k0_pay1 (View.ld x0 rFeat) (View.ld x1 rWeight) (View.ld x2 rBias)⟩]

/-- The one store is of the whole buffer, so it covers it. -/
theorem coverNode (p0 : Vec F S5000x384 .f32) (y : S5000x384.Idx) :
    ∃ pc ∈ ([⟨rProj, p0⟩] : List (View.Piece (Elt F) S5000x384 .f32)), y ∈ pc.1.set :=
  View.cover_of_tiled [⟨rProj, p0⟩] S5000x384.size (by rfl) y

/-! ## The body's triple -/

set_option maxHeartbeats 1000000 in
/-- The kernel body on whole staging memrefs, the inputs' at read contents `x0 x1 x2` and the output's at anything,
    runs to the continuation holding the inputs' as they were and the output's at `outNode` of the inputs'. The
    body's load of the output buffer before its store names a value nothing reads. -/
theorem sound_linear0 (c : Dev nD) (E : Set ℕ) (i : grid0.Coords)
    (arg1 : Memref sig .tc .vmem S5000x128 .f32) (harg1 : arg1.IsWhole) (arg2 : Memref sig .tc .vmem S128x384 .f32) (harg2 : arg2.IsWhole)
    (arg3 : Memref sig .tc .vmem S384 .f32) (harg3 : arg3.IsWhole) (arg4 : Memref sig .tc .vmem S5000x384 .f32) (harg4 : arg4.IsWhole)
    (x0 : Vec F S5000x128 .f32) (x1 : Vec F S128x384 .f32) (x2 : Vec F S384 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outNode x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverNode _)

/-! ## The pipeline's proof data -/

/-- The proof data of the node-projection pipeline on core `c`: the arrays as the region finds them (`V`); after
    the body at point `t` each input's buffer at its block and the output's at `outNode` of the input blocks; the
    invariant the scoped rest and the generator register, untouched; nothing owed; full shares. -/
def datNode (c : Dev nD) : Dat τ (Elt F) Unit ℕ (UR sig nD τ) ℕ cfg0 c where
  A w := V c (Pipeline.arrRef spec0 w)
  after w t := match w with
    | ⟨0, _⟩ => blkNode V c 0 t
    | ⟨1, _⟩ => blkNode V c 1 t
    | ⟨2, _⟩ => blkNode V c 2 t
    | ⟨3, _⟩ => outNode (blkNode V c 0 t) (blkNode V c 1 t) (blkNode V c 2 t)
  Φ _ := Pipeline.ΦA spec0 c
  q _ := fullShare
  owed _ := 0

/-- The proof data's arrays are the region-entry contents. -/
theorem datNode_A (c : Dev nD) (w : Fin cfg0.W) : (datNode V c).A w = V c (Pipeline.arrRef spec0 w) := by
  dsimp only [datNode]

/-- What the body leaves, window by window. -/
theorem datNode_after_0 (c : Dev nD) (t : Fin cfg0.N) : (datNode V c).after 0 t = blkNode V c 0 t := by dsimp only [datNode]
theorem datNode_after_1 (c : Dev nD) (t : Fin cfg0.N) : (datNode V c).after 1 t = blkNode V c 1 t := by dsimp only [datNode]
theorem datNode_after_2 (c : Dev nD) (t : Fin cfg0.N) : (datNode V c).after 2 t = blkNode V c 2 t := by dsimp only [datNode]
theorem datNode_after_3 (c : Dev nD) (t : Fin cfg0.N) :
    (datNode V c).after 3 t = outNode (blkNode V c 0 t) (blkNode V c 1 t) (blkNode V c 2 t) := by dsimp only [datNode]

/-- Each input's current staging buffer holds its block at every point, fetched there or not. -/
theorem datNode_before_0 (c : Dev nD) (t : Fin cfg0.N) (d) : (datNode V c).before 0 t d = blkNode V c 0 t :=
  beforeNode_0_of V (datNode V c) (datNode_A V c 0) (datNode_after_0 V c) t d
theorem datNode_before_1 (c : Dev nD) (t : Fin cfg0.N) (d) : (datNode V c).before 1 t d = blkNode V c 1 t :=
  beforeNode_1_of V (datNode V c) (datNode_A V c 1) (datNode_after_1 V c) t d
theorem datNode_before_2 (c : Dev nD) (t : Fin cfg0.N) (d) : (datNode V c).before 2 t d = blkNode V c 2 t :=
  beforeNode_2_of V (datNode V c) (datNode_A V c 2) (datNode_after_2 V c) t d

/-! ## The body obligation, at a generic point -/

/-- What the body is called with at point `t`, the windows one by one, -/
def bodyPreNode (c : Dev nD) (t : Fin cfg0.N) : sProp 𝕄 :=
  iprop((datNode V c).Φ t.castSucc ∗ (datNode V c).owesAt () t.castSucc
    ∗ (∃ d, owns (c : Thread nD τ) (st0_0 t) fullShare ((datNode V c).before 0 t d))
    ∗ (∃ d, owns (c : Thread nD τ) (st0_1 t) fullShare ((datNode V c).before 1 t d))
    ∗ (∃ d, owns (c : Thread nD τ) (st0_2 t) fullShare ((datNode V c).before 2 t d))
    ∗ (∃ d, owns (c : Thread nD τ) (st0_3 t) fullShare ((datNode V c).before 3 t d)))

/-- and what it returns. -/
def bodyPostNode (c : Dev nD) (t : Fin cfg0.N) : sProp 𝕄 :=
  iprop((datNode V c).Φ t.succ ∗ (datNode V c).owesAt () t.succ
    ∗ owns (c : Thread nD τ) (st0_0 t) fullShare ((datNode V c).after 0 t)
    ∗ owns (c : Thread nD τ) (st0_1 t) fullShare ((datNode V c).after 1 t)
    ∗ owns (c : Thread nD τ) (st0_2 t) fullShare ((datNode V c).after 2 t)
    ∗ owns (c : Thread nD τ) (st0_3 t) fullShare ((datNode V c).after 3 t))

/-- The body at any point: the inputs' memrefs hold their blocks, so the body's triple applies; the invariant and the
    core's debt pass through unread. -/
theorem sound_bodyNode (c : Dev nD) (t : Fin cfg0.N) :
    bodyPreNode V c t ⊢ wp frame (wpE (defs₀ (F := F)) Variants.none c none) Set.univ (bodyAt0 t) (fun _ => bodyPostNode V c t) := by
  unfold bodyPreNode bodyPostNode bodyAt0
  simp only [datNode_before_0, datNode_before_1, datNode_before_2]
  rw [show (datNode V c).Φ t.succ = (datNode V c).Φ t.castSucc from rfl,
    show (datNode V c).owesAt () t.succ = (datNode V c).owesAt () t.castSucc from rfl,
    datNode_after_0, datNode_after_1, datNode_after_2, datNode_after_3]
  iintro ⟨HΦ, Ho, ⟨%d0, H0⟩, ⟨%d1, H1⟩, ⟨%d2, H2⟩, ⟨%d3, H3⟩⟩
  iapply (sound_linear0 c Set.univ _ _ _ _ _ _ _ _ _ (blkNode V c 0 t) (blkNode V c 1 t) (blkNode V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligationNode (c : Dev nD) : BodyObligation (datNode (F := F) V c) (defs₀ (F := F)) Variants.none () Set.univ := fun t => by
  rw [bigSep_W0, bigSep_W0]
  exact sound_bodyNode V c t

end Cert.KernelIdeal.Att

end
-- ==== Proof.EdgeProj.lean ====
/- The kernel body's half of the frame for the second pallas_call (the edge projection: a row tile of the edge
   features times a square weight matrix plus a bias row), at a PARAMETER `V`: the TensorCore's buffer contents
   when the region is entered.  Each window's block at a grid point, what the body leaves in the output window's
   buffer as a function of the input blocks, the body's triple, the pipeline's proof data and the body obligation. -/
import proofs.«425955_j21569325760859_2_alg».proof.Proof.Gen.KernelIdeal.Launch
import proofs.«425955_j21569325760859_2_alg».proof.Proof.Gen.KernelIdeal.Skeleton
import proofs.«425955_j21569325760859_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it (`V`). -/
def edgeProjBlk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The row tile of the edge features (window 0) is in its current buffer at every point, for ANY proof data whose
    array is `V`'s and whose body leaves the block in place. -/
theorem before_feat_of {c : Dev nD} (dat : Dat τ (Elt F) Unit ℕ (UR sig nD τ) ℕ cfg1 c)
    (hA : dat.A 0 = V c (Pipeline.arrRef spec1 0))
    (hafter : ∀ t, dat.after 0 t = edgeProjBlk V c 0 t) (t : Fin cfg1.N) (d) :
    dat.before 0 t d = edgeProjBlk V c 0 t :=
  (dat.before_in_eq_fetched 0 rfl (fun _ => rfl) (fun _ _ _ => rfl)
      (fun t => by rw [hafter]; unfold Dat.blockOf edgeProjBlk; rw [hA]; try rfl) t d).trans
    (by unfold Dat.fetched Dat.blockOf edgeProjBlk; rw [hA]; try rfl)

/-- The weight matrix (window 1), fetched at the first point only, is in its buffer at every point: unfetched, its
    block index has not moved. -/
theorem before_weight_of {c : Dev nD} (dat : Dat τ (Elt F) Unit ℕ (UR sig nD τ) ℕ cfg1 c)
    (hA : dat.A 1 = V c (Pipeline.arrRef spec1 1))
    (hafter : ∀ t, dat.after 1 t = edgeProjBlk V c 1 t) (t : Fin cfg1.N) (d) :
    dat.before 1 t d = edgeProjBlk V c 1 t :=
  (dat.before_in_eq_fetched 1 rfl (fun _ => rfl) (fun _ _ _ => rfl)
      (fun t => by rw [hafter]; unfold Dat.blockOf edgeProjBlk; rw [hA]; try rfl) t d).trans
    (by unfold Dat.fetched Dat.blockOf edgeProjBlk; rw [hA]; try rfl)

/-- The bias row (window 2), fetched at the first point only, likewise. -/
theorem before_bias_of {c : Dev nD} (dat : Dat τ (Elt F) Unit ℕ (UR sig nD τ) ℕ cfg1 c)
    (hA : dat.A 2 = V c (Pipeline.arrRef spec1 2))
    (hafter : ∀ t, dat.after 2 t = edgeProjBlk V c 2 t) (t : Fin cfg1.N) (d) :
    dat.before 2 t d = edgeProjBlk V c 2 t :=
  (dat.before_in_eq_fetched 2 rfl (fun _ => rfl) (fun _ _ _ => rfl)
      (fun t => by rw [hafter]; unfold Dat.blockOf edgeProjBlk; rw [hA]; try rfl) t d).trans
    (by unfold Dat.fetched Dat.blockOf edgeProjBlk; rw [hA]; try rfl)

/-! ## The body's accesses: each a whole buffer -/

abbrev rectTile : Rect S8000x128 := Rect.unit (s := S8000x128) ![0, 0] S8000x128.size inb_S8000x128_S8000x128_0_0
abbrev rectWeight : Rect S128x128 := Rect.unit (s := S128x128) ![0, 0] S128x128.size inb_S128x128_S128x128_0_0
abbrev rectBias : Rect S128 := Rect.unit (s := S128) ![0] S128.size inb_S128_S128_0

/-! ## What the body leaves in the output window's buffer -/

/-- The output tile's buffer after the body, from the three input blocks: its one whole-buffer store of the
    payload (the tile times the weights plus the bias row). -/
def edgeProjOut (x0 : Vec F S8000x128 .f32) (x1 : Vec F S128x128 .f32) (x2 : Vec F S128 .f32) : Vec F S8000x128 .f32 :=
  View.canon [⟨rectTile, k1_pay1 (View.ld x0 rectTile) (View.ld x1 rectWeight) (View.ld x2 rectBias)⟩]

/-- The one store is of the whole buffer, so it covers it. -/
theorem cover_out (p0 : Vec F S8000x128 .f32) (y : S8000x128.Idx) :
    ∃ pc ∈ ([⟨rectTile, p0⟩] : List (View.Piece (Elt F) S8000x128 .f32)), y ∈ pc.1.set :=
  View.cover_of_tiled [⟨rectTile, p0⟩] S8000x128.size (by rfl) y

/-! ## The body's triple -/

set_option maxHeartbeats 1000000 in
/-- The kernel body on whole staging memrefs, the inputs' at read contents `x0 x1 x2` and the output's at anything,
    runs to the continuation holding the inputs' as they were and the output's at `edgeProjOut` of the inputs'.  The
    body reads the output buffer once before storing all of it: that value is of the unknown prior contents and
    nothing uses it. -/
theorem sound_kernelEdgeProj (c : Dev nD) (E : Set ℕ) (i : grid1.Coords)
    (arg1 : Memref sig .tc .vmem S8000x128 .f32) (harg1 : arg1.IsWhole)
    (arg2 : Memref sig .tc .vmem S128x128 .f32) (harg2 : arg2.IsWhole)
    (arg3 : Memref sig .tc .vmem S128 .f32) (harg3 : arg3.IsWhole)
    (arg4 : Memref sig .tc .vmem S8000x128 .f32) (harg4 : arg4.IsWhole)
    (x0 : Vec F S8000x128 .f32) (x1 : Vec F S128x128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (edgeProjOut x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The proof data of the edge projection's pipeline on core `c`: the arrays as the region finds them (`V`); after
    the body at point `t` each input's buffer at its block and the output's at `edgeProjOut` of the input blocks;
    the invariant the scoped rest and the generator register, untouched; nothing owed; full shares. -/
def datEdgeProj (c : Dev nD) : Dat τ (Elt F) Unit ℕ (UR sig nD τ) ℕ cfg1 c where
  A w := V c (Pipeline.arrRef spec1 w)
  after w t := match w with
    | ⟨0, _⟩ => edgeProjBlk V c 0 t
    | ⟨1, _⟩ => edgeProjBlk V c 1 t
    | ⟨2, _⟩ => edgeProjBlk V c 2 t
    | ⟨3, _⟩ => edgeProjOut (edgeProjBlk V c 0 t) (edgeProjBlk V c 1 t) (edgeProjBlk V c 2 t)
  Φ _ := Pipeline.ΦA spec1 c
  q _ := fullShare
  owed _ := 0

/-- The proof data's arrays are the region-entry contents. -/
theorem datEdgeProj_A (c : Dev nD) (w : Fin cfg1.W) : (datEdgeProj V c).A w = V c (Pipeline.arrRef spec1 w) := by
  dsimp only [datEdgeProj]

/-- What the body leaves, window by window. -/
theorem datEdgeProj_after_0 (c : Dev nD) (t : Fin cfg1.N) : (datEdgeProj V c).after 0 t = edgeProjBlk V c 0 t := by
  dsimp only [datEdgeProj]
theorem datEdgeProj_after_1 (c : Dev nD) (t : Fin cfg1.N) : (datEdgeProj V c).after 1 t = edgeProjBlk V c 1 t := by
  dsimp only [datEdgeProj]
theorem datEdgeProj_after_2 (c : Dev nD) (t : Fin cfg1.N) : (datEdgeProj V c).after 2 t = edgeProjBlk V c 2 t := by
  dsimp only [datEdgeProj]
theorem datEdgeProj_after_3 (c : Dev nD) (t : Fin cfg1.N) :
    (datEdgeProj V c).after 3 t = edgeProjOut (edgeProjBlk V c 0 t) (edgeProjBlk V c 1 t) (edgeProjBlk V c 2 t) := by
  dsimp only [datEdgeProj]

/-- Each input's current staging buffer holds its block at every point, fetched there or not. -/
theorem datEdgeProj_before_0 (c : Dev nD) (t : Fin cfg1.N) (d) : (datEdgeProj V c).before 0 t d = edgeProjBlk V c 0 t :=
  before_feat_of V (datEdgeProj V c) (datEdgeProj_A V c 0) (datEdgeProj_after_0 V c) t d
theorem datEdgeProj_before_1 (c : Dev nD) (t : Fin cfg1.N) (d) : (datEdgeProj V c).before 1 t d = edgeProjBlk V c 1 t :=
  before_weight_of V (datEdgeProj V c) (datEdgeProj_A V c 1) (datEdgeProj_after_1 V c) t d
theorem datEdgeProj_before_2 (c : Dev nD) (t : Fin cfg1.N) (d) : (datEdgeProj V c).before 2 t d = edgeProjBlk V c 2 t :=
  before_bias_of V (datEdgeProj V c) (datEdgeProj_A V c 2) (datEdgeProj_after_2 V c) t d

/-! ## The body obligation, at a generic point -/

/-- What the body is called with at point `t`, the windows one by one, -/
def bodyPreEdgeProj (c : Dev nD) (t : Fin cfg1.N) : sProp 𝕄 :=
  iprop((datEdgeProj V c).Φ t.castSucc ∗ (datEdgeProj V c).owesAt () t.castSucc
    ∗ (∃ d, owns (c : Thread nD τ) (st1_0 t) fullShare ((datEdgeProj V c).before 0 t d))
    ∗ (∃ d, owns (c : Thread nD τ) (st1_1 t) fullShare ((datEdgeProj V c).before 1 t d))
    ∗ (∃ d, owns (c : Thread nD τ) (st1_2 t) fullShare ((datEdgeProj V c).before 2 t d))
    ∗ (∃ d, owns (c : Thread nD τ) (st1_3 t) fullShare ((datEdgeProj V c).before 3 t d)))

/-- and what it returns. -/
def bodyPostEdgeProj (c : Dev nD) (t : Fin cfg1.N) : sProp 𝕄 :=
  iprop((datEdgeProj V c).Φ t.succ ∗ (datEdgeProj V c).owesAt () t.succ
    ∗ owns (c : Thread nD τ) (st1_0 t) fullShare ((datEdgeProj V c).after 0 t)
    ∗ owns (c : Thread nD τ) (st1_1 t) fullShare ((datEdgeProj V c).after 1 t)
    ∗ owns (c : Thread nD τ) (st1_2 t) fullShare ((datEdgeProj V c).after 2 t)
    ∗ owns (c : Thread nD τ) (st1_3 t) fullShare ((datEdgeProj V c).after 3 t))

/-- The body at any point: the inputs' memrefs hold their blocks, so the body's triple applies; the invariant and
    the core's debts pass through unread. -/
theorem sound_bodyEdgeProj (c : Dev nD) (t : Fin cfg1.N) :
    bodyPreEdgeProj V c t ⊢ wp frame (wpE (defs₀ (F := F)) Variants.none c none) Set.univ (bodyAt1 t) (fun _ => bodyPostEdgeProj V c t) := by
  unfold bodyPreEdgeProj bodyPostEdgeProj bodyAt1
  simp only [datEdgeProj_before_0, datEdgeProj_before_1, datEdgeProj_before_2]
  rw [show (datEdgeProj V c).Φ t.succ = (datEdgeProj V c).Φ t.castSucc from rfl,
    show (datEdgeProj V c).owesAt () t.succ = (datEdgeProj V c).owesAt () t.castSucc from rfl,
    datEdgeProj_after_0, datEdgeProj_after_1, datEdgeProj_after_2, datEdgeProj_after_3]
  iintro ⟨HΦ, Ho, ⟨%d0, H0⟩, ⟨%d1, H1⟩, ⟨%d2, H2⟩, ⟨%d3, H3⟩⟩
  iapply (sound_kernelEdgeProj c Set.univ _ _ _ _ _ _ _ _ _ (edgeProjBlk V c 0 t) (edgeProjBlk V c 1 t) (edgeProjBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligationEdgeProj (c : Dev nD) :
    BodyObligation (datEdgeProj (F := F) V c) (defs₀ (F := F)) Variants.none () Set.univ := fun t => by
  rw [bigSep_W1, bigSep_W1]
  exact sound_bodyEdgeProj V c t

end Cert.KernelIdeal.Att

end
-- ==== Proof.EdgeAttn.lean ====
/- The edge-attention region of the kernel program: the kernel body's half of the
   frame, at a parameter `V`, the TensorCore's buffer contents when the region is entered. Each input
   window's staging buffer holds its block of the array it windows; the body stores three whole buffers
   (scores, weighted values, head weights), each the payload of the input blocks. -/
import proofs.«425955_j21569325760859_2_alg».proof.Proof.Gen.KernelIdeal.Launch
import proofs.«425955_j21569325760859_2_alg».proof.Proof.Gen.KernelIdeal.Skeleton
import proofs.«425955_j21569325760859_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def edgeBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem edge_before_of_0 {c : Dev nD} (dat : Dat τ (Elt F) Unit ℕ (UR sig nD τ) ℕ cfg2 c) (hA : dat.A 0 = V c (Pipeline.arrRef spec2 0))
    (hafter : ∀ t, dat.after 0 t = edgeBlk V c 0 t) (t : Fin cfg2.N) (d) : dat.before 0 t d = edgeBlk V c 0 t :=
  (dat.before_in_eq_fetched 0 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 1's current staging buffer holds its block at every point, fetched there or not, for any proof
    data whose array is `V`'s and whose body leaves the block in place. -/
theorem edge_before_of_1 {c : Dev nD} (dat : Dat τ (Elt F) Unit ℕ (UR sig nD τ) ℕ cfg2 c) (hA : dat.A 1 = V c (Pipeline.arrRef spec2 1))
    (hafter : ∀ t, dat.after 1 t = edgeBlk V c 1 t) (t : Fin cfg2.N) (d) : dat.before 1 t d = edgeBlk V c 1 t :=
  (dat.before_in_eq_fetched 1 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 2's current staging buffer holds its block at every point, fetched there or not, for any proof
    data whose array is `V`'s and whose body leaves the block in place. -/
theorem edge_before_of_2 {c : Dev nD} (dat : Dat τ (Elt F) Unit ℕ (UR sig nD τ) ℕ cfg2 c) (hA : dat.A 2 = V c (Pipeline.arrRef spec2 2))
    (hafter : ∀ t, dat.after 2 t = edgeBlk V c 2 t) (t : Fin cfg2.N) (d) : dat.before 2 t d = edgeBlk V c 2 t :=
  (dat.before_in_eq_fetched 2 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 3's current staging buffer holds its block at every point, fetched there or not, for any proof
    data whose array is `V`'s and whose body leaves the block in place. -/
theorem edge_before_of_3 {c : Dev nD} (dat : Dat τ (Elt F) Unit ℕ (UR sig nD τ) ℕ cfg2 c) (hA : dat.A 3 = V c (Pipeline.arrRef spec2 3))
    (hafter : ∀ t, dat.after 3 t = edgeBlk V c 3 t) (t : Fin cfg2.N) (d) : dat.before 3 t d = edgeBlk V c 3 t :=
  (dat.before_in_eq_fetched 3 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 4's current staging buffer holds its block at every point, fetched there or not, for any proof
    data whose array is `V`'s and whose body leaves the block in place. -/
theorem edge_before_of_4 {c : Dev nD} (dat : Dat τ (Elt F) Unit ℕ (UR sig nD τ) ℕ cfg2 c) (hA : dat.A 4 = V c (Pipeline.arrRef spec2 4))
    (hafter : ∀ t, dat.after 4 t = edgeBlk V c 4 t) (t : Fin cfg2.N) (d) : dat.before 4 t d = edgeBlk V c 4 t :=
  (dat.before_in_eq_fetched 4 rfl (fun _ => rfl) (fun _ _ _ => rfl) (fun t => by rw [hafter]; unfold Dat.blockOf edgeBlk; rw [hA]; try rfl) t d).trans
    (by unfold Dat.fetched Dat.blockOf edgeBlk; rw [hA]; try rfl)

/-- Input window 5's current staging buffer holds its block at every point, fetched there or not, for any proof
    data whose array is `V`'s and whose body leaves the block in place. -/
theorem edge_before_of_5 {c : Dev nD} (dat : Dat τ (Elt F) Unit ℕ (UR sig nD τ) ℕ cfg2 c) (hA : dat.A 5 = V c (Pipeline.arrRef spec2 5))
    (hafter : ∀ t, dat.after 5 t = edgeBlk V c 5 t) (t : Fin cfg2.N) (d) : dat.before 5 t d = edgeBlk V c 5 t :=
  (dat.before_in_eq_fetched 5 rfl (fun _ => rfl) (fun _ _ _ => rfl) (fun t => by rw [hafter]; unfold Dat.blockOf edgeBlk; rw [hA]; try rfl) t d).trans
    (by unfold Dat.fetched Dat.blockOf edgeBlk; rw [hA]; try rfl)

/-! ## The body's accesses: each a whole buffer -/

abbrev rTile : Rect S3200x128 := Rect.unit (s := S3200x128) ![0, 0] S3200x128.size inb_S3200x128_S3200x128_0_0
abbrev rSel : Rect S128x8 := Rect.unit (s := S128x8) ![0, 0] S128x8.size inb_S128x8_S128x8_0_0
abbrev rSpread : Rect S8x128 := Rect.unit (s := S8x128) ![0, 0] S8x128.size inb_S8x128_S8x128_0_0
abbrev rHead : Rect S3200x8 := Rect.unit (s := S3200x8) ![0, 0] S3200x8.size inb_S3200x8_S3200x8_0_0

/-! ## What the body leaves in each output window's buffer -/

/-- The scores' buffer after the body: its one whole-buffer store, the score payload of the key, query and edge-feature blocks. -/
def outScore (xk xq xe : Vec F S3200x128 .f32) : Vec F S3200x128 .f32 :=
  View.canon [⟨rTile, k2_pay1 (View.ld xk rTile) (View.ld xq rTile) (View.ld xe rTile)⟩]

/-- The weighted values' buffer after the body: its one whole-buffer store, the payload of all six input blocks. -/
def outWval (xk xq xv xe : Vec F S3200x128 .f32) (m1 : Vec F S128x8 .f32) (m2 : Vec F S8x128 .f32) : Vec F S3200x128 .f32 :=
  View.canon [⟨rTile, k2_pay3 (View.ld xk rTile) (View.ld xq rTile) (View.ld xv rTile) (View.ld xe rTile) (View.ld m1 rSel) (View.ld m2 rSpread)⟩]

/-- The head weights' buffer after the body: its one whole-buffer store. -/
def outWgt (xk xq xe : Vec F S3200x128 .f32) (m1 : Vec F S128x8 .f32) : Vec F S3200x8 .f32 :=
  View.canon [⟨rHead, k2_pay2 (View.ld xk rTile) (View.ld xq rTile) (View.ld xe rTile) (View.ld m1 rSel)⟩]

/-- A whole-buffer store covers the buffer. -/
theorem cover_tile (p : Vec F S3200x128 .f32) (y : S3200x128.Idx) :
    ∃ pc ∈ ([⟨rTile, p⟩] : List (View.Piece (Elt F) S3200x128 .f32)), y ∈ pc.1.set :=
  View.cover_of_tiled [⟨rTile, p⟩] S3200x128.size (by rfl) y

theorem cover_head (p : Vec F S3200x8 .f32) (y : S3200x8.Idx) :
    ∃ pc ∈ ([⟨rHead, p⟩] : List (View.Piece (Elt F) S3200x8 .f32)), y ∈ pc.1.set :=
  View.cover_of_tiled [⟨rHead, p⟩] S3200x8.size (by rfl) y

/-! ## The body's triple -/

set_option maxHeartbeats 1000000 in
/-- The kernel body on whole staging memrefs, the inputs' at read contents and the outputs' at anything, runs to the
    continuation holding the inputs' as they were and each output's at its payload of the inputs'. Each output
    buffer is loaded once before it is stored whole: the loaded value is of the buffer's unknown contents and
    nothing reads it. -/
theorem sound_edge_kernel (c : Dev nD) (E : Set ℕ) (i : grid2.Coords) (arg1 : Memref sig .tc .vmem S3200x128 .f32) (harg1 : arg1.IsWhole) (arg2 : Memref sig .tc .vmem S3200x128 .f32) (harg2 : arg2.IsWhole) (arg3 : Memref sig .tc .vmem S3200x128 .f32) (harg3 : arg3.IsWhole) (arg4 : Memref sig .tc .vmem S3200x128 .f32) (harg4 : arg4.IsWhole) (arg5 : Memref sig .tc .vmem S128x8 .f32) (harg5 : arg5.IsWhole) (arg6 : Memref sig .tc .vmem S8x128 .f32) (harg6 : arg6.IsWhole) (arg7 : Memref sig .tc .vmem S3200x128 .f32) (harg7 : arg7.IsWhole) (arg8 : Memref sig .tc .vmem S3200x128 .f32) (harg8 : arg8.IsWhole) (arg9 : Memref sig .tc .vmem S3200x8 .f32) (harg9 : arg9.IsWhole)
    (xk xq xv xe : Vec F S3200x128 .f32) (m1 : Vec F S128x8 .f32) (m2 : Vec F S8x128 .f32) (K : PUnit → sProp 𝕄) :
    iprop(owns (c : Thread nD τ) arg1 fullShare xk
        ∗ owns (c : Thread nD τ) arg2 fullShare xq
        ∗ owns (c : Thread nD τ) arg3 fullShare xv
        ∗ owns (c : Thread nD τ) arg4 fullShare xe
        ∗ owns (c : Thread nD τ) arg5 fullShare m1
        ∗ owns (c : Thread nD τ) arg6 fullShare m2
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg1 fullShare xk
            ∗ owns (c : Thread nD τ) arg2 fullShare xq
            ∗ owns (c : Thread nD τ) arg3 fullShare xv
            ∗ owns (c : Thread nD τ) arg4 fullShare xe
            ∗ owns (c : Thread nD τ) arg5 fullShare m1
            ∗ owns (c : Thread nD τ) arg6 fullShare m2
            ∗ owns (c : Thread nD τ) arg7 fullShare (outScore xk xq xe)
            ∗ owns (c : Thread nD τ) arg8 fullShare (outWval xk xq xv xe m1 m2)
            ∗ owns (c : Thread nD τ) arg9 fullShare (outWgt xk xq xe m1)) -∗ K ⟨⟩))
      ⊢ wp frame (wpE (defs₀ (F := F)) Variants.none c none) E (cc2__edge_kernel i arg1 harg1 arg2 harg2 arg3 harg3 arg4 harg4 arg5 harg5 arg6 harg6 arg7 harg7 arg8 harg8 arg9 harg9) K := by
  simp only [cc2__edge_kernel_eq_skeleton]; unfold cc2__edge_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_tile _)
  isplitl [H8]
  · iexists _; isplitr
    swap; · iexact H8
    ipureintro
    exact View.read_writes_eq_canon _ _ _ (cover_tile _)
  iexists _; isplitr
  swap; · iexact H9
  ipureintro
  exact View.read_writes_eq_canon _ _ _ (cover_head _)

/-! ## The pipeline's proof data -/

/-- The proof data of the edge-attention pipeline on core `c`: the arrays as the region finds them; after the body at
    point `t` each input's buffer at its block and each output's at its payload of the input blocks; the invariant
    the scoped rest and the generator register, untouched; nothing owed; full shares. -/
def datEdge (c : Dev nD) : Dat τ (Elt F) Unit ℕ (UR sig nD τ) ℕ cfg2 c where
  A w := V c (Pipeline.arrRef spec2 w)
  after w t := match w with
    | ⟨0, _⟩ => edgeBlk V c 0 t
    | ⟨1, _⟩ => edgeBlk V c 1 t
    | ⟨2, _⟩ => edgeBlk V c 2 t
    | ⟨3, _⟩ => edgeBlk V c 3 t
    | ⟨4, _⟩ => edgeBlk V c 4 t
    | ⟨5, _⟩ => edgeBlk V c 5 t
    | ⟨6, _⟩ => outScore (edgeBlk V c 0 t) (edgeBlk V c 1 t) (edgeBlk V c 3 t)
    | ⟨7, _⟩ => outWval (edgeBlk V c 0 t) (edgeBlk V c 1 t) (edgeBlk V c 2 t) (edgeBlk V c 3 t) (edgeBlk V c 4 t) (edgeBlk V c 5 t)
    | ⟨8, _⟩ => outWgt (edgeBlk V c 0 t) (edgeBlk V c 1 t) (edgeBlk V c 3 t) (edgeBlk V c 4 t)
  Φ _ := Pipeline.ΦA spec2 c
  q _ := fullShare
  owed _ := 0

/-- The proof data's arrays are the region-entry contents. -/
theorem datEdge_A (c : Dev nD) (w : Fin cfg2.W) : (datEdge V c).A w = V c (Pipeline.arrRef spec2 w) := by
  dsimp only [datEdge]

/-- What the body leaves, window by window. -/
theorem datEdge_after_0 (c : Dev nD) (t : Fin cfg2.N) : (datEdge V c).after 0 t = edgeBlk V c 0 t := by dsimp only [datEdge]
theorem datEdge_after_1 (c : Dev nD) (t : Fin cfg2.N) : (datEdge V c).after 1 t = edgeBlk V c 1 t := by dsimp only [datEdge]
theorem datEdge_after_2 (c : Dev nD) (t : Fin cfg2.N) : (datEdge V c).after 2 t = edgeBlk V c 2 t := by dsimp only [datEdge]
theorem datEdge_after_3 (c : Dev nD) (t : Fin cfg2.N) : (datEdge V c).after 3 t = edgeBlk V c 3 t := by dsimp only [datEdge]
theorem datEdge_after_4 (c : Dev nD) (t : Fin cfg2.N) : (datEdge V c).after 4 t = edgeBlk V c 4 t := by dsimp only [datEdge]
theorem datEdge_after_5 (c : Dev nD) (t : Fin cfg2.N) : (datEdge V c).after 5 t = edgeBlk V c 5 t := by dsimp only [datEdge]
theorem datEdge_after_6 (c : Dev nD) (t : Fin cfg2.N) : (datEdge V c).after 6 t = outScore (edgeBlk V c 0 t) (edgeBlk V c 1 t) (edgeBlk V c 3 t) := by dsimp only [datEdge]
theorem datEdge_after_7 (c : Dev nD) (t : Fin cfg2.N) : (datEdge V c).after 7 t = outWval (edgeBlk V c 0 t) (edgeBlk V c 1 t) (edgeBlk V c 2 t) (edgeBlk V c 3 t) (edgeBlk V c 4 t) (edgeBlk V c 5 t) := by dsimp only [datEdge]
theorem datEdge_after_8 (c : Dev nD) (t : Fin cfg2.N) : (datEdge V c).after 8 t = outWgt (edgeBlk V c 0 t) (edgeBlk V c 1 t) (edgeBlk V c 3 t) (edgeBlk V c 4 t) := by dsimp only [datEdge]

/-- Each input's current staging buffer holds its block at every point, fetched there or not. -/
theorem datEdge_before_0 (c : Dev nD) (t : Fin cfg2.N) (d) : (datEdge V c).before 0 t d = edgeBlk V c 0 t :=
  edge_before_of_0 V (datEdge V c) (datEdge_A V c 0) (datEdge_after_0 V c) t d
theorem datEdge_before_1 (c : Dev nD) (t : Fin cfg2.N) (d) : (datEdge V c).before 1 t d = edgeBlk V c 1 t :=
  edge_before_of_1 V (datEdge V c) (datEdge_A V c 1) (datEdge_after_1 V c) t d
theorem datEdge_before_2 (c : Dev nD) (t : Fin cfg2.N) (d) : (datEdge V c).before 2 t d = edgeBlk V c 2 t :=
  edge_before_of_2 V (datEdge V c) (datEdge_A V c 2) (datEdge_after_2 V c) t d
theorem datEdge_before_3 (c : Dev nD) (t : Fin cfg2.N) (d) : (datEdge V c).before 3 t d = edgeBlk V c 3 t :=
  edge_before_of_3 V (datEdge V c) (datEdge_A V c 3) (datEdge_after_3 V c) t d
theorem datEdge_before_4 (c : Dev nD) (t : Fin cfg2.N) (d) : (datEdge V c).before 4 t d = edgeBlk V c 4 t :=
  edge_before_of_4 V (datEdge V c) (datEdge_A V c 4) (datEdge_after_4 V c) t d
theorem datEdge_before_5 (c : Dev nD) (t : Fin cfg2.N) (d) : (datEdge V c).before 5 t d = edgeBlk V c 5 t :=
  edge_before_of_5 V (datEdge V c) (datEdge_A V c 5) (datEdge_after_5 V c) t d

/-! ## The body obligation, at a generic point -/

/-- What the body is called with at point `t`, the windows one by one, -/
def edgeBodyPre (c : Dev nD) (t : Fin cfg2.N) : sProp 𝕄 :=
  iprop((datEdge V c).Φ t.castSucc ∗ (datEdge V c).owesAt () t.castSucc
    ∗ (∃ d, owns (c : Thread nD τ) (st2_0 t) fullShare ((datEdge V c).before 0 t d))
    ∗ (∃ d, owns (c : Thread nD τ) (st2_1 t) fullShare ((datEdge V c).before 1 t d))
    ∗ (∃ d, owns (c : Thread nD τ) (st2_2 t) fullShare ((datEdge V c).before 2 t d))
    ∗ (∃ d, owns (c : Thread nD τ) (st2_3 t) fullShare ((datEdge V c).before 3 t d))
    ∗ (∃ d, owns (c : Thread nD τ) (st2_4 t) fullShare ((datEdge V c).before 4 t d))
    ∗ (∃ d, owns (c : Thread nD τ) (st2_5 t) fullShare ((datEdge V c).before 5 t d))
    ∗ (∃ d, owns (c : Thread nD τ) (st2_6 t) fullShare ((datEdge V c).before 6 t d))
    ∗ (∃ d, owns (c : Thread nD τ) (st2_7 t) fullShare ((datEdge V c).before 7 t d))
    ∗ (∃ d, owns (c : Thread nD τ) (st2_8 t) fullShare ((datEdge V c).before 8 t d)))

/-- and what it returns. -/
def edgeBodyPost (c : Dev nD) (t : Fin cfg2.N) : sProp 𝕄 :=
  iprop((datEdge V c).Φ t.succ ∗ (datEdge V c).owesAt () t.succ
    ∗ owns (c : Thread nD τ) (st2_0 t) fullShare ((datEdge V c).after 0 t)
    ∗ owns (c : Thread nD τ) (st2_1 t) fullShare ((datEdge V c).after 1 t)
    ∗ owns (c : Thread nD τ) (st2_2 t) fullShare ((datEdge V c).after 2 t)
    ∗ owns (c : Thread nD τ) (st2_3 t) fullShare ((datEdge V c).after 3 t)
    ∗ owns (c : Thread nD τ) (st2_4 t) fullShare ((datEdge V c).after 4 t)
    ∗ owns (c : Thread nD τ) (st2_5 t) fullShare ((datEdge V c).after 5 t)
    ∗ owns (c : Thread nD τ) (st2_6 t) fullShare ((datEdge V c).after 6 t)
    ∗ owns (c : Thread nD τ) (st2_7 t) fullShare ((datEdge V c).after 7 t)
    ∗ owns (c : Thread nD τ) (st2_8 t) fullShare ((datEdge V c).after 8 t))

set_option maxHeartbeats 1000000 in
/-- The body at any point: the inputs' memrefs hold their blocks, so the body's triple applies; the invariant and
    the core's owed tallies pass through unread. -/
theorem sound_edge_body (c : Dev nD) (t : Fin cfg2.N) :
    edgeBodyPre V c t ⊢ wp frame (wpE (defs₀ (F := F)) Variants.none c none) Set.univ (bodyAt2 t) (fun _ => edgeBodyPost V c t) := by
  unfold edgeBodyPre edgeBodyPost bodyAt2
  simp only [datEdge_before_0, datEdge_before_1, datEdge_before_2, datEdge_before_3, datEdge_before_4, datEdge_before_5]
  rw [show (datEdge V c).Φ t.succ = (datEdge V c).Φ t.castSucc from rfl,
    show (datEdge V c).owesAt () t.succ = (datEdge V c).owesAt () t.castSucc from rfl,
    datEdge_after_0, datEdge_after_1, datEdge_after_2, datEdge_after_3, datEdge_after_4, datEdge_after_5, datEdge_after_6, datEdge_after_7, datEdge_after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_edge_kernel c Set.univ _ _ _ _ _ _ _ _ _ _ _ _ _ _ _ _ _ _ _ (edgeBlk V c 0 t) (edgeBlk V c 1 t) (edgeBlk V c 2 t) (edgeBlk V c 3 t) (edgeBlk V c 4 t) (edgeBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligationEdge (c : Dev nD) : BodyObligation (datEdge (F := F) V c) (defs₀ (F := F)) Variants.none () Set.univ := fun t => by
  rw [bigSep_W2, bigSep_W2]
  exact sound_edge_body V c t

end Cert.KernelIdeal.Att

end
-- ==== Proof.Run.lean ====
/- The kernel program's run, from the launch to the return.

   @main is nine items in a row: host operations, the node projection (one pipelined kernel region), host operations,
   the edge projection (a second region), three stretches of host operations (the three row gathers), the edge kernel
   (a third region) and the closing host operations. Between two items the TensorCore holds every unscoped buffer whole
   at known contents: those at the launch, then after each stretch of host operations what the operations compute
   from them, and after each region the region's arrays at what its write-backs leave, every other buffer as it was.
   Each region's body is run once per grid point against the region's proof data; the launch theorem for a program of
   several regions puts the items together. The final contents of every unscoped buffer are then read off the last
   valuation, which is what both the frame and the value claim start from. -/
import proofs.«425955_j21569325760859_2_alg».proof.Proof.NodeProj
import proofs.«425955_j21569325760859_2_alg».proof.Proof.EdgeProj
import proofs.«425955_j21569325760859_2_alg».proof.Proof.EdgeAttn
import proofs.«425955_j21569325760859_2_alg».proof.Proof.Gen.KernelIdeal.Regions

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At the launch. -/
abbrev W0 : Dev nD → Valuation τ sig (Elt F) := fun c b => m ((c : Dev nD), b)
/-- After the first host operations (the two 0/1 matrices and the concatenated weights and biases). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the node projection: its arrays at what the write-backs leave. -/
def W2 (c : Dev nD) : Valuation τ sig (Elt F) :=
  Pipeline.withArrays spec0 c (W1 m c) fun w => (datNode (V1 m) c).arrAt w cfg0.N
theorem W2_arr (c : Dev nD) (w : Fin cfg0.W) :
    W2 m c (Proc.devRef .tc (Pipeline.arrRef spec0 w)) = (datNode (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exitNode_arr (c : Dev nD) (w : Fin cfg0.W) : (datNode (V1 m) c).arrAt w cfg0.N = V2 m c (Pipeline.arrRef spec0 w) :=
  (W2_arr m c w).symm
theorem exitNode_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the three column slices (queries, keys, values of the nodes). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the edge projection. -/
def W4 (c : Dev nD) : Valuation τ sig (Elt F) :=
  Pipeline.withArrays spec1 c (W3 m c) fun w => (datEdgeProj (V3 m) c).arrAt w cfg1.N
theorem W4_arr (c : Dev nD) (w : Fin cfg1.W) :
    W4 m c (Proc.devRef .tc (Pipeline.arrRef spec1 w)) = (datEdgeProj (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exitEdgeProj_arr (c : Dev nD) (w : Fin cfg1.W) : (datEdgeProj (V3 m) c).arrAt w cfg1.N = V4 m c (Pipeline.arrRef spec1 w) :=
  (W4_arr m c w).symm
theorem exitEdgeProj_rest (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the three row gathers: keys of the sources, queries of the destinations, values of the sources. -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev V7 : (c : Dev nD) → (b : Ref sig .tc) → Buf (Elt F) ((c : Thread nD τ).loc b) := fun c b => W7 m c b
/-- After the edge kernel. -/
def W8 (c : Dev nD) : Valuation τ sig (Elt F) :=
  Pipeline.withArrays spec2 c (W7 m c) fun w => (datEdge (V7 m) c).arrAt w cfg2.N
theorem W8_arr (c : Dev nD) (w : Fin cfg2.W) :
    W8 m c (Proc.devRef .tc (Pipeline.arrRef spec2 w)) = (datEdge (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem exitEdge_arr (c : Dev nD) (w : Fin cfg2.W) : (datEdge (V7 m) c).arrAt w cfg2.N = V8 m c (Pipeline.arrRef spec2 w) :=
  (W8_arr m c w).symm
theorem exitEdge_rest (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After the closing host operations: the contents @main returns with. -/
abbrev W9 : Dev nD → Valuation τ sig (Elt F) := fun c => StableHlo.after hostOps3 (W8 m c)

/-! ## The proof data of the three pipelines, each at its region's entry contents -/

def pdats : (p : Fin 3) → (c : Dev nD) → Dat τ (Elt F) Unit ℕ (UR sig nD τ) ℕ (Pipeline.pin (pcfgs (F := F)) adm p) c
  | ⟨0, _⟩ => fun c => datNode (V1 m) c
  | ⟨1, _⟩ => fun c => datEdgeProj (V3 m) c
  | ⟨2, _⟩ => fun c => datEdge (V7 m) c

abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-- A stretch of host operations as an item: from every unscoped buffer at `W` to them at what the operations leave. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W9 m c) ∗ ∃ r, prngReg c r)

/-! ## The three regions as items -/

set_option backward.isDefEq.respectTransparency.types false in
/-- The node projection: entered from every unscoped buffer at `W1`, left at `W2`. -/
def regNode : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationNode (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitNode_arr m c) (exitNode_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge projection: entered from `W3`, left at `W4`. -/
def regEdgeProj : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationEdgeProj (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exitEdgeProj_arr m c) (exitEdgeProj_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge kernel: entered from `W7`, left at `W8`. -/
def regEdge : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligationEdge (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (exitEdge_arr m c) (exitEdge_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the nine items, and the launch -/

abbrev segs : List (Pipeline.Seg (pcfgs (F := F)) adm (pdats m) () defs₀ 𝒱₀ L lv) :=
  [ .host (hseg hostOps0 hostOps0_sub hostOps0_fresh (W0 m)),
    .region (regNode m),
    .host (hseg hostOps1 hostOps1_sub hostOps1_fresh (W2 m)),
    .region (regEdgeProj m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .region (regEdge m),
    .host (hseg hostOps3 hostOps3_sub hostOps3_fresh (W8 m)) ]

/-- @main IS the run of the nine items. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and the
    final memory holds every unscoped buffer at the last valuation `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps3 (W8 m c)) ∗ R c) ⊢ _
        iintro ⟨Hh, ⟨Hp, Ho⟩⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

/-! ## Buffers no item writes keep their contents -/

/-- An input array of the node projection is handed back as it was entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((datNode (V1 m) c).arrAt_in w hw _).trans (datNode_A (V1 m) c w))
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((datEdgeProj (V3 m) c).arrAt_in w hw _).trans (datEdgeProj_A (V3 m) c w))
theorem W8_in (c : Dev nD) (w : Fin cfg2.W) (hw : (cfg2.win w).isOut = false) :
    W8 m c (Proc.devRef .tc (Pipeline.arrRef spec2 w)) = W7 m c (Proc.devRef .tc (Pipeline.arrRef spec2 w)) :=
  (W8_arr m c w).trans (((datEdge (V7 m) c).arrAt_in w hw _).trans (datEdge_A (V7 m) c w))

theorem W1_keep (c : Dev nD) (b : Ref sig .tc) (h : b ∉ hostOps0_W) : W1 m c b = W0 m c b :=
  StableHlo.after_of_writes_sub hostOps0 _ hostOps0_writes h
theorem W3_keep (c : Dev nD) (b : Ref sig .tc) (h : b ∉ hostOps1_W) : W3 m c b = W2 m c b :=
  StableHlo.after_of_writes_sub hostOps1 _ hostOps1_writes h
theorem W5_keep (c : Dev nD) (b : Ref sig .tc) (h : b ∉ hostOps2_W) : W5 m c b = W4 m c b :=
  StableHlo.after_of_writes_sub hostOps2 _ hostOps2_writes h
theorem W6_keep (c : Dev nD) (b : Ref sig .tc) (h : b ∉ hostOps2_1_W) : W6 m c b = W5 m c b :=
  StableHlo.after_of_writes_sub hostOps2_1 _ hostOps2_1_writes h
theorem W7_keep (c : Dev nD) (b : Ref sig .tc) (h : b ∉ hostOps2_2_W) : W7 m c b = W6 m c b :=
  StableHlo.after_of_writes_sub hostOps2_2 _ hostOps2_2_writes h
theorem W9_keep (c : Dev nD) (b : Ref sig .tc) (h : b ∉ hostOps3_W) : W9 m c b = W8 m c b :=
  StableHlo.after_of_writes_sub hostOps3 _ hostOps3_writes h

/-- A buffer that no stretch of host operations writes and no region changes ends as launched. -/
theorem W9_launch (c : Dev nD) (b : Ref sig .tc) (h9 : b ∉ hostOps3_W) (h8 : W8 m c b = W7 m c b) (h7 : b ∉ hostOps2_2_W)
    (h6 : b ∉ hostOps2_1_W) (h5 : b ∉ hostOps2_W) (h4 : W4 m c b = W3 m c b) (h3 : b ∉ hostOps1_W) (h2 : W2 m c b = W1 m c b)
    (h1 : b ∉ hostOps0_W) : W9 m c b = m ((c : Thread nD τ).loc b) :=
  (W9_keep m c b h9).trans <| h8.trans <| (W7_keep m c b h7).trans <| (W6_keep m c b h6).trans <| (W5_keep m c b h5).trans <|
    h4.trans <| (W3_keep m c b h3).trans <| h2.trans <| (W1_keep m c b h1).trans rfl

theorem W9_main_arg0 (c : Dev nD) : W9 m c main_arg0 = m ((c : Thread nD τ).loc main_arg0) :=
  W9_launch m c main_arg0 (by decide) (W8_of_ne m c _ (by decide)) (by decide) (by decide) (by decide) (W4_of_ne m c _ (by decide)) (by decide) (W2_in m c 0 rfl) (by decide)
theorem W9_main_arg1 (c : Dev nD) : W9 m c main_arg1 = m ((c : Thread nD τ).loc main_arg1) :=
  W9_launch m c main_arg1 (by decide) (W8_of_ne m c _ (by decide)) (by decide) (by decide) (by decide) (W4_in m c 0 rfl) (by decide) (W2_of_ne m c _ (by decide)) (by decide)
theorem W9_main_arg2 (c : Dev nD) : W9 m c main_arg2 = m ((c : Thread nD τ).loc main_arg2) :=
  W9_launch m c main_arg2 (by decide) (W8_of_ne m c _ (by decide)) (by decide) (by decide) (by decide) (W4_of_ne m c _ (by decide)) (by decide) (W2_of_ne m c _ (by decide)) (by decide)
theorem W9_main_arg3 (c : Dev nD) : W9 m c main_arg3 = m ((c : Thread nD τ).loc main_arg3) :=
  W9_launch m c main_arg3 (by decide) (W8_of_ne m c _ (by decide)) (by decide) (by decide) (by decide) (W4_of_ne m c _ (by decide)) (by decide) (W2_of_ne m c _ (by decide)) (by decide)
theorem W9_main_arg4 (c : Dev nD) : W9 m c main_arg4 = m ((c : Thread nD τ).loc main_arg4) :=
  W9_launch m c main_arg4 (by decide) (W8_of_ne m c _ (by decide)) (by decide) (by decide) (by decide) (W4_of_ne m c _ (by decide)) (by decide) (W2_of_ne m c _ (by decide)) (by decide)
theorem W9_main_arg5 (c : Dev nD) : W9 m c main_arg5 = m ((c : Thread nD τ).loc main_arg5) :=
  W9_launch m c main_arg5 (by decide) (W8_of_ne m c _ (by decide)) (by decide) (by decide) (by decide) (W4_of_ne m c _ (by decide)) (by decide) (W2_of_ne m c _ (by decide)) (by decide)
theorem W9_main_arg6 (c : Dev nD) : W9 m c main_arg6 = m ((c : Thread nD τ).loc main_arg6) :=
  W9_launch m c main_arg6 (by decide) (W8_of_ne m c _ (by decide)) (by decide) (by decide) (by decide) (W4_of_ne m c _ (by decide)) (by decide) (W2_of_ne m c _ (by decide)) (by decide)
theorem W9_main_arg7 (c : Dev nD) : W9 m c main_arg7 = m ((c : Thread nD τ).loc main_arg7) :=
  W9_launch m c main_arg7 (by decide) (W8_of_ne m c _ (by decide)) (by decide) (by decide) (by decide) (W4_of_ne m c _ (by decide)) (by decide) (W2_of_ne m c _ (by decide)) (by decide)
theorem W9_main_arg8 (c : Dev nD) : W9 m c main_arg8 = m ((c : Thread nD τ).loc main_arg8) :=
  W9_launch m c main_arg8 (by decide) (W8_of_ne m c _ (by decide)) (by decide) (by decide) (by decide) (W4_of_ne m c _ (by decide)) (by decide) (W2_of_ne m c _ (by decide)) (by decide)
theorem W9_main_arg9 (c : Dev nD) : W9 m c main_arg9 = m ((c : Thread nD τ).loc main_arg9) :=
  W9_launch m c main_arg9 (by decide) (W8_of_ne m c _ (by decide)) (by decide) (by decide) (by decide) (W4_of_ne m c _ (by decide)) (by decide) (W2_of_ne m c _ (by decide)) (by decide)
theorem W9_main_arg10 (c : Dev nD) : W9 m c main_arg10 = m ((c : Thread nD τ).loc main_arg10) :=
  W9_launch m c main_arg10 (by decide) (W8_of_ne m c _ (by decide)) (by decide) (by decide) (by decide) (W4_in m c 1 rfl) (by decide) (W2_of_ne m c _ (by decide)) (by decide)
theorem W9_main_arg11 (c : Dev nD) : W9 m c main_arg11 = m ((c : Thread nD τ).loc main_arg11) :=
  W9_launch m c main_arg11 (by decide) (W8_of_ne m c _ (by decide)) (by decide) (by decide) (by decide) (W4_in m c 2 rfl) (by decide) (W2_of_ne m c _ (by decide)) (by decide)

/-- THE FRAME, at any float instance: @main runs to the end, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c),
      (h c _ (mem_uc main_arg9 (by decide))).trans (W9_main_arg9 m c),
      (h c _ (mem_uc main_arg10 (by decide))).trans (W9_main_arg10 m c),
      (h c _ (mem_uc main_arg11 (by decide))).trans (W9_main_arg11 m c)⟩) (run_all m ρ)

end Cert.KernelIdeal.Att

end
-- ==== Proof.Spec.lean ====
/- Edge attention over a graph: the mathematics both programs compute, as pure functions of the argument arrays.

   Nodes carry 128 features, edges carry 128 features; 8 heads of 16 lanes make the 128 channels, channel
   `16 * head + lane`. Node features are projected three ways (queries, keys, values), edge features once; an edge's
   score on a channel is key(source) * query(destination) * (1/4) * projected edge feature; per head the scores are summed
   over the 16 lanes, clamped to [-5, 5] and exponentiated; values of the source weighted by that number are summed over
   the edges entering each node, and divided by the sum of the weights plus a small constant. -/
import Idealize.ShloMosaic.PureOps.Ideal
import Idealize.ShloMosaic.Lib.ValueIdx

noncomputable section

namespace Cert.Att

open Idealize.ShloMosaic Idealize.ShloMosaic.ValueIdx

/-- The arguments: node features `h`, edge features `e`, the four weight matrices and biases, and for every edge its
    source node `s` and destination node `d`. -/
structure Inp where
  h : (⟨2, ![50000, 128]⟩ : Shape).Idx → EReal
  e : (⟨2, ![800000, 128]⟩ : Shape).Idx → EReal
  Wq : (⟨2, ![128, 128]⟩ : Shape).Idx → EReal
  bq : (⟨1, ![128]⟩ : Shape).Idx → EReal
  Wk : (⟨2, ![128, 128]⟩ : Shape).Idx → EReal
  bk : (⟨1, ![128]⟩ : Shape).Idx → EReal
  Wv : (⟨2, ![128, 128]⟩ : Shape).Idx → EReal
  bv : (⟨1, ![128]⟩ : Shape).Idx → EReal
  We : (⟨2, ![128, 128]⟩ : Shape).Idx → EReal
  be : (⟨1, ![128]⟩ : Shape).Idx → EReal
  s : Fin 800000 → Fin 50000
  d : Fin 800000 → Fin 50000

/-- Channel `16 * head + lane`. -/
def ch (hd : Fin 8) (j : Fin 16) : Fin 128 := ⟨16 * hd.val + j.val, by omega⟩
/-- The head a channel belongs to. -/
def hdOf (c : Fin 128) : Fin 8 := ⟨c.val / 16, by omega⟩
/-- The lane of a channel inside its head. -/
def laneOf (c : Fin 128) : Fin 16 := ⟨c.val % 16, by omega⟩

theorem hdOf_ch (hd : Fin 8) (j : Fin 16) : hdOf (ch hd j) = hd := by
  apply Fin.ext; simp only [hdOf, ch]; omega
theorem laneOf_ch (hd : Fin 8) (j : Fin 16) : laneOf (ch hd j) = j := by
  apply Fin.ext; simp only [laneOf, ch]; omega
theorem ch_hdOf_laneOf (c : Fin 128) : ch (hdOf c) (laneOf c) = c := by
  apply Fin.ext; simp only [hdOf, laneOf, ch]; omega

/-- A linear layer at row `r`, column `c`: the row of `x` against the column of `W`, plus the bias. -/
def lin {R : Nat} (x : (⟨2, ![R, 128]⟩ : Shape).Idx → EReal) (W : (⟨2, ![128, 128]⟩ : Shape).Idx → EReal)
    (b : (⟨1, ![128]⟩ : Shape).Idx → EReal) (r : Fin R) (c : Fin 128) : EReal :=
  (∑ k : Fin 128, x (ix2 r k) * W (ix2 k c)) + b (ix1 c)

variable (I : Inp)

/-- Queries, keys and values of the nodes, and the projected edge features. -/
def qry (n : Fin 50000) (c : Fin 128) : EReal := lin I.h I.Wq I.bq n c
def key (n : Fin 50000) (c : Fin 128) : EReal := lin I.h I.Wk I.bk n c
def val (n : Fin 50000) (c : Fin 128) : EReal := lin I.h I.Wv I.bv n c
def efe (ed : Fin 800000) (c : Fin 128) : EReal := lin I.e I.We I.be ed c

/-- An edge's score on a channel; `0x3E800000` is the word of 1/4. -/
def score (ed : Fin 800000) (c : Fin 128) : EReal :=
  key I (I.s ed) c * qry I (I.d ed) c * Ideal.ofBits .f32 0x3E800000#32 * efe I ed c

/-- An edge's weight on a head: the head's scores summed, clamped to [-5, 5] (the words of 5 and -5), exponentiated. -/
def wgt (ed : Fin 800000) (hd : Fin 8) : EReal :=
  Ideal.exp (min (Ideal.ofBits .f32 0x40A00000#32) (max (Ideal.ofBits .f32 0xC0A00000#32) (∑ j : Fin 16, score I ed (ch hd j))))

/-- The source's value weighted by the edge's weight on the channel's head. -/
def wval (ed : Fin 800000) (c : Fin 128) : EReal := val I (I.s ed) c * wgt I ed (hdOf c)

/-- Summed over the edges that enter node `n`. -/
def aggVal (n : Fin 50000) (c : Fin 128) : EReal := ∑ ed ∈ Finset.univ.filter (fun ed => I.d ed = n), wval I ed c
def aggWgt (n : Fin 50000) (hd : Fin 8) : EReal := ∑ ed ∈ Finset.univ.filter (fun ed => I.d ed = n), wgt I ed hd

/-- THE NODE RESULT [50000, 8, 16]; `0x358637BD` is the word of the small constant added to the normaliser. -/
def nodeOut : (⟨3, ![50000, 8, 16]⟩ : Shape).Idx → EReal := fun i =>
  Ideal.div (aggVal I (i 0) (ch (i 1) (i 2))) (aggWgt I (i 0) (i 1) + Ideal.ofBits .f32 0x358637BD#32)

/-- THE EDGE RESULT [800000, 8, 16]: the scores. -/
def edgeOut : (⟨3, ![800000, 8, 16]⟩ : Shape).Idx → EReal := fun i => score I (i 0) (ch (i 1) (i 2))

end Cert.Att

end
-- ==== Proof.KernelInp.lean ====
/- The kernel program's argument arrays as the specification's inputs. -/
import proofs.«425955_j21569325760859_2_alg».proof.Proof.Run
import proofs.«425955_j21569325760859_2_alg».proof.Proof.Spec

noncomputable section

namespace Cert.KernelIdeal.Att

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD) (s d : Fin 800000 → Fin 50000)

/-- Node features, edge features, the four weight matrices and biases as launched on core `c`, with the edges' source
    and destination nodes `s`, `d`. -/
def inpOf : Cert.Att.Inp where
  h := m ((c : Thread nD τ).loc main_arg0)
  e := m ((c : Thread nD τ).loc main_arg1)
  Wq := m ((c : Thread nD τ).loc main_arg4)
  bq := m ((c : Thread nD τ).loc main_arg5)
  Wk := m ((c : Thread nD τ).loc main_arg6)
  bk := m ((c : Thread nD τ).loc main_arg7)
  Wv := m ((c : Thread nD τ).loc main_arg8)
  bv := m ((c : Thread nD τ).loc main_arg9)
  We := m ((c : Thread nD τ).loc main_arg10)
  be := m ((c : Thread nD τ).loc main_arg11)
  s := s
  d := d

/-- The two integer arguments name the edges' nodes: each word read signed is the node's number. -/
def Linked : Prop :=
  (∀ e : Fin 800000, ((m ((c : Thread nD τ).loc main_arg2) : S800000.Idx → BitVec 32) (ix1 e)).toInt = ((s e).val : ℤ))
  ∧ (∀ e : Fin 800000, ((m ((c : Thread nD τ).loc main_arg3) : S800000.Idx → BitVec 32) (ix1 e)).toInt = ((d e).val : ℤ))

end Cert.KernelIdeal.Att

end
-- ==== Proof.KernelHost.lean ====
/- The kernel program's host operations read at an index: what the buffers written before the first call (the two head
   masks, the three weight matrices side by side, the three biases end to end) and between the first two calls (the
   query, key and value column bands of the joint projection) hold, as functions of the contents they start from. -/
import proofs.«425955_j21569325760859_2_alg».proof.Proof.Gen.KernelIdeal.Launch
import proofs.«425955_j21569325760859_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Att

open Cert.KernelIdeal Cert.KernelIdeal.Gen Idealize.ShloMosaic Idealize.ShloMosaic.TcCoe Idealize.ShloMosaic.ValueIdx Idealize.ShloMosaic.StableHlo

/-! ## Before the first call: the two mask constants, the three weight matrices side by side, the three biases end to end -/

theorem after0_m1 (W : Valuation τ sig (Elt Ideal)) (i : S128x8.Idx) :
    (StableHlo.after (hostOps0 (F := Ideal)) W (Proc.devRef .tc main_cst) : S128x8.Idx → EReal) i
      = Ideal.ofBits .f32 (lit0 (S128x8.rowMajor i)) := by
  have e : (StableHlo.after (hostOps0 (F := Ideal)) W (Proc.devRef .tc main_cst) : S128x8.Idx → EReal)
      = fun i => Ideal.ofBits .f32 (lit0 (S128x8.rowMajor i)) := by
    show StableHlo.after [_, _, _, _] _ (Proc.devRef .tc main_cst) = _
    after_results
    rfl
  rw [e]

theorem after0_m2 (W : Valuation τ sig (Elt Ideal)) (i : S8x128.Idx) :
    (StableHlo.after (hostOps0 (F := Ideal)) W (Proc.devRef .tc main_cst_0) : S8x128.Idx → EReal) i
      = Ideal.ofBits .f32 (lit1 (S8x128.rowMajor i)) := by
  have e : (StableHlo.after (hostOps0 (F := Ideal)) W (Proc.devRef .tc main_cst_0) : S8x128.Idx → EReal)
      = fun i => Ideal.ofBits .f32 (lit1 (S8x128.rowMajor i)) := by
    show StableHlo.after [_, _, _, _] _ (Proc.devRef .tc main_cst_0) = _
    after_results
    rfl
  rw [e]

/-- The weight buffer is the three weight matrices laid side by side. -/
theorem after0_wcat_eq (W : Valuation τ sig (Elt Ideal)) :
    (StableHlo.after (hostOps0 (F := Ideal)) W (Proc.devRef .tc main_v0) : S128x384.Idx → EReal)
      = concatenate S128x384 1 [⟨S128x128, (W (Proc.devRef .tc main_arg4) : S128x128.Idx → EReal)⟩, ⟨S128x128, (W (Proc.devRef .tc main_arg6) : S128x128.Idx → EReal)⟩, ⟨S128x128, (W (Proc.devRef .tc main_arg8) : S128x128.Idx → EReal)⟩] concatenates_S128x128_S128x128_S128x128_S128x384_d1 := by
  show StableHlo.after [_, _, _, _] _ (Proc.devRef .tc main_v0) = _
  after_results
  simp (disch := decide) only [nullary_result_ne']
  rfl

/-- The bias buffer is the three biases laid end to end. -/
theorem after0_bcat_eq (W : Valuation τ sig (Elt Ideal)) :
    (StableHlo.after (hostOps0 (F := Ideal)) W (Proc.devRef .tc main_v1) : S384.Idx → EReal)
      = concatenate S384 0 [⟨S128, (W (Proc.devRef .tc main_arg5) : S128.Idx → EReal)⟩, ⟨S128, (W (Proc.devRef .tc main_arg7) : S128.Idx → EReal)⟩, ⟨S128, (W (Proc.devRef .tc main_arg9) : S128.Idx → EReal)⟩] concatenates_S128_S128_S128_S384_d0 := by
  show StableHlo.after [_, _, _, _] _ (Proc.devRef .tc main_v1) = _
  after_results
  simp (disch := decide) only [nullary_result_ne', nary_result_ne']
  rfl

theorem after0_wcat (W : Valuation τ sig (Elt Ideal)) (k : Fin 128) (j : Fin 384) :
    (StableHlo.after (hostOps0 (F := Ideal)) W (Proc.devRef .tc main_v0) : S128x384.Idx → EReal) (ix2 k j)
      = if h1 : j.val < 128 then (W (Proc.devRef .tc main_arg4) : S128x128.Idx → EReal) (ix2 k ⟨j.val, h1⟩)
        else if h2 : j.val < 256 then (W (Proc.devRef .tc main_arg6) : S128x128.Idx → EReal) (ix2 k ⟨j.val - 128, by omega⟩)
        else (W (Proc.devRef .tc main_arg8) : S128x128.Idx → EReal) (ix2 k ⟨j.val - 256, by omega⟩) := by
  rw [after0_wcat_eq]
  have hi : ∀ (c : Fin 128) (b : Fin S128x128.rank), b.cast (rfl : S128x128.rank = S128x384.rank) ≠ (1 : Fin S128x384.rank) →
      ((ix2 k c : S128x128.Idx) b).val = ((ix2 k j : S128x384.Idx) (b.cast rfl)).val := fun c b hb => by
    match b with
    | ⟨0, _⟩ => rfl
    | ⟨1, _⟩ => exact absurd rfl hb
  by_cases h1 : j.val < 128
  · rw [dif_pos h1]
    exact concatenate_apply_piece (1 : Fin S128x384.rank) _ _ (ix2 k j) 0 (by show (0 : Nat) < 3; omega) S128x128 _ rfl rfl 0 rfl
      (ix2 k ⟨j.val, h1⟩) (hi _) (Nat.zero_add _)
  · rw [dif_neg h1]
    by_cases h2 : j.val < 256
    · rw [dif_pos h2]
      exact concatenate_apply_piece (1 : Fin S128x384.rank) _ _ (ix2 k j) 1 (by show (1 : Nat) < 3; omega) S128x128 _ rfl rfl 128 rfl
        (ix2 k ⟨j.val - 128, by omega⟩) (hi _) (by show 128 + (j.val - 128) = j.val; omega)
    · rw [dif_neg h2]
      exact concatenate_apply_piece (1 : Fin S128x384.rank) _ _ (ix2 k j) 2 (by show (2 : Nat) < 3; omega) S128x128 _ rfl rfl 256 rfl
        (ix2 k ⟨j.val - 256, by omega⟩) (hi _) (by show 256 + (j.val - 256) = j.val; omega)

theorem after0_bcat (W : Valuation τ sig (Elt Ideal)) (j : Fin 384) :
    (StableHlo.after (hostOps0 (F := Ideal)) W (Proc.devRef .tc main_v1) : S384.Idx → EReal) (ix1 j)
      = if h1 : j.val < 128 then (W (Proc.devRef .tc main_arg5) : S128.Idx → EReal) (ix1 ⟨j.val, h1⟩)
        else if h2 : j.val < 256 then (W (Proc.devRef .tc main_arg7) : S128.Idx → EReal) (ix1 ⟨j.val - 128, by omega⟩)
        else (W (Proc.devRef .tc main_arg9) : S128.Idx → EReal) (ix1 ⟨j.val - 256, by omega⟩) := by
  rw [after0_bcat_eq]
  have hi : ∀ (c : Fin 128) (b : Fin S128.rank), b.cast (rfl : S128.rank = S384.rank) ≠ (0 : Fin S384.rank) →
      ((ix1 c : S128.Idx) b).val = ((ix1 j : S384.Idx) (b.cast rfl)).val := fun c b hb => by
    match b with
    | ⟨0, _⟩ => exact absurd rfl hb
  by_cases h1 : j.val < 128
  · rw [dif_pos h1]
    exact concatenate_apply_piece (0 : Fin S384.rank) _ _ (ix1 j) 0 (by show (0 : Nat) < 3; omega) S128 _ rfl rfl 0 rfl
      (ix1 ⟨j.val, h1⟩) (hi _) (Nat.zero_add _)
  · rw [dif_neg h1]
    by_cases h2 : j.val < 256
    · rw [dif_pos h2]
      exact concatenate_apply_piece (0 : Fin S384.rank) _ _ (ix1 j) 1 (by show (1 : Nat) < 3; omega) S128 _ rfl rfl 128 rfl
        (ix1 ⟨j.val - 128, by omega⟩) (hi _) (by show 128 + (j.val - 128) = j.val; omega)
    · rw [dif_neg h2]
      exact concatenate_apply_piece (0 : Fin S384.rank) _ _ (ix1 j) 2 (by show (2 : Nat) < 3; omega) S128 _ rfl rfl 256 rfl
        (ix1 ⟨j.val - 256, by omega⟩) (hi _) (by show 256 + (j.val - 256) = j.val; omega)

/-! ## Between the first two calls: three column bands of the [50000, 384] projection -/

theorem after1_q (W : Valuation τ sig (Elt Ideal)) (r : Fin 50000) (j : Fin 128) :
    (StableHlo.after (hostOps1 (F := Ideal)) W (Proc.devRef .tc main_v3) : S50000x128.Idx → EReal) (ix2 r j)
      = (W (Proc.devRef .tc main_v2) : S50000x384.Idx → EReal) (ix2 r ⟨j.val, by omega⟩) := by
  have e : (StableHlo.after (hostOps1 (F := Ideal)) W (Proc.devRef .tc main_v3) : S50000x128.Idx → EReal)
      = extractStridedSlice S50000x128 ![0, 0] (W (Proc.devRef .tc main_v2) : S50000x384.Idx → EReal) slices_S50000x384_S50000x128_0_0 := by
    show StableHlo.after [_, _, _] _ (Proc.devRef .tc main_v3) = _
    after_results
  rw [e]
  exact slice2_axis1_apply 0 _ _ r j _ (Nat.zero_add _).symm

theorem after1_k (W : Valuation τ sig (Elt Ideal)) (r : Fin 50000) (j : Fin 128) :
    (StableHlo.after (hostOps1 (F := Ideal)) W (Proc.devRef .tc main_v4) : S50000x128.Idx → EReal) (ix2 r j)
      = (W (Proc.devRef .tc main_v2) : S50000x384.Idx → EReal) (ix2 r ⟨128 + j.val, by omega⟩) := by
  have e : (StableHlo.after (hostOps1 (F := Ideal)) W (Proc.devRef .tc main_v4) : S50000x128.Idx → EReal)
      = extractStridedSlice S50000x128 ![0, 128] (W (Proc.devRef .tc main_v2) : S50000x384.Idx → EReal) slices_S50000x384_S50000x128_0_128 := by
    show StableHlo.after [_, _, _] _ (Proc.devRef .tc main_v4) = _
    after_results
  rw [e]
  exact slice2_axis1_apply 128 _ _ r j _ rfl

theorem after1_v (W : Valuation τ sig (Elt Ideal)) (r : Fin 50000) (j : Fin 128) :
    (StableHlo.after (hostOps1 (F := Ideal)) W (Proc.devRef .tc main_v5) : S50000x128.Idx → EReal) (ix2 r j)
      = (W (Proc.devRef .tc main_v2) : S50000x384.Idx → EReal) (ix2 r ⟨256 + j.val, by omega⟩) := by
  have e : (StableHlo.after (hostOps1 (F := Ideal)) W (Proc.devRef .tc main_v5) : S50000x128.Idx → EReal)
      = extractStridedSlice S50000x128 ![0, 256] (W (Proc.devRef .tc main_v2) : S50000x384.Idx → EReal) slices_S50000x384_S50000x128_0_256 := by
    show StableHlo.after [_, _, _] _ (Proc.devRef .tc main_v5) = _
    after_results
  rw [e]
  exact slice2_axis1_apply 256 _ _ r j _ rfl

end Cert.KernelIdeal.Att

end
-- ==== Proof.NodeProjValue.lean ====
/- The node-projection region at the ideal values: what it leaves in its output array, index by index. The body's
   payload read at an index (the feature row times the weight column, summed over the 128 contraction coordinates,
   plus the bias at the column); each write-back as a block of ONE whole-array function of the three input arrays;
   the ten row tiles cover the array; hence the array after the region. -/
import proofs.«425955_j21569325760859_2_alg».proof.Proof.NodeProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.ValueIdx
open Idealize.ShloMosaic.Pipeline (Dat)

/-! ## The matrix product's operand indices, axis by axis -/

theorem nodeProj_lhs_0 (i : S5000x384.Idx) (q : dot_S5000x128_S128x384_S5000x384_1_0_0_1_n_n.contr.Idx) :
    (dot_S5000x128_S128x384_S5000x384_1_0_0_1_n_n.lhsIdx i q 0).val = (i 0).val := by
  unfold DotDims.lhsIdx
  rw [dif_neg (show ¬(0 : Fin S5000x128.rank) ∈ dot_S5000x128_S128x384_S5000x384_1_0_0_1_n_n.lhsBatch by decide), dif_pos (show (0 : Fin S5000x128.rank) ∈ dot_S5000x128_S128x384_S5000x384_1_0_0_1_n_n.lhsNonContracting by decide)]
  rfl
theorem nodeProj_lhs_1 (i : S5000x384.Idx) (q : dot_S5000x128_S128x384_S5000x384_1_0_0_1_n_n.contr.Idx) :
    (dot_S5000x128_S128x384_S5000x384_1_0_0_1_n_n.lhsIdx i q 1).val = (q ⟨0, by decide⟩).val :=
  dot_S5000x128_S128x384_S5000x384_1_0_0_1_n_n.lhsIdx_val_of_single rfl i q
theorem nodeProj_rhs_0 (i : S5000x384.Idx) (q : dot_S5000x128_S128x384_S5000x384_1_0_0_1_n_n.contr.Idx) :
    (dot_S5000x128_S128x384_S5000x384_1_0_0_1_n_n.rhsIdx i q 0).val = (q ⟨0, by decide⟩).val :=
  dot_S5000x128_S128x384_S5000x384_1_0_0_1_n_n.rhsIdx_val_of_single rfl i q
theorem nodeProj_rhs_1 (i : S5000x384.Idx) (q : dot_S5000x128_S128x384_S5000x384_1_0_0_1_n_n.contr.Idx) :
    (dot_S5000x128_S128x384_S5000x384_1_0_0_1_n_n.rhsIdx i q 1).val = (i 1).val := by
  unfold DotDims.rhsIdx
  rw [dif_neg (show ¬(1 : Fin S128x384.rank) ∈ dot_S5000x128_S128x384_S5000x384_1_0_0_1_n_n.rhsBatch by decide), dif_pos (show (1 : Fin S128x384.rank) ∈ dot_S5000x128_S128x384_S5000x384_1_0_0_1_n_n.rhsNonContracting by decide)]
  rfl

theorem nodeProj_pay_at (x0 : Vec Ideal S5000x128 .f32) (x1 : Vec Ideal S128x384 .f32) (x2 : Vec Ideal S384 .f32) (p : Fin 5000) (j : Fin 384) :
    (k0_pay1 (F := Ideal) x0 x1 x2 : S5000x384.Idx → EReal) (ix2 p j)
      = (∑ k : Fin 128, (x0 : S5000x128.Idx → EReal) (ix2 p k) * (x1 : S128x384.Idx → EReal) (ix2 k j)) + (x2 : S384.Idx → EReal) (ix1 j) := by
  unfold k0_pay1
  show (matmul dot_S5000x128_S128x384_S5000x384_1_0_0_1_n_n none (truncf FTy.bf16 x0 bitsLt_bf16_f32)
        (truncf FTy.bf16 (shapeCast S128x384 x1 shapeCasts_S128x384_S128x384) bitsLt_bf16_f32)
        (constant (F := Ideal) S5000x384 FTy.f32 0x00000000#32)) (ix2 p j)
      + (broadcastTo S5000x384 (shapeCast S1x384 (shapeCast S384 x2 shapeCasts_S384_S384) shapeCasts_S384_S1x384)
        broadcasts_S1x384_S5000x384) (ix2 p j) = _
  refine congrArg₂ (· + ·) ?_ ?_
  · refine (Ideal.matmul_constant_zero_apply dot_S5000x128_S128x384_S5000x384_1_0_0_1_n_n none _ _ (ix2 p j)).trans ?_
    rw [← Equiv.sum_comp (ValueIdx.contrEquiv1 dot_S5000x128_S128x384_S5000x384_1_0_0_1_n_n 128 rfl rfl).symm]
    refine Finset.sum_congr rfl fun k _ => ?_
    have hk := ValueIdx.contrEquiv1_symm_val dot_S5000x128_S128x384_S5000x384_1_0_0_1_n_n 128 rfl rfl k
    have el : dot_S5000x128_S128x384_S5000x384_1_0_0_1_n_n.lhsIdx (ix2 p j) ((ValueIdx.contrEquiv1 dot_S5000x128_S128x384_S5000x384_1_0_0_1_n_n 128 rfl rfl).symm k) = ix2 p k := funext fun a => Fin.ext (by
      match a with
      | ⟨0, _⟩ => exact nodeProj_lhs_0 _ _
      | ⟨1, _⟩ => exact (nodeProj_lhs_1 _ _).trans hk)
    have er : dot_S5000x128_S128x384_S5000x384_1_0_0_1_n_n.rhsIdx (ix2 p j) ((ValueIdx.contrEquiv1 dot_S5000x128_S128x384_S5000x384_1_0_0_1_n_n 128 rfl rfl).symm k) = ix2 k j := funext fun a => Fin.ext (by
      match a with
      | ⟨0, _⟩ => exact (nodeProj_rhs_0 _ _).trans hk
      | ⟨1, _⟩ => exact nodeProj_rhs_1 _ _)
    rw [el, er, shapeCast_self]
    rfl
  · refine (broadcastTo_apply _ broadcasts_S1x384_S5000x384 (ix2 p j) (ix2 (0 : Fin 1) j) (fun a => match a with
      | ⟨0, _⟩ => by show 0 = if (1 : Nat) = 1 then 0 else p.val; rw [if_pos rfl]
      | ⟨1, _⟩ => by show j.val = if (384 : Nat) = 1 then 0 else j.val; rw [if_neg (by decide)])).trans ?_
    rw [shapeCast_self]
    exact shapeCast_a_1a_apply x2 shapeCasts_S384_S1x384 (0 : Fin 1) j

/-! ## The whole-array function -/

variable (V : (c : Dev nD) → (b : Ref sig .tc) → Buf (Elt Ideal) ((c : Thread nD τ).loc b))

theorem nodeProj_hz2 : (![0, 0] : Fin 2 → Nat) = fun _ => 0 := funext fun a => by fin_cases a <;> rfl
theorem nodeProj_hz1 : (![0] : Fin 1 → Nat) = fun _ => 0 := funext fun a => by fin_cases a; rfl

/-- What the output array ends holding: at row `r` and column `j`, the feature row `r` times the weight column `j`
    plus the bias at `j`. -/
def projAll (a0 : S50000x128.Idx → EReal) (a1 : S128x384.Idx → EReal) (a2 : S384.Idx → EReal) : S50000x384.Idx → EReal :=
  fun i => (∑ k : Fin 128, a0 (ix2 ⟨(i 0).val, (i 0).isLt⟩ k) * a1 (ix2 k ⟨(i 1).val, (i 1).isLt⟩)) + a2 (ix1 ⟨(i 1).val, (i 1).isLt⟩)

/-- The printed index maps, decided over the ten grid points: the feature tile moves with the output tile, down the
    rows; the weight matrix and the bias stay. -/
theorem nodeProj_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of `projAll` of the input arrays as the region finds them. -/
theorem nodeProj_flushed (c : Dev nD) (t : Fin cfg0.N) :
    (datNode (F := Ideal) V c).flushed 3 t
      = ((cfg0.win 3).blk t).view.read (Elt Ideal) (projAll (V c main_arg0) (V c main_v0) (V c main_v1)) := by
  show (cfg0.win 3).cut (grid0.coords t) ((datNode V c).after 3 t) = _
  rw [datNode_after_3]
  unfold outNode
  rw [View.canon_unit_zero nodeProj_hz2]
  simp only [View.ld_unit_zero (S := S5000x128) nodeProj_hz2, View.ld_unit_zero (S := S128x384) nodeProj_hz2, View.ld_unit_zero (S := S384) nodeProj_hz1]
  obtain ⟨e00, e01, e10, e11, e20, e30, e31⟩ := nodeProj_idx_facts t
  funext y
  obtain ⟨p, q, rfl⟩ : ∃ (p : Fin 5000) (q : Fin 384), y = ix2 p q :=
    ⟨⟨(y 0).val, (y 0).isLt⟩, ⟨(y 1).val, (y 1).isLt⟩, funext fun a => match a with | ⟨0, _⟩ => rfl | ⟨1, _⟩ => rfl⟩
  show (k0_pay1 (F := Ideal) (blkNode V c 0 t) (blkNode V c 1 t) (blkNode V c 2 t) : S5000x384.Idx → EReal) (ix2 p q)
    = projAll (V c main_arg0) (V c main_v0) (V c main_v1) (((cfg0.win 3).blk t).view.emb (ix2 p q))
  refine (nodeProj_pay_at (blkNode V c 0 t) (blkNode V c 1 t) (blkNode V c 2 t) p q).trans ?_
  unfold projAll
  refine congrArg₂ (· + ·) (Finset.sum_congr rfl fun k _ => congrArg₂ (· * ·) ?_ ?_) ?_
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_v0 (((cfg0.win 1).blk t).view.emb (ix2 k q)) = V c main_v0 _
    refine congrArg _ (funext fun a => Fin.ext ?_)
    match a with
    | ⟨0, _⟩ => show win0_1.index t (0 : Fin 2) * 128 + 1 * k.val = k.val; omega
    | ⟨1, _⟩ => show win0_1.index t (1 : Fin 2) * 384 + 1 * q.val = win0_3.index t (1 : Fin 2) * 384 + 1 * q.val; omega
  · show V c main_v1 (((cfg0.win 2).blk t).view.emb (ix1 q)) = V c main_v1 _
    refine congrArg _ (funext fun a => Fin.ext ?_)
    match a with
    | ⟨0, _⟩ => show win0_2.index t (0 : Fin 1) * 384 + 1 * q.val = win0_3.index t (1 : Fin 2) * 384 + 1 * q.val; omega

/-- An index of the output array is in point `t`'s block iff each coordinate is in the block's range on its axis. -/
theorem nodeProj_mem_blk (t : Fin cfg0.N) (i : S50000x384.Idx) :
    i ∈ ((cfg0.win 3).blk t).view.set ↔ ∀ a : Fin 2, win0_3.index t a * S5000x384.size a ≤ (i a).val ∧ (i a).val < win0_3.index t a * S5000x384.size a + S5000x384.size a := by
  show i ∈ ((View.whole main_v2).slice (win0_3.rect t)).set ↔ _
  rw [View.set_slice_whole, Rect.mem_set_unit]
  exact Iff.rfl

/-- Every index of the output array is in the block of the point its row's tile names. -/
theorem nodeProj_cover (i : S50000x384.Idx) :
    ∃ t : Fin cfg0.N, (cfg0.win 3).flush t = true ∧ i ∈ ((cfg0.win 3).blk t).view.set := by
  have hi0 : (i 0).val < 50000 := (i 0).isLt
  have hi1 : (i 1).val < 384 := (i 1).isLt
  have hN : cfg0.N = 10 := N_0
  let t : Fin cfg0.N := ⟨(i 0).val / 5000, by rw [hN]; omega⟩
  obtain ⟨e00, e01, e10, e11, e20, e30, e31⟩ := nodeProj_idx_facts t
  have ht : t.val = (i 0).val / 5000 := rfl
  refine ⟨t, flush0_3 t, ?_⟩
  rw [nodeProj_mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 384 ≤ (i 1).val ∧ (i 1).val < win0_3.index t (1 : Fin 2) * 384 + 384; omega

/-- `projAll` at row `r`, column `j`. -/
theorem projAll_apply (a0 : S50000x128.Idx → EReal) (a1 : S128x384.Idx → EReal) (a2 : S384.Idx → EReal) (r : Fin 50000) (j : Fin 384) :
    projAll a0 a1 a2 (ix2 r j) = (∑ k : Fin 128, a0 (ix2 r k) * a1 (ix2 k j)) + a2 (ix1 j) := rfl

/-- THE ARRAY after the region: `projAll` of the input arrays as the region finds them. -/
theorem nodeProj_arr_eq (c : Dev nD) :
    (datNode (F := Ideal) V c).arrAt 3 cfg0.N = projAll (V c main_arg0) (V c main_v0) (V c main_v1) :=
  (datNode (F := Ideal) V c).arrAt_eq_of_cover 3 (projAll (V c main_arg0) (V c main_v0) (V c main_v1))
    (fun t _ => nodeProj_flushed V c t) nodeProj_cover

/-- Index by index: row `r` of the features times column `j` of the weights, plus the bias at `j`. -/
theorem nodeProj_arr (c : Dev nD) (r : Fin 50000) (j : Fin 384) :
    ((datNode (F := Ideal) V c).arrAt 3 cfg0.N : S50000x384.Idx → EReal) (ix2 r j)
      = HAdd.hAdd (α := EReal) (β := EReal) (γ := EReal)
          (∑ k : Fin 128, HMul.hMul (α := EReal) (β := EReal) (γ := EReal)
            ((V c main_arg0 : S50000x128.Idx → EReal) (ix2 r k)) ((V c main_v0 : S128x384.Idx → EReal) (ix2 k j)))
          ((V c main_v1 : S384.Idx → EReal) (ix1 j)) := by
  rw [nodeProj_arr_eq]
  rfl

end Cert.KernelIdeal.Att

end
-- ==== Proof.EdgeProjValue.lean ====
/- What the edge projection's region leaves in its output array, index by index, on the extended reals: row `r` of
   the edge features against column `j` of the weight matrix, plus the bias at `j`.  The payload read at an index, each
   window's block located in its array, the block every point writes back as a block of one whole-array function, the
   cover of the array by the row tiles, and the array after the last point. -/
import proofs.«425955_j21569325760859_2_alg».proof.Proof.EdgeProj
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Att

open Cert.KernelIdeal Cert.KernelIdeal.Gen Idealize.ShloMosaic Idealize.ShloMosaic.TcCoe Idealize.SL.Sem
open Idealize.ShloMosaic.ValueIdx
open Idealize.ShloMosaic.Pipeline (Dat Cfg Window BodyObligation)

/-! ## The matrix product's operand indices, axis by axis -/

theorem lhs_edgeProj_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_edgeProj_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_edgeProj_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_edgeProj_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The tile times the weights, into the zero accumulator, at row `p` and column `q`: the sum over the 128 shared
    coordinates. -/
theorem edgeProj_matmul_apply (a : FVec Ideal S8000x128 .bf16) (w : FVec Ideal S128x128 .bf16) (p : Fin 8000) (q : Fin 128) :
    FloatOps.matmul dot_S8000x128_S128x128_S8000x128_1_0_0_1_n_n none a w (constant (F := Ideal) S8000x128 .f32 0x00000000#32) (ix2 p q)
      = ∑ k : Fin 128, a (ix2 p k) * w (ix2 k q) := by
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun ax => Fin.ext (by
    match ax with
    | ⟨0, _⟩ => exact lhs_edgeProj_0 _ _
    | ⟨1, _⟩ => exact (lhs_edgeProj_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun ax => Fin.ext (by
    match ax with
    | ⟨0, _⟩ => exact (rhs_edgeProj_0 _ _).trans hk
    | ⟨1, _⟩ => exact rhs_edgeProj_1 _ _)
  rw [el, er]

/-- THE PAYLOAD AT AN INDEX: row `p` of the tile against column `q` of the weights, plus the bias at `q`.  The
    roundings to the narrower format are the identity on the extended reals. -/
theorem edgeProj_payload_apply (x0 : Vec Ideal S8000x128 .f32) (x1 : Vec Ideal S128x128 .f32) (x2 : Vec Ideal S128 .f32)
    (p : Fin 8000) (q : Fin 128) :
    (k1_pay1 (F := Ideal) x0 x1 x2 : S8000x128.Idx → EReal) (ix2 p q)
      = (∑ k : Fin 128, (x0 : S8000x128.Idx → EReal) (ix2 p k) * (x1 : S128x128.Idx → EReal) (ix2 k q))
        + (x2 : S128.Idx → EReal) (ix1 q) := by
  unfold k1_pay1
  refine (addf_apply _ _ (ix2 p q)).trans ?_
  refine congrArg₂ (· + ·) ?_ ?_
  · exact edgeProj_matmul_apply (truncf .bf16 x0 bitsLt_bf16_f32) (truncf .bf16 x1 bitsLt_bf16_f32) p q
  · refine (broadcastTo_1b_ab_apply _ broadcasts_S1x128_S8000x128 p q).trans ?_
    exact shapeCast_a_1a_apply x2 shapeCasts_S128_S1x128 (0 : Fin 1) q

/-! ## The whole-array function -/

/-- Row `r` of the features against column `j` of the weights, plus the bias at `j`. -/
def edgeProjAt (A : S800000x128.Idx → EReal) (W : S128x128.Idx → EReal) (b : S128.Idx → EReal) (r : Fin 800000) (j : Fin 128) : EReal :=
  (∑ k : Fin 128, A (ix2 r k) * W (ix2 k j)) + b (ix1 j)

/-- The output array as one function of the three argument arrays. -/
def edgeProjArr (A : S800000x128.Idx → EReal) (W : S128x128.Idx → EReal) (b : S128.Idx → EReal) : S800000x128.Idx → EReal :=
  fun i => edgeProjAt A W b (i 0) (i 1)

/-! ## The printed index maps, decided once over the grid -/

/-- At point `t` the feature tile and the output tile are row tile `t`; the weights and the bias are whole. -/
theorem edgeProj_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-! ## Each window's block located in its array -/

theorem edgeProj_emb_feat (t : Fin cfg1.N) (p : Fin 8000) (k : Fin 128) (r : Fin 800000) (hr : r.val = t.val * 8000 + p.val) :
    (((cfg1.win 0).blk t).view.emb (ix2 p k) : S800000x128.Idx) = ix2 r k := by
  obtain ⟨e0, e1, -⟩ := edgeProj_index_facts t
  funext a; apply Fin.ext
  match a with
  | ⟨0, _⟩ => show win1_0.index t (0 : Fin 2) * 8000 + 1 * p.val = r.val; omega
  | ⟨1, _⟩ => show win1_0.index t (1 : Fin 2) * 128 + 1 * k.val = k.val; omega

theorem edgeProj_emb_weight (t : Fin cfg1.N) (k q : Fin 128) :
    (((cfg1.win 1).blk t).view.emb (ix2 k q) : S128x128.Idx) = ix2 k q := by
  obtain ⟨-, -, e2, e3, -⟩ := edgeProj_index_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

theorem edgeProj_emb_bias (t : Fin cfg1.N) (q : Fin 128) :
    (((cfg1.win 2).blk t).view.emb (ix1 q) : S128.Idx) = ix1 q := by
  obtain ⟨-, -, -, -, e4, -⟩ := edgeProj_index_facts t
  funext a; apply Fin.ext
  match a with
  | ⟨0, _⟩ => show win1_2.index t (0 : Fin 1) * 128 + 1 * q.val = q.val; omega

theorem edgeProj_emb_out (t : Fin cfg1.N) (p : Fin 8000) (q : Fin 128) (r : Fin 800000) (hr : r.val = t.val * 8000 + p.val) :
    (((cfg1.win 3).blk t).view.emb (ix2 p q) : S800000x128.Idx) = ix2 r q := by
  obtain ⟨-, -, -, -, -, e5, e6⟩ := edgeProj_index_facts t
  funext a; apply Fin.ext
  match a with
  | ⟨0, _⟩ => show win1_3.index t (0 : Fin 2) * 8000 + 1 * p.val = r.val; omega
  | ⟨1, _⟩ => show win1_3.index t (1 : Fin 2) * 128 + 1 * q.val = q.val; omega

-- the TensorCore's buffer contents when the region is entered
variable (V : (c : Dev nD) → (b : Ref sig .tc) → Buf (Elt Ideal) ((c : Thread nD τ).loc b))

/-- The three argument arrays as the region finds them, each at its literal shape over the extended reals: the edge
    features, the weight matrix, the bias row. -/
abbrev edgeFeat (c : Dev nD) : S800000x128.Idx → EReal := V c main_arg1
abbrev edgeWeight (c : Dev nD) : S128x128.Idx → EReal := V c main_arg10
abbrev edgeBias (c : Dev nD) : S128.Idx → EReal := V c main_arg11

theorem edgeProj_hz2 : (![0, 0] : Fin 2 → Nat) = fun _ => 0 := funext fun a => by fin_cases a <;> rfl
theorem edgeProj_hz1 : (![0] : Fin 1 → Nat) = fun _ => 0 := funext fun a => by fin_cases a; rfl

/-! ## What a point writes back -/

/-- WHAT POINT `t` WRITES BACK is block `t` of `edgeProjArr` of the three argument arrays as the region finds them. -/
theorem edgeProj_flushed (c : Dev nD) (t : Fin cfg1.N) :
    (datEdgeProj (F := Ideal) V c).flushed 3 t
      = ((cfg1.win 3).blk t).view.read (Elt Ideal)
          (edgeProjArr (edgeFeat V c) (edgeWeight V c) (edgeBias V c)) := by
  show (cfg1.win 3).cut (grid1.coords t) ((datEdgeProj (F := Ideal) V c).after 3 t) = _
  rw [datEdgeProj_after_3]
  unfold edgeProjOut
  rw [View.canon_unit_zero edgeProj_hz2]
  simp only [View.ld_unit_zero (S := S8000x128) edgeProj_hz2, View.ld_unit_zero (S := S128x128) edgeProj_hz2, View.ld_unit_zero (S := S128) edgeProj_hz1]
  show (k1_pay1 (F := Ideal) (edgeProjBlk V c 0 t) (edgeProjBlk V c 1 t) (edgeProjBlk V c 2 t) : S8000x128.Idx → EReal)
    = fun y : S8000x128.Idx => edgeProjArr (edgeFeat V c) (edgeWeight V c) (edgeBias V c) (((cfg1.win 3).blk t).view.emb y)
  funext y
  obtain ⟨p, q, rfl⟩ : ∃ (p : Fin 8000) (q : Fin 128), y = ix2 p q := ⟨y 0, y 1, eq_ix2 y⟩
  refine (edgeProj_payload_apply (edgeProjBlk V c 0 t) (edgeProjBlk V c 1 t) (edgeProjBlk V c 2 t) p q).trans ?_
  have hN : cfg1.N = 100 := N_1
  have ht : t.val < 100 := hN ▸ t.isLt
  obtain ⟨r, hr⟩ : ∃ r : Fin 800000, r.val = t.val * 8000 + p.val := ⟨⟨t.val * 8000 + p.val, by have := p.isLt; omega⟩, rfl⟩
  rw [edgeProj_emb_out t p q r hr]
  show (∑ k : Fin 128, edgeFeat V c (((cfg1.win 0).blk t).view.emb (ix2 p k))
        * edgeWeight V c (((cfg1.win 1).blk t).view.emb (ix2 k q)))
      + edgeBias V c (((cfg1.win 2).blk t).view.emb (ix1 q))
    = edgeProjAt (edgeFeat V c) (edgeWeight V c) (edgeBias V c) r q
  unfold edgeProjAt
  rw [edgeProj_emb_bias t q]
  refine congrArg₂ (· + ·) (Finset.sum_congr rfl fun k _ => ?_) rfl
  rw [edgeProj_emb_feat t p k r hr, edgeProj_emb_weight t k q]

/-! ## The cover -/

/-- An index of the output array is in point `t`'s block iff each coordinate is in the block's range on its axis. -/
theorem edgeProj_mem_blk (t : Fin cfg1.N) (i : S800000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v6).slice (win1_3.rect t)).set ↔ _
  rw [View.set_slice_whole, Rect.mem_set_unit]
  exact Iff.rfl

/-- Every index of the output array is in the block of the point its row's tile names, which is written back. -/
theorem edgeProj_cover (i : S800000x128.Idx) :
    ∃ t : Fin cfg1.N, (cfg1.win 3).flush t = true ∧ i ∈ ((cfg1.win 3).blk t).view.set := by
  have hi0 : (i 0).val < 800000 := (i 0).isLt
  have hi1 : (i 1).val < 128 := (i 1).isLt
  have hN : cfg1.N = 100 := N_1
  obtain ⟨t, ht⟩ : ∃ t : Fin cfg1.N, t.val = (i 0).val / 8000 := ⟨⟨(i 0).val / 8000, by rw [hN]; omega⟩, rfl⟩
  obtain ⟨-, -, -, -, -, e5, e6⟩ := edgeProj_index_facts t
  refine ⟨t, flush1_3 t, ?_⟩
  rw [edgeProj_mem_blk]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-! ## The array after the last point -/

/-- THE OUTPUT ARRAY after the region, index by index: row `r` of the features against column `j` of the weights,
    plus the bias at `j`. -/
theorem edgeProj_arr (c : Dev nD) (r : Fin 800000) (j : Fin 128) :
    ((datEdgeProj (F := Ideal) V c).arrAt 3 cfg1.N : S800000x128.Idx → EReal) (ix2 r j)
      = (∑ k : Fin 128, edgeFeat V c (ix2 r k) * edgeWeight V c (ix2 k j)) + edgeBias V c (ix1 j) :=
  congrFun ((datEdgeProj (F := Ideal) V c).arrAt_eq_of_cover 3
    (edgeProjArr (edgeFeat V c) (edgeWeight V c) (edgeBias V c))
    (fun t _ => edgeProj_flushed V c t) edgeProj_cover) (ix2 r j)

end Cert.KernelIdeal.Att

end
-- ==== Proof.KernelProj.lean ====
/- The kernel program's four projections, read in the specification's terms: the array the edge projection leaves is the
   projected edge features, and the three column bands cut from the node projection's array are the nodes' queries, keys
   and values. Each is a row of the features against a column of the weights plus the bias; the node projection works on
   the three weight matrices laid side by side and the three biases end to end, so column j of band b is column
   128 * b + j of the joint array. -/
import proofs.«425955_j21569325760859_2_alg».proof.Proof.KernelInp
import proofs.«425955_j21569325760859_2_alg».proof.Proof.KernelHost
import proofs.«425955_j21569325760859_2_alg».proof.Proof.NodeProjValue
import proofs.«425955_j21569325760859_2_alg».proof.Proof.EdgeProjValue

noncomputable section

namespace Cert.KernelIdeal.Att

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD) (s d : Fin 800000 → Fin 50000)

/-! ## The edge projection -/

/-- The edge features reach the edge projection as launched. -/
theorem V3_edgeFeat : V3 m c main_arg1 = m ((c : Thread nD τ).loc main_arg1) :=
  (W3_keep m c main_arg1 (by decide)).trans ((W2_of_ne m c main_arg1 (by decide)).trans
    ((W1_keep m c main_arg1 (by decide)).trans rfl))
/-- The edge weight matrix reaches the edge projection as launched. -/
theorem V3_edgeWeight : V3 m c main_arg10 = m ((c : Thread nD τ).loc main_arg10) :=
  (W3_keep m c main_arg10 (by decide)).trans ((W2_of_ne m c main_arg10 (by decide)).trans
    ((W1_keep m c main_arg10 (by decide)).trans rfl))
/-- The edge bias reaches the edge projection as launched. -/
theorem V3_edgeBias : V3 m c main_arg11 = m ((c : Thread nD τ).loc main_arg11) :=
  (W3_keep m c main_arg11 (by decide)).trans ((W2_of_ne m c main_arg11 (by decide)).trans
    ((W1_keep m c main_arg11 (by decide)).trans rfl))

/-- THE EDGE PROJECTION'S ARRAY IS THE PROJECTED EDGE FEATURES. -/
theorem stage_efe (e : Fin 800000) (j : Fin 128) :
    (W4 m c (Proc.devRef .tc main_v6) : S800000x128.Idx → EReal) (ix2 e j) = Cert.Att.efe (inpOf m c s d) e j := by
  refine (congrFun (W4_arr m c 3) (ix2 e j)).trans ?_
  refine (edgeProj_arr (V3 m) c e j).trans ?_
  have hA : edgeFeat (V3 m) c = (inpOf m c s d).e := V3_edgeFeat m c
  have hW : edgeWeight (V3 m) c = (inpOf m c s d).We := V3_edgeWeight m c
  have hb : edgeBias (V3 m) c = (inpOf m c s d).be := V3_edgeBias m c
  rw [hA, hW, hb]
  rfl

/-! ## The joint weight and bias arrays, band by band -/

/-- Column j of the first band of the joint weights is column j of the query weights. -/
theorem wcat_q (W : Valuation τ sig (Elt Ideal)) (k j : Fin 128) :
    (StableHlo.after (hostOps0 (F := Ideal)) W (Proc.devRef .tc main_v0) : S128x384.Idx → EReal) (ix2 k ⟨j.val, by omega⟩)
      = (W (Proc.devRef .tc main_arg4) : S128x128.Idx → EReal) (ix2 k j) := by
  refine (after0_wcat W k ⟨j.val, by omega⟩).trans ?_
  have h1 : j.val < 128 := j.isLt
  rw [dif_pos h1]

/-- Column j of the second band of the joint weights is column j of the key weights. -/
theorem wcat_k (W : Valuation τ sig (Elt Ideal)) (k j : Fin 128) :
    (StableHlo.after (hostOps0 (F := Ideal)) W (Proc.devRef .tc main_v0) : S128x384.Idx → EReal) (ix2 k ⟨128 + j.val, by omega⟩)
      = (W (Proc.devRef .tc main_arg6) : S128x128.Idx → EReal) (ix2 k j) := by
  refine (after0_wcat W k ⟨128 + j.val, by omega⟩).trans ?_
  have h1 : ¬ 128 + j.val < 128 := by omega
  have h2 : 128 + j.val < 256 := by omega
  rw [dif_neg h1, dif_pos h2]
  exact congrArg _ (congrArg (ix2 k) (Fin.ext (by show 128 + j.val - 128 = j.val; omega)))

/-- Column j of the third band of the joint weights is column j of the value weights. -/
theorem wcat_v (W : Valuation τ sig (Elt Ideal)) (k j : Fin 128) :
    (StableHlo.after (hostOps0 (F := Ideal)) W (Proc.devRef .tc main_v0) : S128x384.Idx → EReal) (ix2 k ⟨256 + j.val, by omega⟩)
      = (W (Proc.devRef .tc main_arg8) : S128x128.Idx → EReal) (ix2 k j) := by
  refine (after0_wcat W k ⟨256 + j.val, by omega⟩).trans ?_
  have h1 : ¬ 256 + j.val < 128 := by omega
  have h2 : ¬ 256 + j.val < 256 := by omega
  rw [dif_neg h1, dif_neg h2]
  exact congrArg _ (congrArg (ix2 k) (Fin.ext (by show 256 + j.val - 256 = j.val; omega)))

/-- Entry j of the first band of the joint biases is entry j of the query bias. -/
theorem bcat_q (W : Valuation τ sig (Elt Ideal)) (j : Fin 128) :
    (StableHlo.after (hostOps0 (F := Ideal)) W (Proc.devRef .tc main_v1) : S384.Idx → EReal) (ix1 ⟨j.val, by omega⟩)
      = (W (Proc.devRef .tc main_arg5) : S128.Idx → EReal) (ix1 j) := by
  refine (after0_bcat W ⟨j.val, by omega⟩).trans ?_
  have h1 : j.val < 128 := j.isLt
  rw [dif_pos h1]

/-- Entry j of the second band of the joint biases is entry j of the key bias. -/
theorem bcat_k (W : Valuation τ sig (Elt Ideal)) (j : Fin 128) :
    (StableHlo.after (hostOps0 (F := Ideal)) W (Proc.devRef .tc main_v1) : S384.Idx → EReal) (ix1 ⟨128 + j.val, by omega⟩)
      = (W (Proc.devRef .tc main_arg7) : S128.Idx → EReal) (ix1 j) := by
  refine (after0_bcat W ⟨128 + j.val, by omega⟩).trans ?_
  have h1 : ¬ 128 + j.val < 128 := by omega
  have h2 : 128 + j.val < 256 := by omega
  rw [dif_neg h1, dif_pos h2]
  exact congrArg _ (congrArg ix1 (Fin.ext (by show 128 + j.val - 128 = j.val; omega)))

/-- Entry j of the third band of the joint biases is entry j of the value bias. -/
theorem bcat_v (W : Valuation τ sig (Elt Ideal)) (j : Fin 128) :
    (StableHlo.after (hostOps0 (F := Ideal)) W (Proc.devRef .tc main_v1) : S384.Idx → EReal) (ix1 ⟨256 + j.val, by omega⟩)
      = (W (Proc.devRef .tc main_arg9) : S128.Idx → EReal) (ix1 j) := by
  refine (after0_bcat W ⟨256 + j.val, by omega⟩).trans ?_
  have h1 : ¬ 256 + j.val < 128 := by omega
  have h2 : ¬ 256 + j.val < 256 := by omega
  rw [dif_neg h1, dif_neg h2]
  exact congrArg _ (congrArg ix1 (Fin.ext (by show 256 + j.val - 256 = j.val; omega)))

/-! ## The node projection -/

/-- The node features reach the node projection as launched. -/
theorem V1_nodeFeat : V1 m c main_arg0 = m ((c : Thread nD τ).loc main_arg0) :=
  (W1_keep m c main_arg0 (by decide)).trans rfl

/-- The joint array at row r and column jj, for a column whose weights and bias are known: the features' row r against
    those weights plus that bias. -/
theorem joint_at (Wt : S128x128.Idx → EReal) (bs : S128.Idx → EReal) (r : Fin 50000) (jj : Fin 384) (j : Fin 128)
    (hw : ∀ k : Fin 128, (V1 m c main_v0 : S128x384.Idx → EReal) (ix2 k jj) = Wt (ix2 k j))
    (hb : (V1 m c main_v1 : S384.Idx → EReal) (ix1 jj) = bs (ix1 j)) :
    (W2 m c (Proc.devRef .tc main_v2) : S50000x384.Idx → EReal) (ix2 r jj)
      = Cert.Att.lin (inpOf m c s d).h Wt bs r j := by
  refine (congrFun (W2_arr m c 3) (ix2 r jj)).trans ?_
  refine (nodeProj_arr (V1 m) c r jj).trans ?_
  show _ = (∑ k : Fin 128, (inpOf m c s d).h (ix2 r k) * Wt (ix2 k j)) + bs (ix1 j)
  refine congrArg₂ (· + ·) (Finset.sum_congr rfl fun k _ => congrArg₂ (· * ·) ?_ (hw k)) hb
  exact congrFun (V1_nodeFeat m c) (ix2 r k)

/-- THE FIRST COLUMN BAND IS THE NODES' QUERIES. -/
theorem stage_qry (r : Fin 50000) (j : Fin 128) :
    (W3 m c (Proc.devRef .tc main_v3) : S50000x128.Idx → EReal) (ix2 r j) = Cert.Att.qry (inpOf m c s d) r j :=
  (after1_q (W2 m c) r j).trans
    (joint_at m c s d (inpOf m c s d).Wq (inpOf m c s d).bq r ⟨j.val, by omega⟩ j
      (fun k => wcat_q (W0 m c) k j) (bcat_q (W0 m c) j))

/-- THE SECOND COLUMN BAND IS THE NODES' KEYS. -/
theorem stage_key (r : Fin 50000) (j : Fin 128) :
    (W3 m c (Proc.devRef .tc main_v4) : S50000x128.Idx → EReal) (ix2 r j) = Cert.Att.key (inpOf m c s d) r j :=
  (after1_k (W2 m c) r j).trans
    (joint_at m c s d (inpOf m c s d).Wk (inpOf m c s d).bk r ⟨128 + j.val, by omega⟩ j
      (fun k => wcat_k (W0 m c) k j) (bcat_k (W0 m c) j))

/-- THE THIRD COLUMN BAND IS THE NODES' VALUES. -/
theorem stage_val (r : Fin 50000) (j : Fin 128) :
    (W3 m c (Proc.devRef .tc main_v5) : S50000x128.Idx → EReal) (ix2 r j) = Cert.Att.val (inpOf m c s d) r j :=
  (after1_v (W2 m c) r j).trans
    (joint_at m c s d (inpOf m c s d).Wv (inpOf m c s d).bv r ⟨256 + j.val, by omega⟩ j
      (fun k => wcat_v (W0 m c) k j) (bcat_v (W0 m c) j))

end Cert.KernelIdeal.Att

end
-- ==== Proof.LibGatherRows.lean ====
/-
  ROW GATHERS READ AT AN INDEX. A table of rows indexed along its first axis by a column of integer positions —
  `table[idx]`, a take along axis 0 — is a gather whose first operand axis is collapsed and start-indexed, whose
  remaining operand axes are the result's offset axes, whose start indices are an [E × 1] array with the index vector on
  axis 1, and which has no batching axes. Result row `e` is the table's row at position `idx[e, 0]`, read as a SIGNED
  integer and CLAMPED into [0, N − 1]: a negative position reads row 0, one past the end reads the last row. Stated for a
  table of rank 2 (rows of `C` entries) and of rank 3 (rows of `H × D` entries), for any dimension-numbers record
  whose fields are the ones above; and, for a position known to be in range, with the clamp gone.
-/
import Idealize.ShloMosaic.PureOps
import Idealize.ShloMosaic.Lib.ValueIdx

namespace Cert.Att.Lib

open Idealize.ShloMosaic Idealize.ShloMosaic.ValueIdx

/-- THE ROW GATHER, RANK 2. For an [N × C] table, an [E × 1] array of start indices and an [E × C] result, with the
    dimension numbers of a take along axis 0 (`hoff` … `hivd`: offset axis 1, collapsed axis 0, no operand batching axes,
    start index map [0], index vector on axis 1 — each closed by `rfl` at a literal record; the slice sizes and the
    start-indices batching axes are not needed, the record's own well-formedness gives what is used of them): the result
    at (e, c) is the table at (r, c), where r is the start index `idx[e, 0]` read signed and clamped into [0, N − 1]. -/
theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  -- the collapsed axis has slice size 1, so the clamp is to N − 1
  have hsl : d.sliceSizes 0 = 1 := d.slice_collapsed 0 (by rw [hcoll]; exact List.mem_singleton.mpr rfl)
  -- with the record's fields substituted, every list of axes below is a literal and computes
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    -- the start index is read at (e, 0): the result's batch axis 0 gives the row, the index vector has one component
    refine congrArg (fun z => min (idx z).toInt.toNat (N - 1)) ?_
    funext b
    refine Fin.ext ?_
    match b with
    | ⟨0, _⟩ => rfl
    | ⟨1, _⟩ => rfl
  | ⟨1, _⟩ =>
    -- axis 1: not start-indexed (start 0), not batching; its offset coordinate is the result's coordinate on axis 1
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- THE ROW GATHER, RANK 2, AT A POSITION IN RANGE. When the start index `idx[e, 0]`, read signed, is the row number `n`
    of the table, the clamp does nothing: the result at (e, c) is the table at (n, c). -/
theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hN : 0 < N := Nat.lt_of_le_of_lt (Nat.zero_le _) n.isLt
  rw [gather_rows2 d hoff hcoll hob hsim hivd hN x idx e c]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

/-- THE ROW GATHER, RANK 3. For an [N × H × D] table, an [E × 1] array of start indices and an [E × H × D] result, with
    the dimension numbers of a take along axis 0 (`hoff` … `hivd`: offset axes 1 and 2, collapsed axis 0, no operand
    batching axes, start index map [0], index vector on axis 1 — each closed by `rfl` at a literal record): the result at
    (e, h, j) is the table at (r, h, j), where r is the start index `idx[e, 0]` read signed and clamped into [0, N − 1]. -/
theorem gather_rows3 {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1) (hN : 0 < N)
    (x : (⟨3, ![N, H, D]⟩ : Shape).Idx → α) (idx : IVec ⟨2, ![E, 1]⟩ w) (e : Fin E) (h : Fin H) (j : Fin D) :
    Host.gather d x idx (ix3 e h j) = x (ix3 ⟨min (idx (ix2 e 0)).toInt.toNat (N - 1), by omega⟩ h j) := by
  have hsl : d.sliceSizes 0 = 1 := d.slice_collapsed 0 (by rw [hcoll]; exact List.mem_singleton.mpr rfl)
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix3 e h j) idx 0 + GatherDims.batchCoord _ (ix3 e h j) 0 + GatherDims.offCoord _ (ix3 e h j) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    refine congrArg (fun z => min (idx z).toInt.toNat (N - 1)) ?_
    funext b
    refine Fin.ext ?_
    match b with
    | ⟨0, _⟩ => rfl
    | ⟨1, _⟩ => rfl
  | ⟨1, _⟩ =>
    -- axis 1: start 0, no batching; its offset coordinate is the result's coordinate on axis 1
    show GatherDims.start _ (ix3 e h j) idx 1 + GatherDims.batchCoord _ (ix3 e h j) 1 + GatherDims.offCoord _ (ix3 e h j) 1 = h.val
    rw [GatherDims.batchCoord_eq_zero _ _ _ List.not_mem_nil]
    unfold GatherDims.start
    rw [dif_neg (show (1 : Fin 3) ∉ ([0] : List (Fin 3)) by decide)]
    simp only [Nat.add_zero, Nat.zero_add]
    rfl
  | ⟨2, _⟩ =>
    -- axis 2: start 0, no batching; its offset coordinate is the result's coordinate on axis 2
    show GatherDims.start _ (ix3 e h j) idx 2 + GatherDims.batchCoord _ (ix3 e h j) 2 + GatherDims.offCoord _ (ix3 e h j) 2 = j.val
    rw [GatherDims.batchCoord_eq_zero _ _ _ List.not_mem_nil]
    unfold GatherDims.start
    rw [dif_neg (show (2 : Fin 3) ∉ ([0] : List (Fin 3)) by decide)]
    simp only [Nat.add_zero, Nat.zero_add]
    rfl

/-- THE ROW GATHER, RANK 3, AT A POSITION IN RANGE. When the start index `idx[e, 0]`, read signed, is the row number `n`
    of the table, the clamp does nothing: the result at (e, h, j) is the table at (n, h, j). -/
theorem gather_rows3_of_eq {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1)
    (x : (⟨3, ![N, H, D]⟩ : Shape).Idx → α) (idx : IVec ⟨2, ![E, 1]⟩ w) (e : Fin E) (h : Fin H) (j : Fin D)
    (n : Fin N) (hn : (idx (ix2 e 0)).toInt = (n.val : Int)) :
    Host.gather d x idx (ix3 e h j) = x (ix3 n h j) := by
  have hN : 0 < N := Nat.lt_of_le_of_lt (Nat.zero_le _) n.isLt
  rw [gather_rows3 d hoff hcoll hob hsim hivd hN x idx e h j]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

end Cert.Att.Lib
-- ==== Proof.KernelTake.lean ====
/- The kernel program's three takes of table rows, read at an index.

   Each take `table[positions]` along the first axis of a [50000 × 128] table at 800000 integer positions runs as: a
   negative position wrapped around by adding the table's length; the wrapped positions laid out as an [800000 × 1]
   column of start indices; the test "0 ≤ position ≤ 49999", its two comparisons conjoined and reduced over the unit
   axis, laid along the rows of the [800000 × 128] result; a gather of the table's rows at the start indices (clamped
   into the table); and a final choice, per entry, of the gathered entry where the test holds and of a filler constant
   where it does not.

   For a position that IS a row number `n` of the table (its signed value is `n`, `n < 50000`) nothing of this does
   anything: the position is not negative, so it is not wrapped; it passes the range test; the clamp leaves it; and the
   choice picks the gathered entry. Row `e` of the result is then row `n` of the table. This file states that once, for
   the take as a pure function of the table and the positions (`takeRows`, `takeRows_apply`), shows that each of the
   program's three stretches of host operations leaves exactly that function of its table and positions in its result
   buffer, from any contents of the buffers (`after2_eq`, `after2_1_eq`, `after2_2_eq`), and concludes the three reads
   (`after2_keys`, `after2_1_queries`, `after2_2_values`). -/
import proofs.«425955_j21569325760859_2_alg».proof.Proof.Gen.KernelIdeal.Launch
import proofs.«425955_j21569325760859_2_alg».proof.Proof.Spec
import proofs.«425955_j21569325760859_2_alg».proof.Proof.LibGatherRows
import Idealize.ShloMosaic.Lib.StableHlo.Run
import Idealize.ShloMosaic.Lib.ValueIdx
import Idealize.ShloMosaic.PureOps.Reduce

noncomputable section

namespace Cert.KernelIdeal.Att

open Cert.KernelIdeal Cert.KernelIdeal.Gen Idealize.ShloMosaic Idealize.ShloMosaic.TcCoe Idealize.ShloMosaic.ValueIdx Idealize.ShloMosaic.StableHlo

/-! ## Words: a position known to be a row number of the table -/

/-- A word whose signed value is a natural number is not below zero. -/
theorem cmpi_slt_zero {w : BitVec 32} {n : ℕ} (hn : w.toInt = (n : ℤ)) : IntOp.cmpi .slt w 0#32 = 0#1 := by
  have h0 : (0#32 : BitVec 32).toInt = 0 := by decide
  have hb : w.slt 0#32 = false := by
    simp only [BitVec.slt, hn, h0]; exact decide_eq_false (by omega)
  simp only [IntOp.cmpi, hb]; rfl

/-- … and is at least zero. -/
theorem cmpi_sge_zero {w : BitVec 32} {n : ℕ} (hn : w.toInt = (n : ℤ)) : IntOp.cmpi .sge w 0#32 = 1#1 := by
  have h0 : (0#32 : BitVec 32).toInt = 0 := by decide
  have hb : (0#32 : BitVec 32).sle w = true := by
    simp only [BitVec.sle, hn, h0]; exact decide_eq_true (by omega)
  simp only [IntOp.cmpi, hb]; rfl

/-- A word whose signed value is a row number of a table of 50000 rows is at most the last row number. -/
theorem cmpi_sle_last {w : BitVec 32} {n : ℕ} (hn : w.toInt = (n : ℤ)) (hlt : n < 50000) :
    IntOp.cmpi .sle w 49999#32 = 1#1 := by
  have h0 : (49999#32 : BitVec 32).toInt = 49999 := by decide
  have hb : w.sle 49999#32 = true := by
    simp only [BitVec.sle, hn, h0]; exact decide_eq_true (by omega)
  simp only [IntOp.cmpi, hb]; rfl

/-- A fold by `and` from 1 over one-bit words that are all 1 is 1. -/
theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, ih (fun i hi => h i (Finset.mem_cons.mpr (Or.inr hi))), h a (Finset.mem_cons_self a S)]
    rfl

/-! ## One take of rows, as a pure function of the table and the positions -/

/-- A negative position wrapped around by the table's length. -/
def wrapIdx (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The wrapped positions as a column of start indices. -/
def idxCol (idx : IVec S800000 32) : IVec S800000x1 32 :=
  broadcastInDim S800000x1 ![0] bcast_S800000_S800000x1_0 (wrapIdx idx)

/-- Per position, whether it lies in [0, 49999]: the two comparisons conjoined, reduced over the unit axis. -/
def inRange (idx : IVec S800000 32) : IVec S800000 1 :=
  Host.reduce IntOp.andi
    (andi (cmpi .sge (idxCol idx) (broadcastInDim S800000x1 ![] bcast_S_S800000x1 (constantI S_ 32 0#32)))
      (cmpi .sle (idxCol idx)
        (broadcastInDim S800000x1 ![0, 1] bcast_S1x1_S800000x1_0_1
          (broadcastInDim S1x1 ![1] bcast_S1_S1x1_1 (constantI S1 32 49999#32)))))
    (constantI S_ 1 1#1) reducesTo_S800000x1_S800000_d1 h_S_

/-- The take: the gathered rows where the position is in range, the filler constant elsewhere. -/
def takeRows (x : S50000x128.Idx → EReal) (idx : IVec S800000 32) : S800000x128.Idx → EReal :=
  select (broadcastInDim S800000x128 ![0] bcast_S800000_S800000x128_0 (inRange idx))
    (Host.gather gather_S50000x128_S800000x1_S800000x128_1_0_n_n_0_1_1128 x (idxCol idx))
    (broadcastInDim S800000x128 ![] bcast_S_S800000x128 (constant (F := Ideal) S_ .f32 0x7FC00000#32))

/-- A vector laid along the rows of the [800000 × 128] rectangle reads, at (e, c), the vector at `e`. -/
theorem bcast_rows_apply {α : Type} (m : S800000.Idx → α) (e : Fin 800000) (c : Fin 128) :
    broadcastInDim S800000x128 ![0] bcast_S800000_S800000x128_0 m (ix2 e c) = m (ix1 e) := by
  show m _ = m (ix1 e)
  refine congrArg m ?_
  funext a
  match a with
  | ⟨0, _⟩ => rfl

section AtIndex

variable (idx : IVec S800000 32) (e : Fin 800000) (n : Fin 50000) (hn : (idx (ix1 e)).toInt = (n.val : ℤ))
include hn

/-- A position that is a row number is not wrapped. -/
theorem wrapIdx_apply : wrapIdx idx (ix1 e) = idx (ix1 e) := by
  show Scalar.select (IntOp.cmpi .slt (idx (ix1 e)) 0#32) (IntOp.addi (idx (ix1 e)) 50000#32) (idx (ix1 e)) = _
  rw [cmpi_slt_zero hn, select_zero]

/-- The column of start indices at row `e` holds that position. -/
theorem idxCol_apply : idxCol idx (ix2 e 0) = idx (ix1 e) := by
  refine Eq.trans ?_ (wrapIdx_apply idx e n hn)
  show wrapIdx idx _ = wrapIdx idx (ix1 e)
  refine congrArg (wrapIdx idx) ?_
  funext a
  match a with
  | ⟨0, _⟩ => rfl

/-- The range test is 1 at that position. -/
theorem inRange_apply : inRange idx (ix1 e) = 1#1 := by
  classical
  unfold inRange
  rw [Host.reduce_eq_fold]
  show Finset.fold IntOp.andi 1#1 _ _ = 1#1
  refine fold_andi_one _ _ fun i hi => ?_
  have hd : reducesTo_S800000x1_S800000_d1.drop i = ix1 e := (Finset.mem_filter.mp hi).2
  have hv : (reducesTo_S800000x1_S800000_d1.drop i 0 : Nat) = i 0 := Shape.ReducesTo.drop_apply_val _ i 0
  have hi0 : i = ix2 e 0 := by
    funext a
    match a with
    | ⟨0, _⟩ => exact Fin.ext (hv.symm.trans (by rw [hd]))
    | ⟨1, h1⟩ =>
      have hlt : (i ⟨1, h1⟩).val < 1 := (i ⟨1, h1⟩).isLt
      exact Fin.ext (by show (i ⟨1, h1⟩).val = 0; omega)
  subst hi0
  show IntOp.andi (IntOp.cmpi .sge (idxCol idx (ix2 e 0)) 0#32) (IntOp.cmpi .sle (idxCol idx (ix2 e 0)) 49999#32) = 1#1
  rw [idxCol_apply idx e n hn, cmpi_sge_zero hn, cmpi_sle_last hn n.isLt]
  rfl

/-- THE TAKE AT AN INDEX: where the position is the row number `n`, the result's row is the table's row `n`. -/
theorem takeRows_apply (x : S50000x128.Idx → EReal) (c : Fin 128) : takeRows x idx (ix2 e c) = x (ix2 n c) := by
  unfold takeRows
  rw [select_apply, bcast_rows_apply, inRange_apply idx e n hn, select_one]
  exact Cert.Att.Lib.gather_rows2_of_eq _ rfl rfl rfl rfl rfl x (idxCol idx) e c n
    ((congrArg BitVec.toInt (idxCol_apply idx e n hn)).trans hn)

end AtIndex

/-! ## A typed reference's two transports cancel -/

/-- Contents moved to a buffer's own type and back along the same type equation are the contents. -/
theorem ofBuf_toBuf_of {T : BufTy} {Val : EltTy → Type} (r : Ref sig .tc) (h h' : r.ty = T) (d d' : r.space ≠ .host)
    (u u' : r.isScoped = false) (v : T.Contents Val) :
    (TRef.of r h d u).ofBuf ((TRef.of r h' d' u').toBuf v) = v := by
  subst h; rfl

/-! The program's own buffers: at each of them the transport is the identity (its type equation holds by computation). -/

theorem ofBuf_main_arg2 {Val : EltTy → Type} (h : (main_arg2 : Ref sig .tc).ty = ⟨S800000, .i32⟩) (d u)
    (v : (⟨S800000, .i32⟩ : BufTy).Contents Val) : (TRef.of main_arg2 h d u).ofBuf v = v := rfl
theorem ofBuf_main_arg3 {Val : EltTy → Type} (h : (main_arg3 : Ref sig .tc).ty = ⟨S800000, .i32⟩) (d u)
    (v : (⟨S800000, .i32⟩ : BufTy).Contents Val) : (TRef.of main_arg3 h d u).ofBuf v = v := rfl
theorem ofBuf_main_v3 {Val : EltTy → Type} (h : (main_v3 : Ref sig .tc).ty = ⟨S50000x128, .f32⟩) (d u)
    (v : (⟨S50000x128, .f32⟩ : BufTy).Contents Val) : (TRef.of main_v3 h d u).ofBuf v = v := rfl
theorem ofBuf_main_v4 {Val : EltTy → Type} (h : (main_v4 : Ref sig .tc).ty = ⟨S50000x128, .f32⟩) (d u)
    (v : (⟨S50000x128, .f32⟩ : BufTy).Contents Val) : (TRef.of main_v4 h d u).ofBuf v = v := rfl
theorem ofBuf_main_v5 {Val : EltTy → Type} (h : (main_v5 : Ref sig .tc).ty = ⟨S50000x128, .f32⟩) (d u)
    (v : (⟨S50000x128, .f32⟩ : BufTy).Contents Val) : (TRef.of main_v5 h d u).ofBuf v = v := rfl
theorem toBuf_main_v7 {Val : EltTy → Type} (h : (main_v7 : Ref sig .tc).ty = ⟨S800000x128, .f32⟩) (d u)
    (v : (⟨S800000x128, .f32⟩ : BufTy).Contents Val) : (TRef.of main_v7 h d u).toBuf v = v := rfl
theorem toBuf_main_v8 {Val : EltTy → Type} (h : (main_v8 : Ref sig .tc).ty = ⟨S800000x128, .f32⟩) (d u)
    (v : (⟨S800000x128, .f32⟩ : BufTy).Contents Val) : (TRef.of main_v8 h d u).toBuf v = v := rfl
theorem toBuf_main_v9 {Val : EltTy → Type} (h : (main_v9 : Ref sig .tc).ty = ⟨S800000x128, .f32⟩) (d u)
    (v : (⟨S800000x128, .f32⟩ : BufTy).Contents Val) : (TRef.of main_v9 h d u).toBuf v = v := rfl

/-! ## The three takes of the program: what each stretch of host operations leaves in its result buffer -/

section Stretches

variable (W : Valuation τ sig (Elt Ideal))

set_option maxHeartbeats 400000 in
/-- The first take's stretch leaves the take of the keys' table at the source positions. -/
theorem after2_eq :
    (after (hostOps2 (F := Ideal)) W (Proc.devRef .tc main_v7) : S800000x128.Idx → EReal)
      = takeRows (W (Proc.devRef .tc main_v4)) (W (Proc.devRef .tc main_arg2)) := by
  show StableHlo.after (hostOps2 (F := Ideal)) W (Proc.devRef .tc main_v7) = _
  after_results_simp
  simp only [ofBuf_toBuf_of, ofBuf_main_arg2, ofBuf_main_v4, toBuf_main_v7]
  rfl

set_option maxHeartbeats 400000 in
/-- The second take's stretch leaves the take of the queries' table at the destination positions. -/
theorem after2_1_eq :
    (after (hostOps2_1 (F := Ideal)) W (Proc.devRef .tc main_v8) : S800000x128.Idx → EReal)
      = takeRows (W (Proc.devRef .tc main_v3)) (W (Proc.devRef .tc main_arg3)) := by
  show StableHlo.after (hostOps2_1 (F := Ideal)) W (Proc.devRef .tc main_v8) = _
  after_results_simp
  simp only [ofBuf_toBuf_of, ofBuf_main_arg3, ofBuf_main_v3, toBuf_main_v8]
  rfl

set_option maxHeartbeats 400000 in
/-- The third take's stretch leaves the take of the values' table at the source positions. -/
theorem after2_2_eq :
    (after (hostOps2_2 (F := Ideal)) W (Proc.devRef .tc main_v9) : S800000x128.Idx → EReal)
      = takeRows (W (Proc.devRef .tc main_v5)) (W (Proc.devRef .tc main_arg2)) := by
  show StableHlo.after (hostOps2_2 (F := Ideal)) W (Proc.devRef .tc main_v9) = _
  after_results_simp
  simp only [ofBuf_toBuf_of, ofBuf_main_arg2, ofBuf_main_v5, toBuf_main_v9]
  rfl

variable (e : Fin 800000) (c : Fin 128) (n : Fin 50000)

/-- KEYS: where edge `e`'s source position is the node number `n`, row `e` of the first take is the keys' row `n`. -/
theorem after2_keys (hn : ((W main_arg2 : S800000.Idx → BitVec 32) (ix1 e)).toInt = (n.val : ℤ)) :
    (after (hostOps2 (F := Ideal)) W main_v7 : S800000x128.Idx → EReal) (ix2 e c)
      = (W main_v4 : S50000x128.Idx → EReal) (ix2 n c) :=
  (congrFun (after2_eq W) (ix2 e c)).trans (takeRows_apply _ e n hn _ c)

/-- QUERIES: where edge `e`'s destination position is the node number `n`, row `e` of the second take is the
    queries' row `n`. -/
theorem after2_1_queries (hn : ((W main_arg3 : S800000.Idx → BitVec 32) (ix1 e)).toInt = (n.val : ℤ)) :
    (after (hostOps2_1 (F := Ideal)) W main_v8 : S800000x128.Idx → EReal) (ix2 e c)
      = (W main_v3 : S50000x128.Idx → EReal) (ix2 n c) :=
  (congrFun (after2_1_eq W) (ix2 e c)).trans (takeRows_apply _ e n hn _ c)

/-- VALUES: where edge `e`'s source position is the node number `n`, row `e` of the third take is the values'
    row `n`. -/
theorem after2_2_values (hn : ((W main_arg2 : S800000.Idx → BitVec 32) (ix1 e)).toInt = (n.val : ℤ)) :
    (after (hostOps2_2 (F := Ideal)) W main_v9 : S800000x128.Idx → EReal) (ix2 e c)
      = (W main_v5 : S50000x128.Idx → EReal) (ix2 n c) :=
  (congrFun (after2_2_eq W) (ix2 e c)).trans (takeRows_apply _ e n hn _ c)

end Stretches

end Cert.KernelIdeal.Att

end
-- ==== Proof.EdgeAttnValue.lean ====
/- What the edge-attention region leaves in its three output arrays, index by index, over the extended reals: the score of an edge on a
   channel is key times query times a quarter times the projected edge feature; the weight of an edge on a head is
   the exponential of the head's summed scores clamped to [-5, 5]; the weighted value on a channel is the value
   times the weight of the channel's head. The two contractions are against the 0/1 matrices that sum the lanes
   of a head and spread a head over its lanes. -/
import proofs.«425955_j21569325760859_2_alg».proof.Proof.EdgeAttn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Att

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation)

/-- The contraction of a row tile's 128 channels against the [128, 8] matrix. -/
abbrev edgeAttn_dSel : DotDims S3200x128 S128x8 S3200x8 := dot_S3200x128_S128x8_S3200x8_1_0_0_1_n_n
/-- The contraction of a row tile's 8 heads against the [8, 128] matrix. -/
abbrev edgeAttn_dSpread : DotDims S3200x8 S8x128 S3200x128 := dot_S3200x8_S8x128_S3200x128_1_0_0_1_n_n

/-! ## The operand indices of the two contractions, axis by axis -/

theorem edgeAttn_lhsSel_0 (i : S3200x8.Idx) (q : edgeAttn_dSel.contr.Idx) : (edgeAttn_dSel.lhsIdx i q 0).val = (i 0).val := by
  unfold DotDims.lhsIdx
  rw [dif_neg (show ¬(0 : Fin S3200x128.rank) ∈ edgeAttn_dSel.lhsBatch by decide), dif_pos (show (0 : Fin S3200x128.rank) ∈ edgeAttn_dSel.lhsNonContracting by decide)]
  rfl
theorem edgeAttn_lhsSel_1 (i : S3200x8.Idx) (q : edgeAttn_dSel.contr.Idx) : (edgeAttn_dSel.lhsIdx i q 1).val = (q ⟨0, by decide⟩).val :=
  edgeAttn_dSel.lhsIdx_val_of_single rfl i q
theorem edgeAttn_rhsSel_0 (i : S3200x8.Idx) (q : edgeAttn_dSel.contr.Idx) : (edgeAttn_dSel.rhsIdx i q 0).val = (q ⟨0, by decide⟩).val :=
  edgeAttn_dSel.rhsIdx_val_of_single rfl i q
theorem edgeAttn_rhsSel_1 (i : S3200x8.Idx) (q : edgeAttn_dSel.contr.Idx) : (edgeAttn_dSel.rhsIdx i q 1).val = (i 1).val := by
  unfold DotDims.rhsIdx
  rw [dif_neg (show ¬(1 : Fin S128x8.rank) ∈ edgeAttn_dSel.rhsBatch by decide), dif_pos (show (1 : Fin S128x8.rank) ∈ edgeAttn_dSel.rhsNonContracting by decide)]
  rfl

theorem edgeAttn_lhsSpread_0 (i : S3200x128.Idx) (q : edgeAttn_dSpread.contr.Idx) : (edgeAttn_dSpread.lhsIdx i q 0).val = (i 0).val := by
  unfold DotDims.lhsIdx
  rw [dif_neg (show ¬(0 : Fin S3200x8.rank) ∈ edgeAttn_dSpread.lhsBatch by decide), dif_pos (show (0 : Fin S3200x8.rank) ∈ edgeAttn_dSpread.lhsNonContracting by decide)]
  rfl
theorem edgeAttn_lhsSpread_1 (i : S3200x128.Idx) (q : edgeAttn_dSpread.contr.Idx) : (edgeAttn_dSpread.lhsIdx i q 1).val = (q ⟨0, by decide⟩).val :=
  edgeAttn_dSpread.lhsIdx_val_of_single rfl i q
theorem edgeAttn_rhsSpread_0 (i : S3200x128.Idx) (q : edgeAttn_dSpread.contr.Idx) : (edgeAttn_dSpread.rhsIdx i q 0).val = (q ⟨0, by decide⟩).val :=
  edgeAttn_dSpread.rhsIdx_val_of_single rfl i q
theorem edgeAttn_rhsSpread_1 (i : S3200x128.Idx) (q : edgeAttn_dSpread.contr.Idx) : (edgeAttn_dSpread.rhsIdx i q 1).val = (i 1).val := by
  unfold DotDims.rhsIdx
  rw [dif_neg (show ¬(1 : Fin S8x128.rank) ∈ edgeAttn_dSpread.rhsBatch by decide), dif_pos (show (1 : Fin S8x128.rank) ∈ edgeAttn_dSpread.rhsNonContracting by decide)]
  rfl

/-! ## The two contractions at an index: sums over the contracted coordinate -/

theorem edgeAttn_matmulSel_apply (lhs : FVec Ideal S3200x128 .f32) (rhs : FVec Ideal S128x8 .f32) (r : Fin 3200) (hd : Fin 8) :
    matmul edgeAttn_dSel (some .fp32) lhs rhs (constant S3200x8 .f32 0x00000000#32) (ix2 r hd) = ∑ k : Fin 128, lhs (ix2 r k) * rhs (ix2 k hd) := by
  refine (Ideal.matmul_constant_zero_apply edgeAttn_dSel (some .fp32) lhs rhs (ix2 r hd)).trans ?_
  rw [← Equiv.sum_comp (contrEquiv1 edgeAttn_dSel 128 rfl rfl).symm]
  refine Finset.sum_congr rfl fun k _ => ?_
  have hk := contrEquiv1_symm_val edgeAttn_dSel 128 rfl rfl k
  have el : edgeAttn_dSel.lhsIdx (ix2 r hd) ((contrEquiv1 edgeAttn_dSel 128 rfl rfl).symm k) = ix2 r k := funext fun a => Fin.ext (by
    match a with
    | ⟨0, _⟩ => exact edgeAttn_lhsSel_0 _ _
    | ⟨1, _⟩ => exact (edgeAttn_lhsSel_1 _ _).trans hk)
  have er : edgeAttn_dSel.rhsIdx (ix2 r hd) ((contrEquiv1 edgeAttn_dSel 128 rfl rfl).symm k) = ix2 k hd := funext fun a => Fin.ext (by
    match a with
    | ⟨0, _⟩ => exact (edgeAttn_rhsSel_0 _ _).trans hk
    | ⟨1, _⟩ => exact edgeAttn_rhsSel_1 _ _)
  rw [el, er]

theorem edgeAttn_matmulSpread_apply (lhs : FVec Ideal S3200x8 .f32) (rhs : FVec Ideal S8x128 .f32) (r : Fin 3200) (ch : Fin 128) :
    matmul edgeAttn_dSpread (some .fp32) lhs rhs (constant S3200x128 .f32 0x00000000#32) (ix2 r ch) = ∑ k : Fin 8, lhs (ix2 r k) * rhs (ix2 k ch) := by
  refine (Ideal.matmul_constant_zero_apply edgeAttn_dSpread (some .fp32) lhs rhs (ix2 r ch)).trans ?_
  rw [← Equiv.sum_comp (contrEquiv1 edgeAttn_dSpread 8 rfl rfl).symm]
  refine Finset.sum_congr rfl fun k _ => ?_
  have hk := contrEquiv1_symm_val edgeAttn_dSpread 8 rfl rfl k
  have el : edgeAttn_dSpread.lhsIdx (ix2 r ch) ((contrEquiv1 edgeAttn_dSpread 8 rfl rfl).symm k) = ix2 r k := funext fun a => Fin.ext (by
    match a with
    | ⟨0, _⟩ => exact edgeAttn_lhsSpread_0 _ _
    | ⟨1, _⟩ => exact (edgeAttn_lhsSpread_1 _ _).trans hk)
  have er : edgeAttn_dSpread.rhsIdx (ix2 r ch) ((contrEquiv1 edgeAttn_dSpread 8 rfl rfl).symm k) = ix2 k ch := funext fun a => Fin.ext (by
    match a with
    | ⟨0, _⟩ => exact (edgeAttn_rhsSpread_0 _ _).trans hk
    | ⟨1, _⟩ => exact edgeAttn_rhsSpread_1 _ _)
  rw [el, er]

/-! ## The three payloads at an index -/

theorem edgeAttn_pay1_apply (v0 v2 v6 : Vec Ideal S3200x128 .f32) (j : S3200x128.Idx) :
    k2_pay1 (F := Ideal) v0 v2 v6 j = v0 j * v2 j * Ideal.ofBits .f32 0x3E800000#32 * v6 j := by
  unfold k2_pay1
  simp only [shapeCast_self]
  rfl

theorem edgeAttn_pay2_apply (v0 v2 v6 : Vec Ideal S3200x128 .f32) (v12 : Vec Ideal S128x8 .f32) (r : Fin 3200) (hd : Fin 8) :
    k2_pay2 (F := Ideal) v0 v2 v6 v12 (ix2 r hd)
      = Ideal.exp (min (Ideal.ofBits .f32 0x40A00000#32) (max (Ideal.ofBits .f32 0xC0A00000#32)
          (∑ k : Fin 128, k2_pay1 (F := Ideal) v0 v2 v6 (ix2 r k) * v12 (ix2 k hd)))) := by
  unfold k2_pay2
  show Ideal.exp (min (Ideal.ofBits .f32 0x40A00000#32) (max (Ideal.ofBits .f32 0xC0A00000#32)
    (matmul edgeAttn_dSel (some .fp32) (k2_pay1 (F := Ideal) v0 v2 v6) v12 (constant S3200x8 .f32 0x00000000#32) (ix2 r hd)))) = _
  rw [edgeAttn_matmulSel_apply]

theorem edgeAttn_pay3_apply (v0 v2 v4 v6 : Vec Ideal S3200x128 .f32) (v12 : Vec Ideal S128x8 .f32) (v19 : Vec Ideal S8x128 .f32) (r : Fin 3200) (ch : Fin 128) :
    k2_pay3 (F := Ideal) v0 v2 v4 v6 v12 v19 (ix2 r ch)
      = v4 (ix2 r ch) * ∑ k : Fin 8, k2_pay2 (F := Ideal) v0 v2 v6 v12 (ix2 r k) * v19 (ix2 k ch) := by
  unfold k2_pay3
  simp only [shapeCast_self]
  show v4 (ix2 r ch) * (matmul edgeAttn_dSpread (some .fp32) (k2_pay2 (F := Ideal) v0 v2 v6 v12) v19 (constant S3200x128 .f32 0x00000000#32) (ix2 r ch)) = _
  rw [edgeAttn_matmulSpread_apply]

/-! # What the region leaves in its three output arrays, index by index -/

variable (V : (c : Dev nD) → (b : Ref sig .tc) → Buf (Elt Ideal) ((c : Thread nD τ).loc b))

/-- The arrays the region finds, each as a function of its index: the keys of an edge's source, the queries of
    its destination, the values of its source, the projected edge features, and the two 0/1 matrices. -/
abbrev edgeAttn_keyArr (c : Dev nD) : S800000x128.Idx → EReal := V c main_v7
abbrev edgeAttn_qryArr (c : Dev nD) : S800000x128.Idx → EReal := V c main_v8
abbrev edgeAttn_valArr (c : Dev nD) : S800000x128.Idx → EReal := V c main_v9
abbrev edgeAttn_efeArr (c : Dev nD) : S800000x128.Idx → EReal := V c main_v6
abbrev edgeAttn_selMat (c : Dev nD) : S128x8.Idx → EReal := V c main_cst
abbrev edgeAttn_spreadMat (c : Dev nD) : S8x128.Idx → EReal := V c main_cst_0

/-- An edge's score on a channel, of the arrays the region finds: key times query times a quarter times the
    projected edge feature. -/
def edgeScore (c : Dev nD) (e : Fin 800000) (ch : Fin 128) : EReal :=
  edgeAttn_keyArr V c (ix2 e ch) * edgeAttn_qryArr V c (ix2 e ch)
    * Ideal.ofBits .f32 0x3E800000#32 * edgeAttn_efeArr V c (ix2 e ch)

/-- An edge's weight on a head: the scores against the head's column of the [128, 8] matrix, clamped to
    [-5, 5], exponentiated. -/
def edgeWgt (c : Dev nD) (e : Fin 800000) (hd : Fin 8) : EReal :=
  Ideal.exp (min (Ideal.ofBits .f32 0x40A00000#32) (max (Ideal.ofBits .f32 0xC0A00000#32)
    (∑ c' : Fin 128, edgeScore V c e c' * edgeAttn_selMat V c (ix2 c' hd))))

/-- An edge's weighted value on a channel: the value times the weights against the channel's column of the
    [8, 128] matrix. -/
def edgeWval (c : Dev nD) (e : Fin 800000) (ch : Fin 128) : EReal :=
  edgeAttn_valArr V c (ix2 e ch) * ∑ hd : Fin 8, edgeWgt V c e hd * edgeAttn_spreadMat V c (ix2 hd ch)

/-- The three as functions of an array index. -/
def edgeAttn_scoreArr (c : Dev nD) : S800000x128.Idx → EReal := fun i => edgeScore V c ⟨(i 0).val, idx2_lt0 i⟩ ⟨(i 1).val, idx2_lt1 i⟩
def edgeAttn_wvalArr (c : Dev nD) : S800000x128.Idx → EReal := fun i => edgeWval V c ⟨(i 0).val, idx2_lt0 i⟩ ⟨(i 1).val, idx2_lt1 i⟩
def edgeAttn_wgtArr (c : Dev nD) : S800000x8.Idx → EReal := fun i => edgeWgt V c ⟨(i 0).val, idx2_lt0 i⟩ ⟨(i 1).val, idx2_lt1 i⟩

/-! ## The payloads at a point whose loaded blocks read the arrays at an edge's row -/

theorem edgeAttn_score_point (c : Dev nD) (xk xq xe : Vec Ideal S3200x128 .f32) (r : Fin 3200) (e : Fin 800000) (ch : Fin 128)
    (hk : xk (ix2 r ch) = edgeAttn_keyArr V c (ix2 e ch))
    (hq : xq (ix2 r ch) = edgeAttn_qryArr V c (ix2 e ch))
    (he : xe (ix2 r ch) = edgeAttn_efeArr V c (ix2 e ch)) :
    k2_pay1 (F := Ideal) xk xq xe (ix2 r ch) = edgeScore V c e ch := by
  rw [edgeAttn_pay1_apply, hk, hq, he]; rfl

theorem edgeAttn_wgt_point (c : Dev nD) (xk xq xe : Vec Ideal S3200x128 .f32) (m1 : Vec Ideal S128x8 .f32) (r : Fin 3200) (e : Fin 800000) (hd : Fin 8)
    (hk : ∀ ch, xk (ix2 r ch) = edgeAttn_keyArr V c (ix2 e ch))
    (hq : ∀ ch, xq (ix2 r ch) = edgeAttn_qryArr V c (ix2 e ch))
    (he : ∀ ch, xe (ix2 r ch) = edgeAttn_efeArr V c (ix2 e ch))
    (hm1 : ∀ a b, m1 (ix2 a b) = edgeAttn_selMat V c (ix2 a b)) :
    k2_pay2 (F := Ideal) xk xq xe m1 (ix2 r hd) = edgeWgt V c e hd := by
  rw [edgeAttn_pay2_apply]
  unfold edgeWgt
  refine congrArg Ideal.exp (congrArg (min _) (congrArg (max _) (Finset.sum_congr rfl fun k _ => ?_)))
  rw [edgeAttn_score_point V c xk xq xe r e k (hk k) (hq k) (he k), hm1]

theorem edgeAttn_wval_point (c : Dev nD) (xk xq xv xe : Vec Ideal S3200x128 .f32) (m1 : Vec Ideal S128x8 .f32) (m2 : Vec Ideal S8x128 .f32)
    (r : Fin 3200) (e : Fin 800000) (ch : Fin 128)
    (hk : ∀ ch, xk (ix2 r ch) = edgeAttn_keyArr V c (ix2 e ch))
    (hq : ∀ ch, xq (ix2 r ch) = edgeAttn_qryArr V c (ix2 e ch))
    (hv : ∀ ch, xv (ix2 r ch) = edgeAttn_valArr V c (ix2 e ch))
    (he : ∀ ch, xe (ix2 r ch) = edgeAttn_efeArr V c (ix2 e ch))
    (hm1 : ∀ a b, m1 (ix2 a b) = edgeAttn_selMat V c (ix2 a b))
    (hm2 : ∀ a b, m2 (ix2 a b) = edgeAttn_spreadMat V c (ix2 a b)) :
    k2_pay3 (F := Ideal) xk xq xv xe m1 m2 (ix2 r ch) = edgeWval V c e ch := by
  rw [edgeAttn_pay3_apply, hv ch]
  unfold edgeWval
  refine congrArg (_ * ·) (Finset.sum_congr rfl fun k _ => ?_)
  rw [edgeAttn_wgt_point V c xk xq xe m1 r e k hk hq he hm1, hm2]

/-! ## The printed index maps, decided once over the grid -/

/-- The row-tiled windows are at row tile `t`, column tile 0; the two matrices at block (0, 0). -/
theorem edgeAttn_idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

theorem edgeAttn_t_lt (t : Fin cfg2.N) : t.val < 250 := lt_of_lt_of_eq t.isLt N_2

/-- The array row of local row `r` of row tile `t`. -/
def edgeAttn_rowOf (t : Fin cfg2.N) (r : Fin 3200) : Fin 800000 := ⟨t.val * 3200 + r.val, by have := edgeAttn_t_lt t; have := r.isLt; omega⟩

/-! ## Where a block's element sits in its array -/

theorem edgeAttn_emb_0 (t : Fin cfg2.N) (r : Fin 3200) (ch : Fin 128) :
    ((cfg2.win 0).blk t).view.emb (ix2 r ch) = ix2 (edgeAttn_rowOf t r) ch := by
  funext a; apply Fin.ext
  match a with
  | ⟨0, _⟩ => show win2_0.index t (0 : Fin 2) * 3200 + 1 * r.val = t.val * 3200 + r.val; rw [(edgeAttn_idx_facts t).1.1]; omega
  | ⟨1, _⟩ => show win2_0.index t (1 : Fin 2) * 128 + 1 * ch.val = ch.val; rw [(edgeAttn_idx_facts t).1.2]; omega

theorem edgeAttn_emb_1 (t : Fin cfg2.N) (r : Fin 3200) (ch : Fin 128) :
    ((cfg2.win 1).blk t).view.emb (ix2 r ch) = ix2 (edgeAttn_rowOf t r) ch := by
  funext a; apply Fin.ext
  match a with
  | ⟨0, _⟩ => show win2_1.index t (0 : Fin 2) * 3200 + 1 * r.val = t.val * 3200 + r.val; rw [(edgeAttn_idx_facts t).2.1.1]; omega
  | ⟨1, _⟩ => show win2_1.index t (1 : Fin 2) * 128 + 1 * ch.val = ch.val; rw [(edgeAttn_idx_facts t).2.1.2]; omega

theorem edgeAttn_emb_2 (t : Fin cfg2.N) (r : Fin 3200) (ch : Fin 128) :
    ((cfg2.win 2).blk t).view.emb (ix2 r ch) = ix2 (edgeAttn_rowOf t r) ch := by
  funext a; apply Fin.ext
  match a with
  | ⟨0, _⟩ => show win2_2.index t (0 : Fin 2) * 3200 + 1 * r.val = t.val * 3200 + r.val; rw [(edgeAttn_idx_facts t).2.2.1.1]; omega
  | ⟨1, _⟩ => show win2_2.index t (1 : Fin 2) * 128 + 1 * ch.val = ch.val; rw [(edgeAttn_idx_facts t).2.2.1.2]; omega

theorem edgeAttn_emb_3 (t : Fin cfg2.N) (r : Fin 3200) (ch : Fin 128) :
    ((cfg2.win 3).blk t).view.emb (ix2 r ch) = ix2 (edgeAttn_rowOf t r) ch := by
  funext a; apply Fin.ext
  match a with
  | ⟨0, _⟩ => show win2_3.index t (0 : Fin 2) * 3200 + 1 * r.val = t.val * 3200 + r.val; rw [(edgeAttn_idx_facts t).2.2.2.1.1]; omega
  | ⟨1, _⟩ => show win2_3.index t (1 : Fin 2) * 128 + 1 * ch.val = ch.val; rw [(edgeAttn_idx_facts t).2.2.2.1.2]; omega

theorem edgeAttn_emb_4 (t : Fin cfg2.N) (a : Fin 128) (b : Fin 8) :
    ((cfg2.win 4).blk t).view.emb (ix2 a b) = ix2 a b := by
  funext x; apply Fin.ext
  match x with
  | ⟨0, _⟩ => show win2_4.index t (0 : Fin 2) * 128 + 1 * a.val = a.val; rw [(edgeAttn_idx_facts t).2.2.2.2.2.2.2.1.1]; omega
  | ⟨1, _⟩ => show win2_4.index t (1 : Fin 2) * 8 + 1 * b.val = b.val; rw [(edgeAttn_idx_facts t).2.2.2.2.2.2.2.1.2]; omega

theorem edgeAttn_emb_5 (t : Fin cfg2.N) (a : Fin 8) (b : Fin 128) :
    ((cfg2.win 5).blk t).view.emb (ix2 a b) = ix2 a b := by
  funext x; apply Fin.ext
  match x with
  | ⟨0, _⟩ => show win2_5.index t (0 : Fin 2) * 8 + 1 * a.val = a.val; rw [(edgeAttn_idx_facts t).2.2.2.2.2.2.2.2.1]; omega
  | ⟨1, _⟩ => show win2_5.index t (1 : Fin 2) * 128 + 1 * b.val = b.val; rw [(edgeAttn_idx_facts t).2.2.2.2.2.2.2.2.2]; omega

theorem edgeAttn_emb_6 (t : Fin cfg2.N) (r : Fin 3200) (ch : Fin 128) :
    ((cfg2.win 6).blk t).view.emb (ix2 r ch) = ix2 (edgeAttn_rowOf t r) ch := by
  funext a; apply Fin.ext
  match a with
  | ⟨0, _⟩ => show win2_6.index t (0 : Fin 2) * 3200 + 1 * r.val = t.val * 3200 + r.val; rw [(edgeAttn_idx_facts t).2.2.2.2.1.1]; omega
  | ⟨1, _⟩ => show win2_6.index t (1 : Fin 2) * 128 + 1 * ch.val = ch.val; rw [(edgeAttn_idx_facts t).2.2.2.2.1.2]; omega

theorem edgeAttn_emb_7 (t : Fin cfg2.N) (r : Fin 3200) (ch : Fin 128) :
    ((cfg2.win 7).blk t).view.emb (ix2 r ch) = ix2 (edgeAttn_rowOf t r) ch := by
  funext a; apply Fin.ext
  match a with
  | ⟨0, _⟩ => show win2_7.index t (0 : Fin 2) * 3200 + 1 * r.val = t.val * 3200 + r.val; rw [(edgeAttn_idx_facts t).2.2.2.2.2.1.1]; omega
  | ⟨1, _⟩ => show win2_7.index t (1 : Fin 2) * 128 + 1 * ch.val = ch.val; rw [(edgeAttn_idx_facts t).2.2.2.2.2.1.2]; omega

theorem edgeAttn_emb_8 (t : Fin cfg2.N) (r : Fin 3200) (ch : Fin 8) :
    ((cfg2.win 8).blk t).view.emb (ix2 r ch) = ix2 (edgeAttn_rowOf t r) ch := by
  funext a; apply Fin.ext
  match a with
  | ⟨0, _⟩ => show win2_8.index t (0 : Fin 2) * 3200 + 1 * r.val = t.val * 3200 + r.val; rw [(edgeAttn_idx_facts t).2.2.2.2.2.2.1.1]; omega
  | ⟨1, _⟩ => show win2_8.index t (1 : Fin 2) * 8 + 1 * ch.val = ch.val; rw [(edgeAttn_idx_facts t).2.2.2.2.2.2.1.2]; omega

/-! ## The input blocks read the arrays -/

theorem edgeAttn_blk_0 (c : Dev nD) (t : Fin cfg2.N) (r : Fin 3200) (ch : Fin 128) :
    edgeBlk V c 0 t (ix2 r ch) = edgeAttn_keyArr V c (ix2 (edgeAttn_rowOf t r) ch) :=
  congrArg (edgeAttn_keyArr V c) (edgeAttn_emb_0 t r ch)

theorem edgeAttn_blk_1 (c : Dev nD) (t : Fin cfg2.N) (r : Fin 3200) (ch : Fin 128) :
    edgeBlk V c 1 t (ix2 r ch) = edgeAttn_qryArr V c (ix2 (edgeAttn_rowOf t r) ch) :=
  congrArg (edgeAttn_qryArr V c) (edgeAttn_emb_1 t r ch)

theorem edgeAttn_blk_2 (c : Dev nD) (t : Fin cfg2.N) (r : Fin 3200) (ch : Fin 128) :
    edgeBlk V c 2 t (ix2 r ch) = edgeAttn_valArr V c (ix2 (edgeAttn_rowOf t r) ch) :=
  congrArg (edgeAttn_valArr V c) (edgeAttn_emb_2 t r ch)

theorem edgeAttn_blk_3 (c : Dev nD) (t : Fin cfg2.N) (r : Fin 3200) (ch : Fin 128) :
    edgeBlk V c 3 t (ix2 r ch) = edgeAttn_efeArr V c (ix2 (edgeAttn_rowOf t r) ch) :=
  congrArg (edgeAttn_efeArr V c) (edgeAttn_emb_3 t r ch)

theorem edgeAttn_blk_4 (c : Dev nD) (t : Fin cfg2.N) (a : Fin 128) (b : Fin 8) :
    edgeBlk V c 4 t (ix2 a b) = edgeAttn_selMat V c (ix2 a b) :=
  congrArg (edgeAttn_selMat V c) (edgeAttn_emb_4 t a b)

theorem edgeAttn_blk_5 (c : Dev nD) (t : Fin cfg2.N) (a : Fin 8) (b : Fin 128) :
    edgeBlk V c 5 t (ix2 a b) = edgeAttn_spreadMat V c (ix2 a b) :=
  congrArg (edgeAttn_spreadMat V c) (edgeAttn_emb_5 t a b)

/-! ## What a point writes back: its block of the whole-array function -/

theorem edgeAttn_hz2 : (![0, 0] : Fin 2 → Nat) = fun _ => 0 := funext fun a => by fin_cases a <;> rfl

theorem edgeAttn_flushed_score (c : Dev nD) (t : Fin cfg2.N) :
    (datEdge (F := Ideal) V c).flushed 6 t = ((cfg2.win 6).blk t).view.read (Elt Ideal) (edgeAttn_scoreArr V c) := by
  show (cfg2.win 6).cut (grid2.coords t) ((datEdge (F := Ideal) V c).after 6 t) = _
  rw [datEdge_after_6]
  unfold outScore
  rw [View.canon_unit_zero edgeAttn_hz2]
  simp only [View.ld_unit_zero (S := S3200x128) edgeAttn_hz2]
  funext j
  obtain ⟨r, ch, rfl⟩ : ∃ (r : Fin 3200) (ch : Fin 128), j = ix2 r ch := ⟨j 0, j 1, eq_ix2 j⟩
  exact (edgeAttn_score_point V c _ _ _ r (edgeAttn_rowOf t r) ch (edgeAttn_blk_0 V c t r ch) (edgeAttn_blk_1 V c t r ch) (edgeAttn_blk_3 V c t r ch)).trans
    (congrArg (edgeAttn_scoreArr V c) (edgeAttn_emb_6 t r ch)).symm

theorem edgeAttn_flushed_wval (c : Dev nD) (t : Fin cfg2.N) :
    (datEdge (F := Ideal) V c).flushed 7 t = ((cfg2.win 7).blk t).view.read (Elt Ideal) (edgeAttn_wvalArr V c) := by
  show (cfg2.win 7).cut (grid2.coords t) ((datEdge (F := Ideal) V c).after 7 t) = _
  rw [datEdge_after_7]
  unfold outWval
  rw [View.canon_unit_zero edgeAttn_hz2]
  simp only [View.ld_unit_zero (S := S3200x128) edgeAttn_hz2, View.ld_unit_zero (S := S128x8) edgeAttn_hz2, View.ld_unit_zero (S := S8x128) edgeAttn_hz2]
  funext j
  obtain ⟨r, ch, rfl⟩ : ∃ (r : Fin 3200) (ch : Fin 128), j = ix2 r ch := ⟨j 0, j 1, eq_ix2 j⟩
  exact (edgeAttn_wval_point V c _ _ _ _ _ _ r (edgeAttn_rowOf t r) ch (edgeAttn_blk_0 V c t r) (edgeAttn_blk_1 V c t r) (edgeAttn_blk_2 V c t r) (edgeAttn_blk_3 V c t r) (edgeAttn_blk_4 V c t) (edgeAttn_blk_5 V c t)).trans
    (congrArg (edgeAttn_wvalArr V c) (edgeAttn_emb_7 t r ch)).symm

theorem edgeAttn_flushed_wgt (c : Dev nD) (t : Fin cfg2.N) :
    (datEdge (F := Ideal) V c).flushed 8 t = ((cfg2.win 8).blk t).view.read (Elt Ideal) (edgeAttn_wgtArr V c) := by
  show (cfg2.win 8).cut (grid2.coords t) ((datEdge (F := Ideal) V c).after 8 t) = _
  rw [datEdge_after_8]
  unfold outWgt
  rw [View.canon_unit_zero edgeAttn_hz2]
  simp only [View.ld_unit_zero (S := S3200x128) edgeAttn_hz2, View.ld_unit_zero (S := S128x8) edgeAttn_hz2]
  funext j
  obtain ⟨r, hd, rfl⟩ : ∃ (r : Fin 3200) (hd : Fin 8), j = ix2 r hd := ⟨j 0, j 1, eq_ix2 j⟩
  exact (edgeAttn_wgt_point V c _ _ _ _ r (edgeAttn_rowOf t r) hd (edgeAttn_blk_0 V c t r) (edgeAttn_blk_1 V c t r) (edgeAttn_blk_3 V c t r) (edgeAttn_blk_4 V c t)).trans
    (congrArg (edgeAttn_wgtArr V c) (edgeAttn_emb_8 t r hd)).symm

/-! ## The output blocks tile their arrays -/

theorem edgeAttn_mem_blk_score (t : Fin cfg2.N) (i : S800000x128.Idx) :
    i ∈ ((cfg2.win 6).blk t).view.set ↔ ∀ a : Fin 2, win2_6.index t a * S3200x128.size a ≤ (i a).val ∧ (i a).val < win2_6.index t a * S3200x128.size a + S3200x128.size a := by
  show i ∈ ((View.whole main_v10_0).slice (win2_6.rect t)).set ↔ _
  rw [View.set_slice_whole, Rect.mem_set_unit]
  exact Iff.rfl

theorem edgeAttn_cover_score (i : S800000x128.Idx) : ∃ t : Fin cfg2.N, (cfg2.win 6).flush t = true ∧ i ∈ ((cfg2.win 6).blk t).view.set := by
  have hi0 : (i 0).val < 800000 := idx2_lt0 i
  have hi1 : (i 1).val < 128 := idx2_lt1 i
  obtain ⟨t, ht⟩ : ∃ t : Fin cfg2.N, t.val = (i 0).val / 3200 :=
    ⟨⟨(i 0).val / 3200, lt_of_lt_of_eq (show (i 0).val / 3200 < 250 by omega) N_2.symm⟩, rfl⟩
  have e0 := (edgeAttn_idx_facts t).2.2.2.2.1.1
  have e1 := (edgeAttn_idx_facts t).2.2.2.2.1.2
  refine ⟨t, flush2_6 t, ?_⟩
  rw [edgeAttn_mem_blk_score]
  intro a
  match a with
  | ⟨0, _⟩ => show win2_6.index t (0 : Fin 2) * 3200 ≤ (i 0).val ∧ (i 0).val < win2_6.index t (0 : Fin 2) * 3200 + 3200; rw [e0, ht]; omega
  | ⟨1, _⟩ => show win2_6.index t (1 : Fin 2) * 128 ≤ (i 1).val ∧ (i 1).val < win2_6.index t (1 : Fin 2) * 128 + 128; rw [e1]; omega

theorem edgeAttn_mem_blk_wval (t : Fin cfg2.N) (i : S800000x128.Idx) :
    i ∈ ((cfg2.win 7).blk t).view.set ↔ ∀ a : Fin 2, win2_7.index t a * S3200x128.size a ≤ (i a).val ∧ (i a).val < win2_7.index t a * S3200x128.size a + S3200x128.size a := by
  show i ∈ ((View.whole main_v10_1).slice (win2_7.rect t)).set ↔ _
  rw [View.set_slice_whole, Rect.mem_set_unit]
  exact Iff.rfl

theorem edgeAttn_cover_wval (i : S800000x128.Idx) : ∃ t : Fin cfg2.N, (cfg2.win 7).flush t = true ∧ i ∈ ((cfg2.win 7).blk t).view.set := by
  have hi0 : (i 0).val < 800000 := idx2_lt0 i
  have hi1 : (i 1).val < 128 := idx2_lt1 i
  obtain ⟨t, ht⟩ : ∃ t : Fin cfg2.N, t.val = (i 0).val / 3200 :=
    ⟨⟨(i 0).val / 3200, lt_of_lt_of_eq (show (i 0).val / 3200 < 250 by omega) N_2.symm⟩, rfl⟩
  have e0 := (edgeAttn_idx_facts t).2.2.2.2.2.1.1
  have e1 := (edgeAttn_idx_facts t).2.2.2.2.2.1.2
  refine ⟨t, flush2_7 t, ?_⟩
  rw [edgeAttn_mem_blk_wval]
  intro a
  match a with
  | ⟨0, _⟩ => show win2_7.index t (0 : Fin 2) * 3200 ≤ (i 0).val ∧ (i 0).val < win2_7.index t (0 : Fin 2) * 3200 + 3200; rw [e0, ht]; omega
  | ⟨1, _⟩ => show win2_7.index t (1 : Fin 2) * 128 ≤ (i 1).val ∧ (i 1).val < win2_7.index t (1 : Fin 2) * 128 + 128; rw [e1]; omega

theorem edgeAttn_mem_blk_wgt (t : Fin cfg2.N) (i : S800000x8.Idx) :
    i ∈ ((cfg2.win 8).blk t).view.set ↔ ∀ a : Fin 2, win2_8.index t a * S3200x8.size a ≤ (i a).val ∧ (i a).val < win2_8.index t a * S3200x8.size a + S3200x8.size a := by
  show i ∈ ((View.whole main_v10_2).slice (win2_8.rect t)).set ↔ _
  rw [View.set_slice_whole, Rect.mem_set_unit]
  exact Iff.rfl

theorem edgeAttn_cover_wgt (i : S800000x8.Idx) : ∃ t : Fin cfg2.N, (cfg2.win 8).flush t = true ∧ i ∈ ((cfg2.win 8).blk t).view.set := by
  have hi0 : (i 0).val < 800000 := idx2_lt0 i
  have hi1 : (i 1).val < 8 := idx2_lt1 i
  obtain ⟨t, ht⟩ : ∃ t : Fin cfg2.N, t.val = (i 0).val / 3200 :=
    ⟨⟨(i 0).val / 3200, lt_of_lt_of_eq (show (i 0).val / 3200 < 250 by omega) N_2.symm⟩, rfl⟩
  have e0 := (edgeAttn_idx_facts t).2.2.2.2.2.2.1.1
  have e1 := (edgeAttn_idx_facts t).2.2.2.2.2.2.1.2
  refine ⟨t, flush2_8 t, ?_⟩
  rw [edgeAttn_mem_blk_wgt]
  intro a
  match a with
  | ⟨0, _⟩ => show win2_8.index t (0 : Fin 2) * 3200 ≤ (i 0).val ∧ (i 0).val < win2_8.index t (0 : Fin 2) * 3200 + 3200; rw [e0, ht]; omega
  | ⟨1, _⟩ => show win2_8.index t (1 : Fin 2) * 8 ≤ (i 1).val ∧ (i 1).val < win2_8.index t (1 : Fin 2) * 8 + 8; rw [e1]; omega

/-! ## The three output arrays after the region -/

theorem edgeAttn_score_arr (c : Dev nD) : ((datEdge (F := Ideal) V c).arrAt 6 cfg2.N : S800000x128.Idx → EReal) = edgeAttn_scoreArr V c :=
  (datEdge (F := Ideal) V c).arrAt_eq_of_cover 6 (edgeAttn_scoreArr V c) (fun t _ => edgeAttn_flushed_score V c t) edgeAttn_cover_score

theorem edgeAttn_wval_arr (c : Dev nD) : ((datEdge (F := Ideal) V c).arrAt 7 cfg2.N : S800000x128.Idx → EReal) = edgeAttn_wvalArr V c :=
  (datEdge (F := Ideal) V c).arrAt_eq_of_cover 7 (edgeAttn_wvalArr V c) (fun t _ => edgeAttn_flushed_wval V c t) edgeAttn_cover_wval

theorem edgeAttn_wgt_arr (c : Dev nD) : ((datEdge (F := Ideal) V c).arrAt 8 cfg2.N : S800000x8.Idx → EReal) = edgeAttn_wgtArr V c :=
  (datEdge (F := Ideal) V c).arrAt_eq_of_cover 8 (edgeAttn_wgtArr V c) (fun t _ => edgeAttn_flushed_wgt V c t) edgeAttn_cover_wgt

/-- The scores' array holds each edge's score on each channel. -/
theorem edge_score_arr (c : Dev nD) (e : Fin 800000) (ch : Fin 128) :
    ((datEdge (F := Ideal) V c).arrAt 6 cfg2.N : S800000x128.Idx → EReal) (ix2 e ch) = edgeScore V c e ch :=
  congrFun (edgeAttn_score_arr V c) (ix2 e ch)

/-- The weights' array holds each edge's weight on each head. -/
theorem edge_wgt_arr (c : Dev nD) (e : Fin 800000) (hd : Fin 8) :
    ((datEdge (F := Ideal) V c).arrAt 8 cfg2.N : S800000x8.Idx → EReal) (ix2 e hd) = edgeWgt V c e hd :=
  congrFun (edgeAttn_wgt_arr V c) (ix2 e hd)

/-- The weighted values' array holds each edge's value times its weights against the channel's column. -/
theorem edge_wval_arr (c : Dev nD) (e : Fin 800000) (ch : Fin 128) :
    ((datEdge (F := Ideal) V c).arrAt 7 cfg2.N : S800000x128.Idx → EReal) (ix2 e ch)
      = edgeAttn_valArr V c (ix2 e ch) * (∑ hd : Fin 8, edgeWgt V c e hd * edgeAttn_spreadMat V c (ix2 hd ch)) :=
  congrFun (edgeAttn_wval_arr V c) (ix2 e ch)

end Cert.KernelIdeal.Att

end
-- ==== Proof.GroupTables.lean ====
/- The kernel program's two dense constants, read at an entry: the 0/1 matrices that sum the 16 lanes of a head
   and spread a head's number back over its 16 lanes.

   The [128, 8] matrix has entry (c, hd) equal to one exactly when channel c belongs to head hd (c / 16 = hd), else
   zero; the [8, 128] matrix is its transpose. Both are stored as 1024 words in row-major order; the words are
   checked entry by entry (0x3F800000 is the word of 1.0, 0 the word of 0.0), then read as extended reals. -/
import proofs.«425955_j21569325760859_2_alg».proof.KernelIdeal
import Idealize.ShloMosaic.PureOps.Ideal
import Idealize.ShloMosaic.PureOps.Ideal.Laws
import Idealize.ShloMosaic.Lib.IdealHost
import Idealize.ShloMosaic.Lib.ValueIdx

noncomputable section

namespace Cert.KernelIdeal.Att

open Idealize.ShloMosaic Idealize.ShloMosaic.ValueIdx
open Cert.KernelIdeal

/-- The words of the [128, 8] matrix: at position 8 c + hd, the word of one when c / 16 = hd, else the zero word. -/
theorem lit0t_word : ∀ c < 128, ∀ hd < 8, lit0t (c * 8 + hd) = if c / 16 = hd then 0x3F800000#32 else 0#32 := by
  decide +kernel

/-- The words of the [8, 128] matrix: at position 128 hd + c, the word of one when c / 16 = hd, else the zero word. -/
theorem lit1t_word : ∀ hd < 8, ∀ c < 128, lit1t (hd * 128 + c) = if c / 16 = hd then 0x3F800000#32 else 0#32 := by
  decide +kernel

/-- The word of the [128, 8] matrix at row c, column hd. -/
theorem lit0_at (c : Fin 128) (hd : Fin 8) :
    lit0 (S128x8.rowMajor (ix2 c hd)) = if c.val / 16 = hd.val then 0x3F800000#32 else 0#32 := by
  have hv : (S128x8.rowMajor (ix2 c hd)).val = c.val * 8 + hd.val := Shape.rowMajor_val_two (d := ![128, 8]) (ix2 c hd)
  show lit0t (S128x8.rowMajor (ix2 c hd)).val = _
  rw [hv]
  exact lit0t_word c.val c.isLt hd.val hd.isLt

/-- The word of the [8, 128] matrix at row hd, column c. -/
theorem lit1_at (hd : Fin 8) (c : Fin 128) :
    lit1 (S8x128.rowMajor (ix2 hd c)) = if c.val / 16 = hd.val then 0x3F800000#32 else 0#32 := by
  have hv : (S8x128.rowMajor (ix2 hd c)).val = hd.val * 128 + c.val := Shape.rowMajor_val_two (d := ![8, 128]) (ix2 hd c)
  show lit1t (S8x128.rowMajor (ix2 hd c)).val = _
  rw [hv]
  exact lit1t_word hd.val hd.isLt c.val c.isLt

/-- The lane-summing matrix: entry (c, hd) is one when channel c belongs to head hd, else zero. -/
theorem groupSum_entry (c : Fin 128) (hd : Fin 8) :
    Ideal.ofBits .f32 (lit0 (S128x8.rowMajor (ix2 c hd))) = if c.val / 16 = hd.val then 1 else 0 := by
  rw [lit0_at]
  by_cases h : c.val / 16 = hd.val
  · rw [if_pos h, if_pos h]; exact Ideal.ofBits_one_f32
  · rw [if_neg h, if_neg h]; exact Ideal.ofBits_zero_f32

/-- The head-spreading matrix: entry (hd, c) is one when channel c belongs to head hd, else zero. -/
theorem groupBcast_entry (hd : Fin 8) (c : Fin 128) :
    Ideal.ofBits .f32 (lit1 (S8x128.rowMajor (ix2 hd c))) = if c.val / 16 = hd.val then 1 else 0 := by
  rw [lit1_at]
  by_cases h : c.val / 16 = hd.val
  · rw [if_pos h, if_pos h]; exact Ideal.ofBits_one_f32
  · rw [if_neg h, if_neg h]; exact Ideal.ofBits_zero_f32

end Cert.KernelIdeal.Att

end
-- ==== Proof.GroupAlgebra.lean ====
/- Two identities over the extended reals: multiplying by a head's 0/1 membership column and summing picks out
   that head's sixteen lanes; multiplying by a channel's 0/1 membership row and summing picks out that channel's head.

   Over the extended reals x * 1 = x and x * 0 = 0 for every x, infinite or not, and adding zeros changes nothing,
   so neither identity asks the summands to be finite. -/
import proofs.«425955_j21569325760859_2_alg».proof.Proof.Spec
import Mathlib.Data.EReal.Basic
import Mathlib.Algebra.BigOperators.Group.Finset.Basic
import Mathlib.Algebra.BigOperators.Group.Finset.Piecewise

noncomputable section

namespace Cert.Att

open Idealize.ShloMosaic Idealize.ShloMosaic.ValueIdx

/-- A channel lies in head hd exactly when its head is hd. -/
theorem div_eq_iff_hdOf (c : Fin 128) (hd : Fin 8) : c.val / 16 = hd.val ↔ hdOf c = hd :=
  ⟨fun h => Fin.ext h, fun h => congrArg Fin.val h⟩

/-- Summing f against the membership column of head hd leaves the sum of f over the sixteen channels of hd. -/
theorem sum_group (f : Fin 128 → EReal) (hd : Fin 8) :
    (∑ c : Fin 128, f c * (if c.val / 16 = hd.val then (1 : EReal) else 0)) = ∑ j : Fin 16, f (ch hd j) := by
  simp only [mul_ite, mul_one, mul_zero]
  rw [← Finset.sum_filter]
  have hback : ∀ c : Fin 128, c.val / 16 = hd.val → ch hd (laneOf c) = c := fun c h => by
    have e : hdOf c = hd := Fin.ext h
    rw [← e]; exact ch_hdOf_laneOf c
  refine Finset.sum_bij' (fun c _ => laneOf c) (fun j _ => ch hd j) (fun _ _ => Finset.mem_univ _)
    (fun j _ => Finset.mem_filter.2 ⟨Finset.mem_univ _, congrArg Fin.val (hdOf_ch hd j)⟩)
    (fun c hc => hback c (Finset.mem_filter.1 hc).2) (fun j _ => laneOf_ch hd j) ?_
  intro c hc
  exact (congrArg f (hback c (Finset.mem_filter.1 hc).2)).symm

/-- Summing g against the membership row of channel c leaves g at the head of c. -/
theorem sum_bcast (g : Fin 8 → EReal) (c : Fin 128) :
    (∑ hd : Fin 8, g hd * (if c.val / 16 = hd.val then (1 : EReal) else 0)) = g (hdOf c) := by
  simp only [mul_ite, mul_one, mul_zero, div_eq_iff_hdOf]
  rw [Finset.sum_ite_eq, if_pos (Finset.mem_univ _)]

/-- The first identity as a matrix product meets it: from a zero accumulator. -/
theorem zero_add_sum_group (f : Fin 128 → EReal) (hd : Fin 8) :
    (0 : EReal) + (∑ c : Fin 128, f c * (if c.val / 16 = hd.val then (1 : EReal) else 0)) = ∑ j : Fin 16, f (ch hd j) := by
  rw [zero_add]; exact sum_group f hd

/-- The second identity as a matrix product meets it: from a zero accumulator. -/
theorem zero_add_sum_bcast (g : Fin 8 → EReal) (c : Fin 128) :
    (0 : EReal) + (∑ hd : Fin 8, g hd * (if c.val / 16 = hd.val then (1 : EReal) else 0)) = g (hdOf c) := by
  rw [zero_add]; exact sum_bcast g c

end Cert.Att

end
-- ==== Proof.KernelEdge.lean ====
/- The kernel program's gathered rows and its edge kernel's three outputs, read in the specification's terms: the three
   row gathers bring each edge its source's key, its destination's query and its source's value; the edge kernel then
   finds those, the projected edge features and the two 0/1 head-membership matrices, and leaves the scores, the
   head weights and the weighted values. -/
import proofs.«425955_j21569325760859_2_alg».proof.Proof.KernelProj
import proofs.«425955_j21569325760859_2_alg».proof.Proof.KernelTake
import proofs.«425955_j21569325760859_2_alg».proof.Proof.EdgeAttnValue
import proofs.«425955_j21569325760859_2_alg».proof.Proof.KernelHost
import proofs.«425955_j21569325760859_2_alg».proof.Proof.GroupTables
import proofs.«425955_j21569325760859_2_alg».proof.Proof.GroupAlgebra

noncomputable section

namespace Cert.KernelIdeal.Att

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD) (s d : Fin 800000 → Fin 50000)

/-! ## The integer arguments reach the three gathers as launched -/

/-- The source numbers, where the keys are gathered. -/
theorem src_at_keys : W4 m c (Proc.devRef .tc main_arg2) = m ((c : Thread nD τ).loc main_arg2) :=
  (W4_of_ne m c main_arg2 (by decide)).trans ((W3_keep m c main_arg2 (by decide)).trans
    ((W2_of_ne m c main_arg2 (by decide)).trans ((W1_keep m c main_arg2 (by decide)).trans rfl)))
/-- The destination numbers, where the queries are gathered. -/
theorem dst_at_queries : W5 m c (Proc.devRef .tc main_arg3) = m ((c : Thread nD τ).loc main_arg3) :=
  (W5_keep m c main_arg3 (by decide)).trans ((W4_of_ne m c main_arg3 (by decide)).trans ((W3_keep m c main_arg3 (by decide)).trans
    ((W2_of_ne m c main_arg3 (by decide)).trans ((W1_keep m c main_arg3 (by decide)).trans rfl))))
/-- The source numbers, where the values are gathered. -/
theorem src_at_values : W6 m c (Proc.devRef .tc main_arg2) = m ((c : Thread nD τ).loc main_arg2) :=
  (W6_keep m c main_arg2 (by decide)).trans ((W5_keep m c main_arg2 (by decide)).trans (src_at_keys m c))

/-! ## The gathered rows -/

/-- Each edge's row of the gathered keys is its source's key. -/
theorem stage_keys (hL : Linked m c s d) (e : Fin 800000) (ch : Fin 128) :
    (W7 m c (Proc.devRef .tc main_v7) : S800000x128.Idx → EReal) (ix2 e ch) = Cert.Att.key (inpOf m c s d) (s e) ch := by
  have hkeep : W7 m c (Proc.devRef .tc main_v7) = W5 m c (Proc.devRef .tc main_v7) :=
    (W7_keep m c main_v7 (by decide)).trans (W6_keep m c main_v7 (by decide))
  have hn : ((W4 m c (Proc.devRef .tc main_arg2) : S800000.Idx → BitVec 32) (ix1 e)).toInt = ((s e).val : ℤ) :=
    (congrArg (fun f : S800000.Idx → BitVec 32 => (f (ix1 e)).toInt) (src_at_keys m c)).trans (hL.1 e)
  refine (congrFun hkeep (ix2 e ch)).trans ?_
  refine (after2_keys (W4 m c) e ch (s e) hn).trans ?_
  refine (congrFun (W4_of_ne m c main_v4 (by decide)) (ix2 (s e) ch)).trans ?_
  exact stage_key m c s d (s e) ch

/-- Each edge's row of the gathered queries is its destination's query. -/
theorem stage_qrys (hL : Linked m c s d) (e : Fin 800000) (ch : Fin 128) :
    (W7 m c (Proc.devRef .tc main_v8) : S800000x128.Idx → EReal) (ix2 e ch) = Cert.Att.qry (inpOf m c s d) (d e) ch := by
  have hkeep : W7 m c (Proc.devRef .tc main_v8) = W6 m c (Proc.devRef .tc main_v8) := W7_keep m c main_v8 (by decide)
  have hn : ((W5 m c (Proc.devRef .tc main_arg3) : S800000.Idx → BitVec 32) (ix1 e)).toInt = ((d e).val : ℤ) :=
    (congrArg (fun f : S800000.Idx → BitVec 32 => (f (ix1 e)).toInt) (dst_at_queries m c)).trans (hL.2 e)
  have hsrc : W5 m c (Proc.devRef .tc main_v3) = W3 m c (Proc.devRef .tc main_v3) :=
    (W5_keep m c main_v3 (by decide)).trans (W4_of_ne m c main_v3 (by decide))
  refine (congrFun hkeep (ix2 e ch)).trans ?_
  refine (after2_1_queries (W5 m c) e ch (d e) hn).trans ?_
  refine (congrFun hsrc (ix2 (d e) ch)).trans ?_
  exact stage_qry m c s d (d e) ch

/-- Each edge's row of the gathered values is its source's value. -/
theorem stage_vals (hL : Linked m c s d) (e : Fin 800000) (ch : Fin 128) :
    (W7 m c (Proc.devRef .tc main_v9) : S800000x128.Idx → EReal) (ix2 e ch) = Cert.Att.val (inpOf m c s d) (s e) ch := by
  have hn : ((W6 m c (Proc.devRef .tc main_arg2) : S800000.Idx → BitVec 32) (ix1 e)).toInt = ((s e).val : ℤ) :=
    (congrArg (fun f : S800000.Idx → BitVec 32 => (f (ix1 e)).toInt) (src_at_values m c)).trans (hL.1 e)
  have hsrc : W6 m c (Proc.devRef .tc main_v5) = W3 m c (Proc.devRef .tc main_v5) :=
    (W6_keep m c main_v5 (by decide)).trans ((W5_keep m c main_v5 (by decide)).trans (W4_of_ne m c main_v5 (by decide)))
  refine (after2_2_values (W6 m c) e ch (s e) hn).trans ?_
  refine (congrFun hsrc (ix2 (s e) ch)).trans ?_
  exact stage_val m c s d (s e) ch

/-! ## What else the edge kernel finds -/

/-- The projected edge features are still what the edge projection left. -/
theorem efe_at_entry (e : Fin 800000) (ch : Fin 128) :
    (W7 m c (Proc.devRef .tc main_v6) : S800000x128.Idx → EReal) (ix2 e ch) = Cert.Att.efe (inpOf m c s d) e ch := by
  have hkeep : W7 m c (Proc.devRef .tc main_v6) = W4 m c (Proc.devRef .tc main_v6) :=
    (W7_keep m c main_v6 (by decide)).trans ((W6_keep m c main_v6 (by decide)).trans (W5_keep m c main_v6 (by decide)))
  exact (congrFun hkeep (ix2 e ch)).trans (stage_efe m c s d e ch)

/-- The [128, 8] matrix is a channel's membership in a head. -/
theorem sel_at_entry (c' : Fin 128) (hd : Fin 8) :
    (W7 m c (Proc.devRef .tc main_cst) : S128x8.Idx → EReal) (ix2 c' hd) = if c'.val / 16 = hd.val then (1 : EReal) else 0 := by
  have hkeep : W7 m c (Proc.devRef .tc main_cst) = W1 m c (Proc.devRef .tc main_cst) :=
    (W7_keep m c main_cst (by decide)).trans ((W6_keep m c main_cst (by decide)).trans ((W5_keep m c main_cst (by decide)).trans
      ((W4_of_ne m c main_cst (by decide)).trans ((W3_keep m c main_cst (by decide)).trans (W2_of_ne m c main_cst (by decide))))))
  refine (congrFun hkeep (ix2 c' hd)).trans ?_
  refine (after0_m1 (W0 m c) (ix2 c' hd)).trans ?_
  exact groupSum_entry c' hd

/-- The [8, 128] matrix is the same membership, transposed. -/
theorem spread_at_entry (hd : Fin 8) (c' : Fin 128) :
    (W7 m c (Proc.devRef .tc main_cst_0) : S8x128.Idx → EReal) (ix2 hd c') = if c'.val / 16 = hd.val then (1 : EReal) else 0 := by
  have hkeep : W7 m c (Proc.devRef .tc main_cst_0) = W1 m c (Proc.devRef .tc main_cst_0) :=
    (W7_keep m c main_cst_0 (by decide)).trans ((W6_keep m c main_cst_0 (by decide)).trans ((W5_keep m c main_cst_0 (by decide)).trans
      ((W4_of_ne m c main_cst_0 (by decide)).trans ((W3_keep m c main_cst_0 (by decide)).trans (W2_of_ne m c main_cst_0 (by decide))))))
  refine (congrFun hkeep (ix2 hd c')).trans ?_
  refine (after0_m2 (W0 m c) (ix2 hd c')).trans ?_
  exact groupBcast_entry hd c'

/-! ## The edge kernel's formulas over what it finds are the specification's -/

/-- The score. -/
theorem entry_score (hL : Linked m c s d) (e : Fin 800000) (ch : Fin 128) :
    edgeScore (V7 m) c e ch = Cert.Att.score (inpOf m c s d) e ch := by
  have hk : edgeAttn_keyArr (V7 m) c (ix2 e ch) = Cert.Att.key (inpOf m c s d) (s e) ch := stage_keys m c s d hL e ch
  have hq : edgeAttn_qryArr (V7 m) c (ix2 e ch) = Cert.Att.qry (inpOf m c s d) (d e) ch := stage_qrys m c s d hL e ch
  have he : edgeAttn_efeArr (V7 m) c (ix2 e ch) = Cert.Att.efe (inpOf m c s d) e ch := efe_at_entry m c s d e ch
  unfold edgeScore Cert.Att.score
  rw [hk, hq, he]
  rfl

/-- The head weight: the scores against a head's membership column are the head's sixteen lanes. -/
theorem entry_wgt (hL : Linked m c s d) (e : Fin 800000) (hd : Fin 8) :
    edgeWgt (V7 m) c e hd = Cert.Att.wgt (inpOf m c s d) e hd := by
  have hsum : (∑ c' : Fin 128, edgeScore (V7 m) c e c' * edgeAttn_selMat (V7 m) c (ix2 c' hd))
      = ∑ j : Fin 16, Cert.Att.score (inpOf m c s d) e (Cert.Att.ch hd j) := by
    refine Eq.trans (Finset.sum_congr rfl fun c' _ => ?_) (Cert.Att.sum_group (fun c' => Cert.Att.score (inpOf m c s d) e c') hd)
    have h1 : edgeAttn_selMat (V7 m) c (ix2 c' hd) = if c'.val / 16 = hd.val then (1 : EReal) else 0 := sel_at_entry m c c' hd
    rw [entry_score m c s d hL e c', h1]
  unfold edgeWgt Cert.Att.wgt
  rw [hsum]

/-- The weighted value: the head weights against a channel's membership row are the weight of the channel's head. -/
theorem entry_wval (hL : Linked m c s d) (e : Fin 800000) (ch : Fin 128) :
    edgeAttn_valArr (V7 m) c (ix2 e ch) * (∑ hd : Fin 8, edgeWgt (V7 m) c e hd * edgeAttn_spreadMat (V7 m) c (ix2 hd ch))
      = Cert.Att.wval (inpOf m c s d) e ch := by
  have hv : edgeAttn_valArr (V7 m) c (ix2 e ch) = Cert.Att.val (inpOf m c s d) (s e) ch := stage_vals m c s d hL e ch
  have hsum : (∑ hd : Fin 8, edgeWgt (V7 m) c e hd * edgeAttn_spreadMat (V7 m) c (ix2 hd ch))
      = Cert.Att.wgt (inpOf m c s d) e (Cert.Att.hdOf ch) := by
    refine Eq.trans (Finset.sum_congr rfl fun hd _ => ?_) (Cert.Att.sum_bcast (fun hd => Cert.Att.wgt (inpOf m c s d) e hd) ch)
    have h1 : edgeAttn_spreadMat (V7 m) c (ix2 hd ch) = if ch.val / 16 = hd.val then (1 : EReal) else 0 := spread_at_entry m c hd ch
    rw [entry_wgt m c s d hL e hd, h1]
  unfold Cert.Att.wval
  rw [hv, hsum]
  rfl

/-! ## The three outputs -/

/-- The scores' array. -/
theorem stage_score (hL : Linked m c s d) (e : Fin 800000) (ch : Fin 128) :
    (W8 m c (Proc.devRef .tc main_v10_0) : S800000x128.Idx → EReal) (ix2 e ch) = Cert.Att.score (inpOf m c s d) e ch := by
  refine (congrFun (W8_arr m c 6) (ix2 e ch)).trans ?_
  refine (edge_score_arr (V7 m) c e ch).trans ?_
  exact entry_score m c s d hL e ch

/-- The head weights' array. -/
theorem stage_wgt (hL : Linked m c s d) (e : Fin 800000) (hd : Fin 8) :
    (W8 m c (Proc.devRef .tc main_v10_2) : S800000x8.Idx → EReal) (ix2 e hd) = Cert.Att.wgt (inpOf m c s d) e hd := by
  refine (congrFun (W8_arr m c 8) (ix2 e hd)).trans ?_
  refine (edge_wgt_arr (V7 m) c e hd).trans ?_
  exact entry_wgt m c s d hL e hd

/-- The weighted values' array. -/
theorem stage_wval (hL : Linked m c s d) (e : Fin 800000) (ch : Fin 128) :
    (W8 m c (Proc.devRef .tc main_v10_1) : S800000x128.Idx → EReal) (ix2 e ch) = Cert.Att.wval (inpOf m c s d) e ch := by
  refine (congrFun (W8_arr m c 7) (ix2 e ch)).trans ?_
  refine (edge_wval_arr (V7 m) c e ch).trans ?_
  exact entry_wval m c s d hL e ch

end Cert.KernelIdeal.Att

end
-- ==== Proof.LibScatterRows.lean ====
/-
  The host's accumulating scatter of ROWS, read at an index at the ideal instance.

  An operand of N rows, E update rows, and an [E, 1] array of row numbers: update row e is added
  onto operand row (row number of e). At the ideal instance the result at (n, c) is the operand's
  element plus the exact sum of the update elements (e, c) over the e whose row number is n.
  Stated for any dimension-numbers record whose fields are the row scatter's (window axes all
  but the first, first operand axis inserted and named by the one-component index vector), at
  rank 2 and rank 3, for row numbers known to be in range (given as a function into Fin N).
-/
import Idealize.ShloMosaic.PureOps
import Idealize.ShloMosaic.PureOps.Ideal
import Idealize.ShloMosaic.Lib.ValueIdx

open scoped BigOperators
open Idealize.ShloMosaic Idealize.ShloMosaic.ValueIdx

namespace Cert.Att.Lib

/-! ## Rank 2 -/

/-- The row scatter's window start and window coordinate on each operand axis, rank 2: the start
    on axis 0 is the row number read at (u 0, 0) and the window coordinate there is 0; on axis 1
    the start is 0 and the window coordinate is u's second coordinate. -/
theorem start_window_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (u : (⟨2, ![E, C]⟩ : Shape).Idx) :
    d.start u idx 0 = (idx (ix2 (u 0) 0)).toInt ∧ d.start u idx 1 = 0
    ∧ d.window u 0 = 0 ∧ d.window u 1 = (u 1).val := by
  obtain ⟨uw, iw, sd, ivd, wf⟩ := d
  dsimp only at huw hiw hsd hivd
  subst huw hiw hsd hivd
  refine ⟨?_, ?_, ?_, ?_⟩
  · unfold ScatterDims.start
    rw [dif_pos (show (0 : Fin 2) ∈ ([0] : List (Fin 2)) by decide)]
    congr 2
    funext b
    match b with
    | ⟨0, _⟩ => rfl
    | ⟨1, _⟩ => rfl
  · unfold ScatterDims.start
    rw [dif_neg (show (1 : Fin 2) ∉ ([0] : List (Fin 2)) by decide)]
  · unfold ScatterDims.window
    split
    · rename_i ha
      exact absurd ha (show (0 : Fin 2) ∉ (List.finRange 2).filter (fun a => a ∉ ([0] : List (Fin 2))) by decide)
    · rfl
  · unfold ScatterDims.window
    split
    · rfl
    · rename_i ha
      exact absurd (show (1 : Fin 2) ∈ (List.finRange 2).filter (fun a => a ∉ ([0] : List (Fin 2))) by decide) ha

/-- Under the row scatter's dimension numbers and in-range row numbers, update index u lands at
    (row number of u's row, u's column): never dropped. -/
theorem resultIdx?_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨2, ![E, C]⟩ : Shape).Idx) :
    d.resultIdx? u idx = some (ix2 (dst (u 0)) (u 1)) := by
  obtain ⟨h0, h1, hw0, hw1⟩ := start_window_rows2 d huw hiw hsd hivd idx u
  have hd : d.start u idx 0 = ((dst (u 0)).val : ℤ) := h0.trans (hdst (u 0))
  have hlt0 : (dst (u 0)).val < N := (dst (u 0)).isLt
  have hlt1 : (u 1).val < C := idx2_lt1 u
  have hcond : ∀ a, 0 ≤ d.start u idx a + d.window u a ∧
      d.start u idx a + d.window u a < (⟨2, ![N, C]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (C : ℤ)
      rw [h1, hw1]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega

/-- THE ROW SCATTER AT AN INDEX, rank 2. An accumulating scatter of E update rows of width C
    into an operand of N rows, row e going to the row whose number the [E, 1] index array holds
    at (e, 0) — numbers in range, `dst e` —, is at the ideal instance, at (n, c), the operand's
    element plus the exact sum of `upd (e, c)` over the rows e sent to n. -/
theorem scatterAdd_rows2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w)
    (upd : (⟨2, ![E, C]⟩ : Shape).Idx → EReal)
    (dst : Fin E → Fin N) (hdst : ∀ e, (idx (ix2 e 0)).toInt = ((dst e).val : ℤ))
    (n : Fin N) (c : Fin C) :
    Ideal.hostScatterAdd d x idx upd (ix2 n c) =
      x (ix2 n c) + ∑ e ∈ Finset.univ.filter (fun e => dst e = n), upd (ix2 e c) := by
  unfold Ideal.hostScatterAdd
  congr 1
  symm
  refine Finset.sum_bij (fun e _ => ix2 e c) ?_ ?_ ?_ ?_
  · intro e he
    rw [Finset.mem_filter] at he ⊢
    refine ⟨Finset.mem_univ _, ?_⟩
    rw [resultIdx?_rows2 d huw hiw hsd hivd idx dst hdst]
    show some (ix2 (dst e) c) = some (ix2 n c)
    rw [he.2]
  · intro a _ b _ h
    exact congrFun h 0
  · intro u hu
    rw [Finset.mem_filter, resultIdx?_rows2 d huw hiw hsd hivd idx dst hdst] at hu
    have hu' := Option.some.inj hu.2
    have e0 : dst (u 0) = n := congrFun hu' 0
    have e1 : u 1 = c := congrFun hu' 1
    refine ⟨u 0, Finset.mem_filter.2 ⟨Finset.mem_univ _, e0⟩, ?_⟩
    rw [← e1]
    exact (eq_ix2 u).symm
  · intro e _
    rfl

/-! ## Rank 3 -/

/-- The row scatter's window start and window coordinate on each operand axis, rank 3: the start
    on axis 0 is the row number read at (u 0, 0) and the window coordinate there is 0; on axes 1
    and 2 the start is 0 and the window coordinate is u's coordinate on that axis. -/
theorem start_window_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (u : (⟨3, ![E, H, D]⟩ : Shape).Idx) :
    d.start u idx 0 = (idx (ix2 (u 0) 0)).toInt ∧ d.start u idx 1 = 0 ∧ d.start u idx 2 = 0
    ∧ d.window u 0 = 0 ∧ d.window u 1 = (u 1).val ∧ d.window u 2 = (u 2).val := by
  obtain ⟨uw, iw, sd, ivd, wf⟩ := d
  dsimp only at huw hiw hsd hivd
  subst huw hiw hsd hivd
  refine ⟨?_, ?_, ?_, ?_, ?_, ?_⟩
  · unfold ScatterDims.start
    rw [dif_pos (show (0 : Fin 3) ∈ ([0] : List (Fin 3)) by decide)]
    congr 2
    funext b
    match b with
    | ⟨0, _⟩ => rfl
    | ⟨1, _⟩ => rfl
  · unfold ScatterDims.start
    rw [dif_neg (show (1 : Fin 3) ∉ ([0] : List (Fin 3)) by decide)]
  · unfold ScatterDims.start
    rw [dif_neg (show (2 : Fin 3) ∉ ([0] : List (Fin 3)) by decide)]
  · unfold ScatterDims.window
    split
    · rename_i ha
      exact absurd ha (show (0 : Fin 3) ∉ (List.finRange 3).filter (fun a => a ∉ ([0] : List (Fin 3))) by decide)
    · rfl
  · unfold ScatterDims.window
    split
    · rfl
    · rename_i ha
      exact absurd (show (1 : Fin 3) ∈ (List.finRange 3).filter (fun a => a ∉ ([0] : List (Fin 3))) by decide) ha
  · unfold ScatterDims.window
    split
    · rfl
    · rename_i ha
      exact absurd (show (2 : Fin 3) ∈ (List.finRange 3).filter (fun a => a ∉ ([0] : List (Fin 3))) by decide) ha

/-- Under the row scatter's dimension numbers and in-range row numbers, rank 3, update index u
    lands at (row number of u's row, u's second coordinate, u's third): never dropped. -/
theorem resultIdx?_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (idx : IVec ⟨2, ![E, 1]⟩ w) (dst : Fin E → Fin N)
    (hdst : ∀ e, (idx (ix2 e 0)).toInt = ((dst e).val : ℤ)) (u : (⟨3, ![E, H, D]⟩ : Shape).Idx) :
    d.resultIdx? u idx = some (ix3 (dst (u 0)) (u 1) (u 2)) := by
  obtain ⟨h0, h1, h2, hw0, hw1, hw2⟩ := start_window_rows3 d huw hiw hsd hivd idx u
  have hd : d.start u idx 0 = ((dst (u 0)).val : ℤ) := h0.trans (hdst (u 0))
  have hlt0 : (dst (u 0)).val < N := (dst (u 0)).isLt
  have hlt1 : (u 1).val < H := (u 1).isLt
  have hlt2 : (u 2).val < D := (u 2).isLt
  have hcond : ∀ a, 0 ≤ d.start u idx a + d.window u a ∧
      d.start u idx a + d.window u a < (⟨3, ![N, H, D]⟩ : Shape).size a := by
    intro a
    match a with
    | ⟨0, _⟩ =>
      show 0 ≤ d.start u idx 0 + (d.window u 0 : ℤ) ∧ d.start u idx 0 + (d.window u 0 : ℤ) < (N : ℤ)
      rw [hd, hw0]
      omega
    | ⟨1, _⟩ =>
      show 0 ≤ d.start u idx 1 + (d.window u 1 : ℤ) ∧ d.start u idx 1 + (d.window u 1 : ℤ) < (H : ℤ)
      rw [h1, hw1]
      omega
    | ⟨2, _⟩ =>
      show 0 ≤ d.start u idx 2 + (d.window u 2 : ℤ) ∧ d.start u idx 2 + (d.window u 2 : ℤ) < (D : ℤ)
      rw [h2, hw2]
      omega
  unfold ScatterDims.resultIdx?
  rw [dif_pos hcond]
  congr 1
  funext a
  match a with
  | ⟨0, _⟩ =>
    apply Fin.ext
    show (d.start u idx 0 + (d.window u 0 : ℤ)).toNat = (dst (u 0)).val
    rw [hd, hw0]
    omega
  | ⟨1, _⟩ =>
    apply Fin.ext
    show (d.start u idx 1 + (d.window u 1 : ℤ)).toNat = (u 1).val
    rw [h1, hw1]
    omega
  | ⟨2, _⟩ =>
    apply Fin.ext
    show (d.start u idx 2 + (d.window u 2 : ℤ)).toNat = (u 2).val
    rw [h2, hw2]
    omega

/-- THE ROW SCATTER AT AN INDEX, rank 3. An accumulating scatter of E update rows, each an H by D
    block, into an operand of N such rows, row e going to the row whose number the [E, 1] index
    array holds at (e, 0) — numbers in range, `dst e` —, is at the ideal instance, at (n, h, j),
    the operand's element plus the exact sum of `upd (e, h, j)` over the rows e sent to n. -/
theorem scatterAdd_rows3 {N H D E w : Nat}
    (d : ScatterDims ⟨3, ![N, H, D]⟩ ⟨2, ![E, 1]⟩ ⟨3, ![E, H, D]⟩)
    (huw : d.updateWindowDims = [1, 2]) (hiw : d.insertedWindowDims = [0])
    (hsd : d.scatterDimsToOperandDims = [0]) (hivd : d.indexVectorDim = 1)
    (x : (⟨3, ![N, H, D]⟩ : Shape).Idx → EReal) (idx : IVec ⟨2, ![E, 1]⟩ w)
    (upd : (⟨3, ![E, H, D]⟩ : Shape).Idx → EReal)
    (dst : Fin E → Fin N) (hdst : ∀ e, (idx (ix2 e 0)).toInt = ((dst e).val : ℤ))
    (n : Fin N) (h : Fin H) (j : Fin D) :
    Ideal.hostScatterAdd d x idx upd (ix3 n h j) =
      x (ix3 n h j) + ∑ e ∈ Finset.univ.filter (fun e => dst e = n), upd (ix3 e h j) := by
  unfold Ideal.hostScatterAdd
  congr 1
  symm
  refine Finset.sum_bij (fun e _ => ix3 e h j) ?_ ?_ ?_ ?_
  · intro e he
    rw [Finset.mem_filter] at he ⊢
    refine ⟨Finset.mem_univ _, ?_⟩
    rw [resultIdx?_rows3 d huw hiw hsd hivd idx dst hdst]
    show some (ix3 (dst e) h j) = some (ix3 n h j)
    rw [he.2]
  · intro a _ b _ hab
    exact congrFun hab 0
  · intro u hu
    rw [Finset.mem_filter, resultIdx?_rows3 d huw hiw hsd hivd idx dst hdst] at hu
    have hu' := Option.some.inj hu.2
    have e0 : dst (u 0) = n := congrFun hu' 0
    have e1 : u 1 = h := congrFun hu' 1
    have e2 : u 2 = j := congrFun hu' 2
    refine ⟨u 0, Finset.mem_filter.2 ⟨Finset.mem_univ _, e0⟩, ?_⟩
    rw [← e1, ← e2]
    exact (eq_ix3 u).symm
  · intro e _
    rfl

end Cert.Att.Lib
-- ==== Proof.KernelTail.lean ====
/- The kernel program's host operations after the last call, read at an index: the edge result is the scores with the
   128 channels split into 8 heads of 16 lanes; the node result is, per node, head and lane, the weighted values summed
   over the edges entering the node, divided by the weights summed over those edges plus the small constant. -/
import proofs.«425955_j21569325760859_2_alg».proof.Proof.Gen.KernelIdeal.Launch
import proofs.«425955_j21569325760859_2_alg».proof.Proof.Spec
import proofs.«425955_j21569325760859_2_alg».proof.Proof.LibScatterRows
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Att

open Cert.KernelIdeal Cert.KernelIdeal.Gen Idealize.ShloMosaic Idealize.ShloMosaic.TcCoe Idealize.ShloMosaic.ValueIdx Idealize.ShloMosaic.StableHlo

/-! ## After the last call -/

/-- The edge result: the scores, the 128 channels split into 8 heads of 16 lanes. -/
theorem after3_edge (W : Valuation τ sig (Elt Ideal)) (e : Fin 800000) (hd : Fin 8) (l : Fin 16) :
    (StableHlo.after (hostOps3 (F := Ideal)) W (Proc.devRef .tc main_v23) : S800000x8x16.Idx → EReal) (ix3 e hd l)
      = (W (Proc.devRef .tc main_v10_0) : S800000x128.Idx → EReal) (ix2 e (Cert.Att.ch hd l)) := by
  have e0 : (StableHlo.after (hostOps3 (F := Ideal)) W (Proc.devRef .tc main_v23) : S800000x8x16.Idx → EReal)
      = shapeCast S800000x8x16 (W (Proc.devRef .tc main_v10_0) : S800000x128.Idx → EReal) shapeCasts_S800000x128_S800000x8x16 := by
    show StableHlo.after [_, _, _, _, _, _, _, _, _, _, _, _, _, _, _, _] _ (Proc.devRef .tc main_v23) = _
    after_results
    rfl
  rw [e0]
  refine shapeCast_apply _ _ (ix3 e hd l) (ix2 e (Cert.Att.ch hd l)) ?_
  rw [Shape.rowMajor_val_two, Shape.rowMajor_val_three]
  show e.val * 128 + (16 * hd.val + l.val) = (e.val * 8 + hd.val) * 16 + l.val
  omega

/-- The row scatter at the ideal instance, as the host operation is printed. -/
theorem scatterAdd_apply2 {N E C w : Nat} (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (dst : Fin E → Fin N) (hdst : ∀ e, (idx (ix2 e 0)).toInt = ((dst e).val : ℤ)) (n : Fin N) (c : Fin C) :
    Host.scatterAdd (F := Ideal) (φ := .f32) d x idx upd (ix2 n c)
      = x (ix2 n c) + ∑ e ∈ Finset.univ.filter (fun e => dst e = n), upd (ix2 e c) :=
  Cert.Att.Lib.scatterAdd_rows2 d huw hiw hsd hivd x idx upd dst hdst n c

/-- The host's quotient at the ideal instance, read at an index. -/
theorem hostDivf_apply {s : Shape} (a b : s.Idx → EReal) (i : s.Idx) :
    Host.divf (F := Ideal) (φ := .f32) a b i = Ideal.div (a i) (b i) := rfl

/-- The destination indices as a one-column matrix: row e holds edge e's destination. -/
theorem dstCol_apply (x : S800000.Idx → BitVec 32) (e : Fin 800000) :
    broadcastInDim S800000x1 ![0] bcast_S800000_S800000x1_0 x (ix2 e 0) = x (ix1 e) :=
  broadcastInDim_apply _ _ x (ix2 e 0) (ix1 e) (fun a => match a with
    | ⟨0, _⟩ => by show e.val = if (800000 : Nat) = 1 then 0 else e.val; rw [if_neg (by decide)])

/-- The node result: per node and head, the weighted values summed over the entering edges, over the weights summed
    plus the small constant. -/
theorem after3_node (W : Valuation τ sig (Elt Ideal)) (d : Fin 800000 → Fin 50000)
    (hd' : ∀ e, ((W (Proc.devRef .tc main_arg3) : S800000.Idx → BitVec 32) (ix1 e)).toInt = ((d e).val : ℤ))
    (n : Fin 50000) (hd : Fin 8) (l : Fin 16) :
    (StableHlo.after (hostOps3 (F := Ideal)) W (Proc.devRef .tc main_v22) : S50000x8x16.Idx → EReal) (ix3 n hd l)
      = Ideal.div (∑ e ∈ Finset.univ.filter (fun e => d e = n), (W (Proc.devRef .tc main_v10_1) : S800000x128.Idx → EReal) (ix2 e (Cert.Att.ch hd l)) : EReal)
          ((∑ e ∈ Finset.univ.filter (fun e => d e = n), (W (Proc.devRef .tc main_v10_2) : S800000x8.Idx → EReal) (ix2 e hd) : EReal)
            + Ideal.ofBits .f32 0x358637BD#32) := by
  have e0 : (StableHlo.after (hostOps3 (F := Ideal)) W (Proc.devRef .tc main_v22) : S50000x8x16.Idx → EReal)
      = shapeCast S50000x8x16
          (Host.divf
            (Host.scatterAdd (F := Ideal) (φ := .f32) scatter_S50000x128_S800000x1_S800000x128_1_0_0_1
              (broadcastInDim S50000x128 ![] bcast_S_S50000x128 (constant (F := Ideal) S_ .f32 0x00000000#32))
              (broadcastInDim S800000x1 ![0] bcast_S800000_S800000x1_0 (W (Proc.devRef .tc main_arg3) : S800000.Idx → BitVec 32))
              (W (Proc.devRef .tc main_v10_1) : S800000x128.Idx → EReal))
            (addf
              (shapeCast S50000x128
                (broadcastInDim S50000x8x16 ![0, 1] bcast_S50000x8_S50000x8x16_0_1
                  (Host.scatterAdd (F := Ideal) (φ := .f32) scatter_S50000x8_S800000x1_S800000x8_1_0_0_1
                    (broadcastInDim S50000x8 ![] bcast_S_S50000x8 (constant (F := Ideal) S_ .f32 0x00000000#32))
                    (broadcastInDim S800000x1 ![0] bcast_S800000_S800000x1_0 (W (Proc.devRef .tc main_arg3) : S800000.Idx → BitVec 32))
                    (W (Proc.devRef .tc main_v10_2) : S800000x8.Idx → EReal)))
                shapeCasts_S50000x8x16_S50000x128)
              (broadcastInDim S50000x128 ![] bcast_S_S50000x128 (constant (F := Ideal) S_ .f32 0x358637BD#32))))
          shapeCasts_S50000x128_S50000x8x16 := by
    show StableHlo.after [_, _, _, _, _, _, _, _, _, _, _, _, _, _, _, _] _ (Proc.devRef .tc main_v22) = _
    after_results_simp
    rfl
  have hI : ∀ e, ((broadcastInDim S800000x1 ![0] bcast_S800000_S800000x1_0 (W (Proc.devRef .tc main_arg3) : S800000.Idx → BitVec 32)) (ix2 e 0)).toInt
      = ((d e).val : ℤ) := fun e => (congrArg BitVec.toInt (dstCol_apply _ e)).trans (hd' e)
  rw [e0]
  refine (shapeCast_apply _ _ (ix3 n hd l) (ix2 n (Cert.Att.ch hd l)) ?_).trans ?_
  · rw [Shape.rowMajor_val_two, Shape.rowMajor_val_three]
    show n.val * 128 + (16 * hd.val + l.val) = (n.val * 8 + hd.val) * 16 + l.val
    omega
  refine (hostDivf_apply _ _ _).trans ?_
  refine congrArg₂ Ideal.div ?_ ?_
  · refine (scatterAdd_apply2 _ rfl rfl rfl rfl _ _ _ d hI n (Cert.Att.ch hd l)).trans ?_
    rw [show (broadcastInDim S50000x128 ![] bcast_S_S50000x128 (constant (F := Ideal) S_ .f32 0x00000000#32)) (ix2 n (Cert.Att.ch hd l))
        = Ideal.ofBits .f32 0x00000000#32 from rfl, Ideal.ofBits_zero_f32, zero_add]
  · refine (addf_apply _ _ _).trans ?_
    refine congrArg₂ (· + ·) ?_ rfl
    refine (shapeCast_apply _ _ (ix2 n (Cert.Att.ch hd l)) (ix3 n hd l) ?_).trans ?_
    · rw [Shape.rowMajor_val_two, Shape.rowMajor_val_three]
      show (n.val * 8 + hd.val) * 16 + l.val = n.val * 128 + (16 * hd.val + l.val)
      omega
    refine (broadcastInDim_apply _ _ _ (ix3 n hd l) (ix2 n hd) (fun a => match a with
      | ⟨0, _⟩ => by show n.val = if (50000 : Nat) = 1 then 0 else n.val; rw [if_neg (by decide)]
      | ⟨1, _⟩ => by show hd.val = if (8 : Nat) = 1 then 0 else hd.val; rw [if_neg (by decide)])).trans ?_
    refine (scatterAdd_apply2 _ rfl rfl rfl rfl _ _ _ d hI n hd).trans ?_
    rw [show (broadcastInDim S50000x8 ![] bcast_S_S50000x8 (constant (F := Ideal) S_ .f32 0x00000000#32)) (ix2 n hd)
        = Ideal.ofBits .f32 0x00000000#32 from rfl, Ideal.ofBits_zero_f32, zero_add]

end Cert.KernelIdeal.Att

end
-- ==== Proof.KernelOut.lean ====
/- The kernel program's two results are the specification's.

   The closing host operations reshape the edge kernel's scores to [800000, 8, 16] — the edge result — and, for the node
   result, add up the weighted values and the weights of the edges entering each node, add the small constant to the
   summed weights, divide, and reshape to [50000, 8, 16]. With the edge kernel's three outputs already read as the
   specification's score, weight and weighted value, the two results are the specification's by the sums' definition. -/
import proofs.«425955_j21569325760859_2_alg».proof.Proof.KernelEdge
import proofs.«425955_j21569325760859_2_alg».proof.Proof.KernelTail

noncomputable section

namespace Cert.KernelIdeal.Att

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD) (s d : Fin 800000 → Fin 50000)

/-- The destination indices reach the closing host operations as launched. -/
theorem W8_dst : W8 m c main_arg3 = m ((c : Thread nD τ).loc main_arg3) :=
  (W8_of_ne m c _ (by decide)).trans <| (W7_keep m c main_arg3 (by decide)).trans <| (W6_keep m c main_arg3 (by decide)).trans <|
    (W5_keep m c main_arg3 (by decide)).trans <| (W4_of_ne m c _ (by decide)).trans <| (W3_keep m c main_arg3 (by decide)).trans <|
    (W2_of_ne m c _ (by decide)).trans <| (W1_keep m c main_arg3 (by decide)).trans rfl

/-- THE EDGE RESULT. -/
theorem kernel_edgeOut (hL : Linked m c s d) :
    (W9 m c (Proc.devRef .tc main_v23) : S800000x8x16.Idx → EReal) = Cert.Att.edgeOut (inpOf m c s d) := by
  funext i
  obtain ⟨e, hd, l, rfl⟩ : ∃ (e : Fin 800000) (hd : Fin 8) (l : Fin 16), i = ix3 e hd l := ⟨i 0, i 1, i 2, eq_ix3 i⟩
  exact (after3_edge (W8 m c) e hd l).trans (stage_score m c s d hL e (Cert.Att.ch hd l))

/-- THE NODE RESULT. -/
theorem kernel_nodeOut (hL : Linked m c s d) :
    (W9 m c (Proc.devRef .tc main_v22) : S50000x8x16.Idx → EReal) = Cert.Att.nodeOut (inpOf m c s d) := by
  funext i
  obtain ⟨n, hd, l, rfl⟩ : ∃ (n : Fin 50000) (hd : Fin 8) (l : Fin 16), i = ix3 n hd l := ⟨i 0, i 1, i 2, eq_ix3 i⟩
  have hdst : ∀ e : Fin 800000, ((W8 m c (Proc.devRef .tc main_arg3) : S800000.Idx → BitVec 32) (ix1 e)).toInt = ((d e).val : ℤ) := fun e =>
    (congrArg (fun f : S800000.Idx → BitVec 32 => (f (ix1 e)).toInt) (W8_dst m c)).trans (hL.2 e)
  refine (after3_node (W8 m c) d hdst n hd l).trans ?_
  have hv : (∑ e ∈ Finset.univ.filter (fun e => d e = n), (W8 m c (Proc.devRef .tc main_v10_1) : S800000x128.Idx → EReal) (ix2 e (Cert.Att.ch hd l)) : EReal)
      = Cert.Att.aggVal (inpOf m c s d) n (Cert.Att.ch hd l) :=
    Finset.sum_congr rfl fun e _ => stage_wval m c s d hL e (Cert.Att.ch hd l)
  have hw : (∑ e ∈ Finset.univ.filter (fun e => d e = n), (W8 m c (Proc.devRef .tc main_v10_2) : S800000x8.Idx → EReal) (ix2 e hd) : EReal)
      = Cert.Att.aggWgt (inpOf m c s d) n hd :=
    Finset.sum_congr rfl fun e _ => stage_wgt m c s d hL e hd
  exact congrArg₂ (fun a b : EReal => Ideal.div a (b + Ideal.ofBits .f32 0x358637BD#32)) hv hw

end Cert.KernelIdeal.Att

end
-- ==== Proof.RefScore.lean ====
/- The reference's edge result is the specification's edge result.

   The reference computes, for an edge e, head h and lane l:
     ((keys[src e] * queries[dst e]) / sqrt 16) * (edge features projected)
   with keys, queries and the projected edge features linear layers reshaped from 128 channels to 8 heads of 16 lanes;
   channel of (h, l) is 16 * h + l. The square root of 16 is 4 and dividing by 4 is multiplying by the word of 1/4. -/
import proofs.«425955_j21569325760859_2_alg».proof.Proof.Gen.ReferenceIdeal.Read
import proofs.«425955_j21569325760859_2_alg».proof.Proof.Spec
import proofs.«425955_j21569325760859_2_alg».proof.Proof.LibGatherRows
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefValue

open Cert.ReferenceIdeal Cert.ReferenceIdeal.Read Idealize.ShloMosaic Idealize.ShloMosaic.ValueIdx

/-- The specification's arguments from the reference's argument arrays and the node functions of the two index arrays. -/
def inp (x0 : (⟨S50000x128, .f32⟩ : BufTy).Contents (Elt Ideal)) (x1 : (⟨S800000x128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (s d : Fin 800000 → Fin 50000) : Cert.Att.Inp :=
  ⟨x0, x1, x4, x5, x6, x7, x8, x9, x10, x11, s, d⟩

/-! ## The one arithmetic fact -/

/-- The word 0x41800000 is sixteen. -/
theorem word_sixteen : Ideal.ofBits .f32 0x41800000#32 = ((16 : ℝ) : EReal) := by
  simp [Ideal.ofBits, Ideal.ieee, -EReal.coe_mul]; norm_num

/-- The word 0x3E800000 is one quarter. -/
theorem word_quarter : Ideal.ofBits .f32 0x3E800000#32 = (((1 : ℝ) / 4 : ℝ) : EReal) := by
  simp [Ideal.ofBits, Ideal.ieee, -EReal.coe_mul]; norm_num

/-- The square root of sixteen is four. -/
theorem sqrt_sixteen : Ideal.sqrt ((16 : ℝ) : EReal) = ((4 : ℝ) : EReal) := by
  show (if (16 : ℝ) < 0 then (⊥ : EReal) else (Real.sqrt 16 : EReal)) = _
  rw [if_neg (by norm_num)]
  congr 1
  rw [show (16 : ℝ) = 4 ^ 2 by norm_num]
  exact Real.sqrt_sq (by norm_num)

/-- Dividing by the square root of the word of sixteen is multiplying by the word of one quarter. -/
theorem div_sqrt_sixteen (x : EReal) :
    Ideal.div x (Ideal.sqrt (Ideal.ofBits .f32 0x41800000#32)) = x * Ideal.ofBits .f32 0x3E800000#32 := by
  rw [word_sixteen, sqrt_sixteen, word_quarter]
  exact Ideal.div_coe (by norm_num) x

/-! ## The linear layers, reshaped: channel of (head, lane) is 16 * head + lane -/

/-- The queries at (node, head, lane). -/
theorem qry_read (x0 : (⟨S50000x128, .f32⟩ : BufTy).Contents (Elt Ideal)) (x4 : (⟨S128x128, .f32⟩ : BufTy).Contents (Elt Ideal)) (x5 : (⟨S128, .f32⟩ : BufTy).Contents (Elt Ideal))
    (n : Fin 50000) (h8 : Fin 8) (l : Fin 16) :
    val_main_v4 (F := Ideal) x0 x4 x5 (ix3 n h8 l) = Cert.Att.lin x0 x4 x5 n (Cert.Att.ch h8 l) := by
  have e1 : idx_main_v4 (ix3 n h8 l) = ix2 n (Cert.Att.ch h8 l) := by
    funext a; apply Fin.ext
    match a with
    | ⟨0, _⟩ => show ((n.val * 8 + h8.val) * 16 + l.val) / 128 = n.val; omega
    | ⟨1, _⟩ => show ((n.val * 8 + h8.val) * 16 + l.val) % 128 = 16 * h8.val + l.val; omega
  have e2 : ∀ k : Fin 128, lidx_main_v0 (ix2 n (Cert.Att.ch h8 l)) k = ix2 n k := fun k =>
    funext fun a => match a with | ⟨0, _⟩ => rfl | ⟨1, _⟩ => rfl
  have e3 : ∀ k : Fin 128, ridx_main_v0 (ix2 n (Cert.Att.ch h8 l)) k = ix2 k (Cert.Att.ch h8 l) := fun k =>
    funext fun a => match a with | ⟨0, _⟩ => rfl | ⟨1, _⟩ => rfl
  have e4 : idx_main_v1 (idx_main_v2 (ix2 n (Cert.Att.ch h8 l))) = ix1 (Cert.Att.ch h8 l) :=
    funext fun a => match a with | ⟨0, _⟩ => rfl
  rw [val_main_v4_apply, e1, val_main_v3_apply, val_main_v0_apply, val_main_v2_apply, val_main_v1_apply, e4]
  simp only [e2, e3, Ideal.addf_def]
  rfl

/-- The keys at (node, head, lane). -/
theorem key_read (x0 : (⟨S50000x128, .f32⟩ : BufTy).Contents (Elt Ideal)) (x6 : (⟨S128x128, .f32⟩ : BufTy).Contents (Elt Ideal)) (x7 : (⟨S128, .f32⟩ : BufTy).Contents (Elt Ideal))
    (n : Fin 50000) (h8 : Fin 8) (l : Fin 16) :
    val_main_v9 (F := Ideal) x0 x6 x7 (ix3 n h8 l) = Cert.Att.lin x0 x6 x7 n (Cert.Att.ch h8 l) := by
  have e1 : idx_main_v9 (ix3 n h8 l) = ix2 n (Cert.Att.ch h8 l) := by
    funext a; apply Fin.ext
    match a with
    | ⟨0, _⟩ => show ((n.val * 8 + h8.val) * 16 + l.val) / 128 = n.val; omega
    | ⟨1, _⟩ => show ((n.val * 8 + h8.val) * 16 + l.val) % 128 = 16 * h8.val + l.val; omega
  have e2 : ∀ k : Fin 128, lidx_main_v5 (ix2 n (Cert.Att.ch h8 l)) k = ix2 n k := fun k =>
    funext fun a => match a with | ⟨0, _⟩ => rfl | ⟨1, _⟩ => rfl
  have e3 : ∀ k : Fin 128, ridx_main_v5 (ix2 n (Cert.Att.ch h8 l)) k = ix2 k (Cert.Att.ch h8 l) := fun k =>
    funext fun a => match a with | ⟨0, _⟩ => rfl | ⟨1, _⟩ => rfl
  have e4 : idx_main_v6 (idx_main_v7 (ix2 n (Cert.Att.ch h8 l))) = ix1 (Cert.Att.ch h8 l) :=
    funext fun a => match a with | ⟨0, _⟩ => rfl
  rw [val_main_v9_apply, e1, val_main_v8_apply, val_main_v5_apply, val_main_v7_apply, val_main_v6_apply, e4]
  simp only [e2, e3, Ideal.addf_def]
  rfl

/-- The projected edge features at (edge, head, lane). -/
theorem efe_read (x1 : (⟨S800000x128, .f32⟩ : BufTy).Contents (Elt Ideal)) (x10 : (⟨S128x128, .f32⟩ : BufTy).Contents (Elt Ideal)) (x11 : (⟨S128, .f32⟩ : BufTy).Contents (Elt Ideal))
    (e : Fin 800000) (h8 : Fin 8) (l : Fin 16) :
    val_main_v19 (F := Ideal) x1 x10 x11 (ix3 e h8 l) = Cert.Att.lin x1 x10 x11 e (Cert.Att.ch h8 l) := by
  have e1 : idx_main_v19 (ix3 e h8 l) = ix2 e (Cert.Att.ch h8 l) := by
    funext a; apply Fin.ext
    match a with
    | ⟨0, _⟩ => show ((e.val * 8 + h8.val) * 16 + l.val) / 128 = e.val; omega
    | ⟨1, _⟩ => show ((e.val * 8 + h8.val) * 16 + l.val) % 128 = 16 * h8.val + l.val; omega
  have e2 : ∀ k : Fin 128, lidx_main_v15 (ix2 e (Cert.Att.ch h8 l)) k = ix2 e k := fun k =>
    funext fun a => match a with | ⟨0, _⟩ => rfl | ⟨1, _⟩ => rfl
  have e3 : ∀ k : Fin 128, ridx_main_v15 (ix2 e (Cert.Att.ch h8 l)) k = ix2 k (Cert.Att.ch h8 l) := fun k =>
    funext fun a => match a with | ⟨0, _⟩ => rfl | ⟨1, _⟩ => rfl
  have e4 : idx_main_v16 (idx_main_v17 (ix2 e (Cert.Att.ch h8 l))) = ix1 (Cert.Att.ch h8 l) :=
    funext fun a => match a with | ⟨0, _⟩ => rfl
  rw [val_main_v19_apply, e1, val_main_v18_apply, val_main_v15_apply, val_main_v17_apply, val_main_v16_apply, e4]
  simp only [e2, e3, Ideal.addf_def]
  rfl

/-! ## The index arrays: a word that is a node's number is not negative, so the wrap keeps it -/

/-- A word whose signed value is a natural number is not below the zero word. -/
theorem slt_zero_of_toInt_nat (w : BitVec 32) (n : Nat) (hw : w.toInt = (n : ℤ)) : IntOp.cmpi .slt w 0#32 = 0#1 := by
  have h0 : (0#32 : BitVec 32).toInt = 0 := by decide
  have : w.slt 0#32 = false := by
    rw [BitVec.slt, h0, hw]; exact decide_eq_false (by omega)
  show BitVec.ofBool (w.slt 0#32) = 0#1
  rw [this]; rfl

/-- The source index column at edge e is the source word. -/
theorem src_word (x2 : (⟨S800000, .i32⟩ : BufTy).Contents (Elt Ideal)) (s : Fin 800000 → Fin 50000)
    (hs : ∀ e, (x2 (ix1 e)).toInt = ((s e).val : ℤ)) (e : Fin 800000) :
    (val_main_v25 (F := Ideal) x2 (ix2 e 0)).toInt = ((s e).val : ℤ) := by
  have e1 : idx_main_v25 (ix2 e (0 : Fin 1)) = ix1 e := funext fun a => match a with | ⟨0, _⟩ => rfl
  rw [val_main_v25_apply, e1, val_main_v24_apply, val_main_v21_apply, val_main_v20_apply, val_main_c_apply,
    slt_zero_of_toInt_nat _ _ (hs e), select_zero]
  exact hs e

/-- The destination index column at edge e is the destination word. -/
theorem dst_word (x3 : (⟨S800000, .i32⟩ : BufTy).Contents (Elt Ideal)) (d : Fin 800000 → Fin 50000)
    (hd : ∀ e, (x3 (ix1 e)).toInt = ((d e).val : ℤ)) (e : Fin 800000) :
    (val_main_v32 (F := Ideal) x3 (ix2 e 0)).toInt = ((d e).val : ℤ) := by
  have e1 : idx_main_v32 (ix2 e (0 : Fin 1)) = ix1 e := funext fun a => match a with | ⟨0, _⟩ => rfl
  rw [val_main_v32_apply, e1, val_main_v31_apply, val_main_v28_apply, val_main_v27_apply, val_main_c_1_apply,
    slt_zero_of_toInt_nat _ _ (hd e), select_zero]
  exact hd e

/-! ## The two row gathers -/

/-- The gathered keys at (edge, head, lane): the key of the edge's source. -/
theorem keys_at_src (x0 : (⟨S50000x128, .f32⟩ : BufTy).Contents (Elt Ideal)) (x2 : (⟨S800000, .i32⟩ : BufTy).Contents (Elt Ideal)) (x6 : (⟨S128x128, .f32⟩ : BufTy).Contents (Elt Ideal)) (x7 : (⟨S128, .f32⟩ : BufTy).Contents (Elt Ideal))
    (s : Fin 800000 → Fin 50000) (hs : ∀ e, (x2 (ix1 e)).toInt = ((s e).val : ℤ))
    (e : Fin 800000) (h8 : Fin 8) (l : Fin 16) :
    val_main_v26 (F := Ideal) x0 x2 x6 x7 (ix3 e h8 l) = Cert.Att.lin x0 x6 x7 (s e) (Cert.Att.ch h8 l) := by
  unfold val_main_v26
  refine (Cert.Att.Lib.gather_rows3_of_eq (N := 50000) (H := 8) (D := 16) (E := 800000)
    gather_S50000x8x16_S800000x1_S800000x8x16_12_0_n_n_0_1_1816 rfl rfl rfl rfl rfl _ _ e h8 l (s e)
    (src_word x2 s hs e)).trans ?_
  exact key_read x0 x6 x7 (s e) h8 l

/-- The gathered queries at (edge, head, lane): the query of the edge's destination. -/
theorem queries_at_dst (x0 : (⟨S50000x128, .f32⟩ : BufTy).Contents (Elt Ideal)) (x3 : (⟨S800000, .i32⟩ : BufTy).Contents (Elt Ideal)) (x4 : (⟨S128x128, .f32⟩ : BufTy).Contents (Elt Ideal)) (x5 : (⟨S128, .f32⟩ : BufTy).Contents (Elt Ideal))
    (d : Fin 800000 → Fin 50000) (hd : ∀ e, (x3 (ix1 e)).toInt = ((d e).val : ℤ))
    (e : Fin 800000) (h8 : Fin 8) (l : Fin 16) :
    val_main_v33 (F := Ideal) x0 x3 x4 x5 (ix3 e h8 l) = Cert.Att.lin x0 x4 x5 (d e) (Cert.Att.ch h8 l) := by
  unfold val_main_v33
  refine (Cert.Att.Lib.gather_rows3_of_eq (N := 50000) (H := 8) (D := 16) (E := 800000)
    gather_S50000x8x16_S800000x1_S800000x8x16_12_0_n_n_0_1_1816 rfl rfl rfl rfl rfl _ _ e h8 l (d e)
    (dst_word x3 d hd e)).trans ?_
  exact qry_read x0 x4 x5 (d e) h8 l

/-! ## The scores -/

/-- THE REFERENCE'S EDGE RESULT AT (edge, head, lane) IS THE SPECIFICATION'S SCORE on channel 16 * head + lane. -/
theorem ref_score (x0 : (⟨S50000x128, .f32⟩ : BufTy).Contents (Elt Ideal)) (x1 : (⟨S800000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (s d : Fin 800000 → Fin 50000)
    (hs : ∀ e, (x2 (ix1 e)).toInt = ((s e).val : ℤ)) (hd : ∀ e, (x3 (ix1 e)).toInt = ((d e).val : ℤ))
    (e : Fin 800000) (h8 : Fin 8) (l : Fin 16) :
    val_main_v38 (F := Ideal) x0 x1 x2 x3 x4 x5 x6 x7 x10 x11 (ix3 e h8 l)
      = Cert.Att.score (inp x0 x1 x4 x5 x6 x7 x8 x9 x10 x11 s d) e (Cert.Att.ch h8 l) := by
  rw [val_main_v38_apply, val_main_v37_apply, val_main_v34_apply, val_main_v36_apply, val_main_v35_apply,
    val_main_cst_apply, keys_at_src x0 x2 x6 x7 s hs, queries_at_dst x0 x3 x4 x5 d hd, efe_read]
  simp only [Ideal.mulf_def, Ideal.hostDivf_def, Ideal.hostUnary_sqrt_def, Ideal.ofBits_def]
  rw [div_sqrt_sixteen]
  rfl

/-- THE REFERENCE'S EDGE RESULT IS THE SPECIFICATION'S. -/
theorem ref_edgeOut (x0 : (⟨S50000x128, .f32⟩ : BufTy).Contents (Elt Ideal)) (x1 : (⟨S800000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))
    (s d : Fin 800000 → Fin 50000)
    (hs : ∀ e, (x2 (ix1 e)).toInt = ((s e).val : ℤ)) (hd : ∀ e, (x3 (ix1 e)).toInt = ((d e).val : ℤ)) :
    val_main_v38 (F := Ideal) x0 x1 x2 x3 x4 x5 x6 x7 x10 x11
      = Cert.Att.edgeOut (inp x0 x1 x4 x5 x6 x7 x8 x9 x10 x11 s d) := by
  funext i
  obtain ⟨e, h8, l, rfl⟩ : ∃ (e : Fin 800000) (h8 : Fin 8) (l : Fin 16), i = ix3 e h8 l := ⟨i 0, i 1, i 2, eq_ix3 i⟩
  rw [ref_score x0 x1 x2 x3 x4 x5 x6 x7 x8 x9 x10 x11 s d hs hd e h8 l]
  rfl

end Cert.ReferenceIdeal.RefValue

end
-- ==== Proof.RefNode.lean ====
/- The reference's node result is the specification's node result.

   For an edge e and head h the reference sums the edge's scores over the 16 lanes of the head, clamps the sum to
   [-5, 5] and exponentiates it: the edge's weight on the head. It gathers the value layer at the edge's source,
   multiplies by the weight (the same weight on the 16 lanes of a head), and accumulates the products, and the
   weights themselves, at the edge's destination. The node result is the accumulated products divided by the
   accumulated weights plus a small constant. -/
import proofs.«425955_j21569325760859_2_alg».proof.Proof.Gen.ReferenceIdeal.Read
import proofs.«425955_j21569325760859_2_alg».proof.Proof.Spec
import proofs.«425955_j21569325760859_2_alg».proof.Proof.LibGatherRows
import proofs.«425955_j21569325760859_2_alg».proof.Proof.LibScatterRows
import proofs.«425955_j21569325760859_2_alg».proof.Proof.RefScore
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefValue

open Cert.ReferenceIdeal Cert.ReferenceIdeal.Read Idealize.ShloMosaic Idealize.ShloMosaic.ValueIdx

variable (x0 : (⟨S50000x128, .f32⟩ : BufTy).Contents (Elt Ideal)) (x1 : (⟨S800000x128, .f32⟩ : BufTy).Contents (Elt Ideal))
  (x2 x3 : (⟨S800000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 : (⟨S128, .f32⟩ : BufTy).Contents (Elt Ideal))
  (s d : Fin 800000 → Fin 50000)

/-! ## The index columns -/

/-- The index column the value gather reads: the wrap of negative indices keeps a source word that names a node. -/
theorem node_src_word (hs : ∀ e, (x2 (ix1 e)).toInt = ((s e).val : ℤ)) (e : Fin 800000) :
    BitVec.toInt (val_main_v48 (F := Ideal) x2 (ix2 e 0)) = ((s e).val : ℤ) := by
  rw [val_main_v48_apply, val_main_v47_apply, val_main_v44_apply, val_main_v43_apply, val_main_c_6_apply]
  have e1 : idx_main_v48 (ix2 e (0 : Fin 1)) = ix1 e := funext fun a => Fin.ext (by match a with | ⟨0, _⟩ => rfl)
  rw [e1, slt_zero_of_toInt_nat _ _ (hs e), select_zero]
  exact hs e

/-- The index column the first accumulation reads is the destination words. -/
theorem node_dst_word53 (hd : ∀ e, (x3 (ix1 e)).toInt = ((d e).val : ℤ)) (e : Fin 800000) :
    BitVec.toInt (val_main_v53 (F := Ideal) x3 (ix2 e 0)) = ((d e).val : ℤ) := by
  rw [val_main_v53_apply]
  have e1 : idx_main_v53 (ix2 e (0 : Fin 1)) = ix1 e := funext fun a => Fin.ext (by match a with | ⟨0, _⟩ => rfl)
  rw [e1]; exact hd e

/-- The index column the second accumulation reads is the destination words. -/
theorem node_dst_word56 (hd : ∀ e, (x3 (ix1 e)).toInt = ((d e).val : ℤ)) (e : Fin 800000) :
    BitVec.toInt (val_main_v56 (F := Ideal) x3 (ix2 e 0)) = ((d e).val : ℤ) := by
  rw [val_main_v56_apply]
  have e1 : idx_main_v56 (ix2 e (0 : Fin 1)) = ix1 e := funext fun a => Fin.ext (by match a with | ⟨0, _⟩ => rfl)
  rw [e1]; exact hd e

/-! ## The value layer, reshaped: channel of (head, lane) is 16 * head + lane -/

/-- The projected values at (node, head, lane). -/
theorem node_val_read (n : Fin 50000) (h8 : Fin 8) (l : Fin 16) :
    val_main_v14 (F := Ideal) x0 x8 x9 (ix3 n h8 l)
      = Cert.Att.val (inp x0 x1 x4 x5 x6 x7 x8 x9 x10 x11 s d) n (Cert.Att.ch h8 l) := by
  rw [val_main_v14_apply, val_main_v13_apply, val_main_v12_apply, val_main_v11_apply, val_main_v10_apply]
  have e1 : idx_main_v14 (ix3 n h8 l) = ix2 n (Cert.Att.ch h8 l) := funext fun a => Fin.ext (by
    have hn := n.isLt; have hh := h8.isLt; have hl := l.isLt
    match a with
    | ⟨0, _⟩ => show ((n.val * 8 + h8.val) * 16 + l.val) / 128 = n.val; omega
    | ⟨1, _⟩ => show ((n.val * 8 + h8.val) * 16 + l.val) % 128 = 16 * h8.val + l.val; omega)
  rw [e1]
  have e2 : ∀ k : Fin 128, lidx_main_v10 (ix2 n (Cert.Att.ch h8 l)) k = ix2 n k := fun k => funext fun a => Fin.ext (by
    match a with | ⟨0, _⟩ => rfl | ⟨1, _⟩ => rfl)
  have e3 : ∀ k : Fin 128, ridx_main_v10 (ix2 n (Cert.Att.ch h8 l)) k = ix2 k (Cert.Att.ch h8 l) := fun k => funext fun a => Fin.ext (by
    match a with | ⟨0, _⟩ => rfl | ⟨1, _⟩ => rfl)
  have e4 : idx_main_v11 (idx_main_v12 (ix2 n (Cert.Att.ch h8 l))) = ix1 (Cert.Att.ch h8 l) := funext fun a => Fin.ext (by
    match a with | ⟨0, _⟩ => rfl)
  simp only [e2, e3, e4, Ideal.addf_def]
  rfl

/-- The gathered values of an edge: the value layer at the edge's source. -/
theorem node_val_at_src (hs : ∀ e, (x2 (ix1 e)).toInt = ((s e).val : ℤ)) (e : Fin 800000) (h8 : Fin 8) (l : Fin 16) :
    val_main_v49 (F := Ideal) x0 x2 x8 x9 (ix3 e h8 l)
      = Cert.Att.val (inp x0 x1 x4 x5 x6 x7 x8 x9 x10 x11 s d) (s e) (Cert.Att.ch h8 l) := by
  unfold val_main_v49
  refine (Cert.Att.Lib.gather_rows3_of_eq gather_S50000x8x16_S800000x1_S800000x8x16_12_0_n_n_0_1_1816 rfl rfl rfl rfl rfl
    (val_main_v14 (F := Ideal) x0 x8 x9) (val_main_v48 (F := Ideal) x2) e h8 l (s e) (node_src_word x2 s hs e)).trans ?_
  exact node_val_read x0 x1 x4 x5 x6 x7 x8 x9 x10 x11 s d (s e) h8 l

/-! ## The weights and the weighted values -/

/-- An edge's weight on a head: the head's scores summed over the lanes, clamped, exponentiated. -/
theorem node_wgt (hs : ∀ e, (x2 (ix1 e)).toInt = ((s e).val : ℤ)) (hd : ∀ e, (x3 (ix1 e)).toInt = ((d e).val : ℤ))
    (e : Fin 800000) (h8 : Fin 8) (z : Fin 1) :
    val_main_v42 (F := Ideal) x0 x1 x2 x3 x4 x5 x6 x7 x10 x11 (ix3 e h8 z)
      = Cert.Att.wgt (inp x0 x1 x4 x5 x6 x7 x8 x9 x10 x11 s d) e h8 := by
  rw [val_main_v42_apply, val_main_v41_apply, val_main_call0_v4_apply, val_main_call0_v3_apply, val_main_cst_5_apply,
    val_main_call0_v2_apply, val_main_call0_v1_apply, val_main_call0_v0_apply, val_main_cst_4_apply,
    val_main_v40_apply, val_main_v39_apply, val_main_cst_3_apply]
  have e1 : ∀ k : Fin 16, idx_main_v39 (idx_main_v40 (ix3 e h8 z)) k = ix3 e h8 k := fun k => funext fun a => Fin.ext (by
    match a with | ⟨0, _⟩ => rfl | ⟨1, _⟩ => rfl | ⟨2, _⟩ => rfl)
  simp only [e1, ref_score x0 x1 x2 x3 x4 x5 x6 x7 x8 x9 x10 x11 s d hs hd, Ideal.hostUnary_exp_def, Ideal.minimumf_def,
    Ideal.maximumf_def, Ideal.ofBits_def, Ideal.ofBits_zero_f32, zero_add]
  rfl

/-- The weighted value of an edge on a channel: the value at the source times the weight on the channel's head. -/
theorem node_wval (hs : ∀ e, (x2 (ix1 e)).toInt = ((s e).val : ℤ)) (hd : ∀ e, (x3 (ix1 e)).toInt = ((d e).val : ℤ))
    (e : Fin 800000) (h8 : Fin 8) (l : Fin 16) :
    val_main_v51 (F := Ideal) x0 x1 x2 x3 x4 x5 x6 x7 x8 x9 x10 x11 (ix3 e h8 l)
      = Cert.Att.wval (inp x0 x1 x4 x5 x6 x7 x8 x9 x10 x11 s d) e (Cert.Att.ch h8 l) := by
  rw [val_main_v51_apply, val_main_v50_apply, node_val_at_src x0 x1 x2 x4 x5 x6 x7 x8 x9 x10 x11 s d hs]
  have e1 : idx_main_v50 (ix3 e h8 l) = ix3 e h8 (0 : Fin 1) := funext fun a => Fin.ext (by
    match a with | ⟨0, _⟩ => rfl | ⟨1, _⟩ => rfl | ⟨2, _⟩ => rfl)
  rw [e1, node_wgt x0 x1 x2 x3 x4 x5 x6 x7 x8 x9 x10 x11 s d hs hd, Ideal.mulf_def]
  unfold Cert.Att.wval
  rw [Cert.Att.hdOf_ch]
  rfl

/-! ## The specification's sums, at these arguments -/

/-- The accumulated weighted values, the destination function written out. -/
theorem aggVal_inp (n : Fin 50000) (c : Fin 128) :
    Cert.Att.aggVal (inp x0 x1 x4 x5 x6 x7 x8 x9 x10 x11 s d) n c
      = ∑ e ∈ Finset.univ.filter (fun e => d e = n), Cert.Att.wval (inp x0 x1 x4 x5 x6 x7 x8 x9 x10 x11 s d) e c := rfl

/-- The accumulated weights, the destination function written out. -/
theorem aggWgt_inp (n : Fin 50000) (h8 : Fin 8) :
    Cert.Att.aggWgt (inp x0 x1 x4 x5 x6 x7 x8 x9 x10 x11 s d) n h8
      = ∑ e ∈ Finset.univ.filter (fun e => d e = n), Cert.Att.wgt (inp x0 x1 x4 x5 x6 x7 x8 x9 x10 x11 s d) e h8 := rfl

/-- The node result at (node, head, lane). -/
theorem nodeOut_ix3 (I : Cert.Att.Inp) (n : Fin 50000) (h8 : Fin 8) (l : Fin 16) :
    Cert.Att.nodeOut I (ix3 n h8 l)
      = Ideal.div (Cert.Att.aggVal I n (Cert.Att.ch h8 l)) (Cert.Att.aggWgt I n h8 + Ideal.ofBits .f32 0x358637BD#32) := rfl

/-! ## The two accumulations, read at an index -/

/-- The accumulation of rows of 8 heads by 16 lanes at (node, head, lane): the operand there plus the updates of the
    edges whose index word names the node. -/
theorem scatter16_read (x : (⟨S50000x8x16, .f32⟩ : BufTy).Contents (Elt Ideal)) (idx : (⟨S800000x1, .i32⟩ : BufTy).Contents (Elt Ideal))
    (upd : (⟨S800000x8x16, .f32⟩ : BufTy).Contents (Elt Ideal)) (dst : Fin 800000 → Fin 50000)
    (hdst : ∀ e, BitVec.toInt (idx (ix2 e 0)) = ((dst e).val : ℤ)) (n : Fin 50000) (h8 : Fin 8) (l : Fin 16) :
    Host.scatterAdd (F := Ideal) (φ := .f32) scatter_S50000x8x16_S800000x1_S800000x8x16_12_0_0_1 x idx upd (ix3 n h8 l)
      = x (ix3 n h8 l) + ∑ e ∈ Finset.univ.filter (fun e => dst e = n), upd (ix3 e h8 l) :=
  Cert.Att.Lib.scatterAdd_rows3 _ rfl rfl rfl rfl x idx upd dst hdst n h8 l

/-- The accumulation of rows of 8 heads by 1 at (node, head, 0). -/
theorem scatter1_read (x : (⟨S50000x8x1, .f32⟩ : BufTy).Contents (Elt Ideal)) (idx : (⟨S800000x1, .i32⟩ : BufTy).Contents (Elt Ideal))
    (upd : (⟨S800000x8x1, .f32⟩ : BufTy).Contents (Elt Ideal)) (dst : Fin 800000 → Fin 50000)
    (hdst : ∀ e, BitVec.toInt (idx (ix2 e 0)) = ((dst e).val : ℤ)) (n : Fin 50000) (h8 : Fin 8) (z : Fin 1) :
    Host.scatterAdd (F := Ideal) (φ := .f32) scatter_S50000x8x1_S800000x1_S800000x8x1_12_0_0_1 x idx upd (ix3 n h8 z)
      = x (ix3 n h8 z) + ∑ e ∈ Finset.univ.filter (fun e => dst e = n), upd (ix3 e h8 z) :=
  Cert.Att.Lib.scatterAdd_rows3 _ rfl rfl rfl rfl x idx upd dst hdst n h8 z

/-- The operand of the first accumulation is zero. -/
theorem zeros16_read (i : S50000x8x16.Idx) : val_main_v52 (F := Ideal) i = 0 := by
  rw [val_main_v52_apply, val_main_cst_8_apply, Ideal.ofBits_def, Ideal.ofBits_zero_f32]

/-- The operand of the second accumulation is zero. -/
theorem zeros1_read (i : S50000x8x1.Idx) : val_main_v55 (F := Ideal) i = 0 := by
  rw [val_main_v55_apply, val_main_cst_9_apply, Ideal.ofBits_def, Ideal.ofBits_zero_f32]

/-- The first accumulation: the weighted values summed over the edges entering a node. -/
theorem node_aggVal (hs : ∀ e, (x2 (ix1 e)).toInt = ((s e).val : ℤ)) (hd : ∀ e, (x3 (ix1 e)).toInt = ((d e).val : ℤ))
    (n : Fin 50000) (h8 : Fin 8) (l : Fin 16) :
    val_main_v54 (F := Ideal) x0 x1 x2 x3 x4 x5 x6 x7 x8 x9 x10 x11 (ix3 n h8 l)
      = Cert.Att.aggVal (inp x0 x1 x4 x5 x6 x7 x8 x9 x10 x11 s d) n (Cert.Att.ch h8 l) := by
  unfold val_main_v54
  refine Eq.trans ?_ (aggVal_inp x0 x1 x4 x5 x6 x7 x8 x9 x10 x11 s d n (Cert.Att.ch h8 l)).symm
  refine (scatter16_read _ _ _ d (node_dst_word53 x3 d hd) n h8 l).trans ?_
  rw [zeros16_read, zero_add]
  exact Finset.sum_congr rfl fun e _ => node_wval x0 x1 x2 x3 x4 x5 x6 x7 x8 x9 x10 x11 s d hs hd e h8 l

/-- The second accumulation: the weights summed over the edges entering a node. -/
theorem node_aggWgt (hs : ∀ e, (x2 (ix1 e)).toInt = ((s e).val : ℤ)) (hd : ∀ e, (x3 (ix1 e)).toInt = ((d e).val : ℤ))
    (n : Fin 50000) (h8 : Fin 8) (z : Fin 1) :
    val_main_v57 (F := Ideal) x0 x1 x2 x3 x4 x5 x6 x7 x10 x11 (ix3 n h8 z)
      = Cert.Att.aggWgt (inp x0 x1 x4 x5 x6 x7 x8 x9 x10 x11 s d) n h8 := by
  unfold val_main_v57
  refine Eq.trans ?_ (aggWgt_inp x0 x1 x4 x5 x6 x7 x8 x9 x10 x11 s d n h8).symm
  refine (scatter1_read _ _ _ d (node_dst_word56 x3 d hd) n h8 z).trans ?_
  rw [zeros1_read, zero_add]
  exact Finset.sum_congr rfl fun e _ => node_wgt x0 x1 x2 x3 x4 x5 x6 x7 x8 x9 x10 x11 s d hs hd e h8 z

/-! ## The node result -/

/-- THE REFERENCE'S NODE RESULT IS THE SPECIFICATION'S. -/
theorem ref_nodeOut (hs : ∀ e, (x2 (ix1 e)).toInt = ((s e).val : ℤ)) (hd : ∀ e, (x3 (ix1 e)).toInt = ((d e).val : ℤ)) :
    val_main_v61 (F := Ideal) x0 x1 x2 x3 x4 x5 x6 x7 x8 x9 x10 x11
      = Cert.Att.nodeOut (inp x0 x1 x4 x5 x6 x7 x8 x9 x10 x11 s d) := by
  funext i
  obtain ⟨n, h8, l, rfl⟩ : ∃ (n : Fin 50000) (h8 : Fin 8) (l : Fin 16), i = ix3 n h8 l := ⟨i 0, i 1, i 2, eq_ix3 i⟩
  refine Eq.trans ?_ (nodeOut_ix3 (inp x0 x1 x4 x5 x6 x7 x8 x9 x10 x11 s d) n h8 l).symm
  rw [val_main_v61_apply, val_main_v60_apply, val_main_v59_apply, val_main_v58_apply, val_main_cst_10_apply]
  have e1 : idx_main_v60 (ix3 n h8 l) = ix3 n h8 (0 : Fin 1) := funext fun a => Fin.ext (by
    match a with | ⟨0, _⟩ => rfl | ⟨1, _⟩ => rfl | ⟨2, _⟩ => rfl)
  rw [e1, node_aggVal x0 x1 x2 x3 x4 x5 x6 x7 x8 x9 x10 x11 s d hs hd, node_aggWgt x0 x1 x2 x3 x4 x5 x6 x7 x8 x9 x10 x11 s d hs hd,
    Ideal.hostDivf_def, Ideal.addf_def, Ideal.ofBits_def]

end Cert.ReferenceIdeal.RefValue

end
-- ==== Proof.PreRange.lean ====
/- The precondition's last two tests, read back: every entry of the two integer arguments is a node number.

   The precondition is a conjunction of twelve tests; the last two say, for the edge-source and edge-destination
   arrays, that every entry x satisfies 0 ≤ x and x < 50000 as signed 32-bit words. A conjunction of bits that is 1
   has every conjunct 1; an "all" over an array that is 1 has every element 1; a signed comparison bit that is 1 is
   the comparison of the signed values. -/
import proofs.«425955_j21569325760859_2_alg».proof.Pre_finite_inputs
import proofs.«425955_j21569325760859_2_alg».proof.Proof.Gen.Pre_finite_inputs
import Idealize.ShloMosaic.Lib.ReduceAll
import Idealize.ShloMosaic.Lib.StableHlo.Predicate
import Idealize.ShloMosaic.Lib.ValueIdx

noncomputable section

namespace Cert.Att

open Idealize.ShloMosaic Idealize.ShloMosaic.ValueIdx
open Cert.Pre_finite_inputs

/-- The scalar shape has one index. -/
instance subsingleton_scalar_idx : Subsingleton S_.Idx := ⟨fun a b => funext fun d => d.elim0⟩

/-- An entry whose two comparison bits (0 ≤ x, x < 50000, signed) are both 1 lies in [0, 50000). -/
theorem range_of_bits (x : BitVec 32) (h : IntOp.andi (IntOp.cmpi .sge x 0#32) (IntOp.cmpi .slt x 50000#32) = 1#1) :
    0 ≤ x.toInt ∧ x.toInt < 50000 := by
  obtain ⟨hge, hlt⟩ := IntOp.andi_eq_one.1 h
  have h0 : (0#32 : BitVec 32).toInt = 0 := by decide
  have h5 : (50000#32 : BitVec 32).toInt = 50000 := by decide
  have a := IntOp.cmpi_sge.1 hge
  have b := IntOp.cmpi_slt.1 hlt
  rw [h0] at a
  rw [h5] at b
  exact ⟨a, b⟩

variable {F : FTy → Type} [FloatOps F]

/-- The last two conjuncts of the precondition, each read at an element. -/
theorem src_dst_bits [Cert.Pre_finite_inputs.Facts]
    (a0 : FVec F S50000x128 .f32) (a1 : FVec F S800000x128 .f32) (a2 : IVec S800000 32) (a3 : IVec S800000 32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (h : Cert.Pre_finite_inputs.fn (F := F) a0 a1 a2 a3 a4 a5 a6 a7 a8 a9 a10 a11 = fun _ => 1#1) (e : Fin 800000) :
    IntOp.andi (IntOp.cmpi .sge (a2 (ix1 e)) 0#32) (IntOp.cmpi .slt (a2 (ix1 e)) 50000#32) = 1#1
      ∧ IntOp.andi (IntOp.cmpi .sge (a3 (ix1 e)) 0#32) (IntOp.cmpi .slt (a3 (ix1 e)) 50000#32) = 1#1 := by
  have h0 := congrFun h ValueIdx.ix0
  unfold Cert.Pre_finite_inputs.fn Cert.Pre_finite_inputs.fn_part1 Cert.Pre_finite_inputs.fn_part2
    Cert.Pre_finite_inputs.fn_part3 at h0
  dsimp only at h0
  obtain ⟨h12, hdst⟩ := IntOp.andi_eq_one.1 h0
  obtain ⟨-, hsrc⟩ := IntOp.andi_eq_one.1 h12
  exact ⟨Host.reduce_andi_all _ _ _ _ _ hsrc (ix1 e), Host.reduce_andi_all _ _ _ _ _ hdst (ix1 e)⟩

/-- Every entry of the edge-source array is a node number. -/
theorem src_range [Cert.Pre_finite_inputs.Facts]
    (a0 : FVec F S50000x128 .f32) (a1 : FVec F S800000x128 .f32) (a2 : IVec S800000 32) (a3 : IVec S800000 32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (h : Cert.Pre_finite_inputs.fn (F := F) a0 a1 a2 a3 a4 a5 a6 a7 a8 a9 a10 a11 = fun _ => 1#1) (e : Fin 800000) :
    0 ≤ (a2 (ix1 e)).toInt ∧ (a2 (ix1 e)).toInt < 50000 :=
  range_of_bits _ (src_dst_bits a0 a1 a2 a3 a4 a5 a6 a7 a8 a9 a10 a11 h e).1

/-- Every entry of the edge-destination array is a node number. -/
theorem dst_range [Cert.Pre_finite_inputs.Facts]
    (a0 : FVec F S50000x128 .f32) (a1 : FVec F S800000x128 .f32) (a2 : IVec S800000 32) (a3 : IVec S800000 32)
    (a4 : FVec F S128x128 .f32) (a5 : FVec F S128 .f32) (a6 : FVec F S128x128 .f32) (a7 : FVec F S128 .f32)
    (a8 : FVec F S128x128 .f32) (a9 : FVec F S128 .f32) (a10 : FVec F S128x128 .f32) (a11 : FVec F S128 .f32)
    (h : Cert.Pre_finite_inputs.fn (F := F) a0 a1 a2 a3 a4 a5 a6 a7 a8 a9 a10 a11 = fun _ => 1#1) (e : Fin 800000) :
    0 ≤ (a3 (ix1 e)).toInt ∧ (a3 (ix1 e)).toInt < 50000 :=
  range_of_bits _ (src_dst_bits a0 a1 a2 a3 a4 a5 a6 a7 a8 a9 a10 a11 h e).2

end Cert.Att

end
-- ==== Proof.lean ====
/- Edge attention over a graph: the certificate's five claims.

   The three frames. The kernel program is nine items in a row — host operations around three pipelined kernel regions
   (the node projection, the edge projection, the edge kernel) — and its run is put together from one run of each
   region's body per grid point (Proof/Run.lean, at any float instance; the word-level program's copy is
   Proof/Bits/Run.lean). The reference is host operations only and its frame is its run with the results dropped.

   The value claim, at the ideal instance. Both programs compute, from the same arguments, the specification of
   Proof/Spec.lean: queries, keys and values of the nodes and projected edge features by four linear layers; per edge and
   channel the score key(source) * query(destination) * (1/4) * edge feature — the edge result —; per edge and head the
   weight exp(clamp(sum of the head's 16 scores)); per node the weighted values of the entering edges summed and divided
   by the summed weights plus a small constant — the node result. The kernel reaches it by one fused projection whose
   columns are cut in three, by row gathers that fill out-of-range rows with a marker (never met: the precondition says
   every index is a node number), by two matrix products against 0/1 matrices that sum and spread over the heads' lanes,
   and by multiplying with the word of 1/4; the reference by three projections, plain row gathers, a lane sum, and
   dividing by the square root of 16. The two meet because a sum against a 0/1 matrix is the sum over the ones — true of
   every extended real, so no finiteness is used — and dividing by 4 is multiplying by 1/4.

   The ideal pass rewrote nothing, so `preserves` asks nothing. -/
import proofs.«425955_j21569325760859_2_alg».proof.Defs
import proofs.«425955_j21569325760859_2_alg».proof.Proof.Gen.Kernel
import proofs.«425955_j21569325760859_2_alg».proof.Proof.Gen.KernelIdeal
import proofs.«425955_j21569325760859_2_alg».proof.Proof.Gen.ReferenceIdeal
import proofs.«425955_j21569325760859_2_alg».proof.Proof.Gen.ReferenceIdeal.Run
import proofs.«425955_j21569325760859_2_alg».proof.Proof.Gen.ReferenceIdeal.Read
import proofs.«425955_j21569325760859_2_alg».proof.Proof.Gen.Pre_finite_inputs
import proofs.«425955_j21569325760859_2_alg».proof.Proof.Bits.Run
import proofs.«425955_j21569325760859_2_alg».proof.Proof.Run
import proofs.«425955_j21569325760859_2_alg».proof.Proof.KernelOut
import proofs.«425955_j21569325760859_2_alg».proof.Proof.RefScore
import proofs.«425955_j21569325760859_2_alg».proof.Proof.RefNode
import proofs.«425955_j21569325760859_2_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

/-- A word that reads, signed, as a number below 50000 names a node. -/
def nodeOfWord (w : BitVec 32) (h : 0 ≤ w.toInt ∧ w.toInt < 50000) : Fin 50000 := ⟨w.toInt.toNat, by omega⟩

theorem nodeOfWord_val (w : BitVec 32) (h : 0 ≤ w.toInt ∧ w.toInt < 50000) : w.toInt = ((nodeOfWord w h).val : ℤ) := by
  show w.toInt = ((w.toInt.toNat : ℕ) : ℤ)
  rw [Int.toNat_of_nonneg h.1]

section
variable [hK : Cert.KernelIdeal.Facts] [hP : Cert.Pre_finite_inputs.Facts]
open Cert.KernelIdeal

theorem src_ok (m : (ℓ : Loc Cert.KernelIdeal.nD Cert.KernelIdeal.τ Cert.KernelIdeal.sig) → Buf (Elt Ideal) ℓ) (hpre : Cert.Pre_KernelIdeal m) (c : Dev nD) (e : Fin 800000) :
    0 ≤ ((m ((c.tc : Thread nD τ).loc main_arg2) : S800000.Idx → BitVec 32) (ix1 e)).toInt
      ∧ ((m ((c.tc : Thread nD τ).loc main_arg2) : S800000.Idx → BitVec 32) (ix1 e)).toInt < 50000 :=
  Cert.Att.src_range (F := Ideal) _ _ _ _ _ _ _ _ _ _ _ _ (hpre c) e
theorem dst_ok (m : (ℓ : Loc Cert.KernelIdeal.nD Cert.KernelIdeal.τ Cert.KernelIdeal.sig) → Buf (Elt Ideal) ℓ) (hpre : Cert.Pre_KernelIdeal m) (c : Dev nD) (e : Fin 800000) :
    0 ≤ ((m ((c.tc : Thread nD τ).loc main_arg3) : S800000.Idx → BitVec 32) (ix1 e)).toInt
      ∧ ((m ((c.tc : Thread nD τ).loc main_arg3) : S800000.Idx → BitVec 32) (ix1 e)).toInt < 50000 :=
  Cert.Att.dst_range (F := Ideal) _ _ _ _ _ _ _ _ _ _ _ _ (hpre c) e

/-- The source and the destination node of every edge, read off the two integer arguments. -/
def srcOf (m : (ℓ : Loc Cert.KernelIdeal.nD Cert.KernelIdeal.τ Cert.KernelIdeal.sig) → Buf (Elt Ideal) ℓ) (hpre : Cert.Pre_KernelIdeal m) (c : Dev nD) (e : Fin 800000) : Fin 50000 := nodeOfWord _ (src_ok m hpre c e)
def dstOf (m : (ℓ : Loc Cert.KernelIdeal.nD Cert.KernelIdeal.τ Cert.KernelIdeal.sig) → Buf (Elt Ideal) ℓ) (hpre : Cert.Pre_KernelIdeal m) (c : Dev nD) (e : Fin 800000) : Fin 50000 := nodeOfWord _ (dst_ok m hpre c e)

theorem linked (m : (ℓ : Loc Cert.KernelIdeal.nD Cert.KernelIdeal.τ Cert.KernelIdeal.sig) → Buf (Elt Ideal) ℓ) (hpre : Cert.Pre_KernelIdeal m) (c : Dev nD) : Cert.KernelIdeal.Att.Linked m c (srcOf m hpre c) (dstOf m hpre c) :=
  ⟨fun e => nodeOfWord_val _ (src_ok m hpre c e), fun e => nodeOfWord_val _ (dst_ok m hpre c e)⟩
end

open Cert.KernelIdeal.Att in
theorem algebraic [Cert.KernelIdeal.Facts] [Cert.ReferenceIdeal.Facts] [Cert.Pre_finite_inputs.Facts] :
    Cert.algebraic_KernelIdeal_ReferenceIdeal := fun m ρ m' ρ' hpre hagree => by
  refine ⟨fun c => Cert.Att.nodeOut (inpOf m c (srcOf m hpre c) (dstOf m hpre c)),
    fun c => Cert.Att.edgeOut (inpOf m c (srcOf m hpre c) (dstOf m hpre c)), ?_, ?_⟩
  · -- the kernel program: the run's final contents read in the specification's terms
    exact (θ_run Cert.KernelIdeal.defs _ _).mono (fun r h c => ⟨
      (h c _ (mem_uc Cert.KernelIdeal.main_v22 (by decide))).trans (kernel_nodeOut m c _ _ (linked m hpre c)),
      (h c _ (mem_uc Cert.KernelIdeal.main_v23 (by decide))).trans (kernel_edgeOut m c _ _ (linked m hpre c)),
      (h c _ (mem_uc Cert.KernelIdeal.main_arg0 (by decide))).trans (W9_main_arg0 m c),
      (h c _ (mem_uc Cert.KernelIdeal.main_arg1 (by decide))).trans (W9_main_arg1 m c),
      (h c _ (mem_uc Cert.KernelIdeal.main_arg2 (by decide))).trans (W9_main_arg2 m c),
      (h c _ (mem_uc Cert.KernelIdeal.main_arg3 (by decide))).trans (W9_main_arg3 m c),
      (h c _ (mem_uc Cert.KernelIdeal.main_arg4 (by decide))).trans (W9_main_arg4 m c),
      (h c _ (mem_uc Cert.KernelIdeal.main_arg5 (by decide))).trans (W9_main_arg5 m c),
      (h c _ (mem_uc Cert.KernelIdeal.main_arg6 (by decide))).trans (W9_main_arg6 m c),
      (h c _ (mem_uc Cert.KernelIdeal.main_arg7 (by decide))).trans (W9_main_arg7 m c),
      (h c _ (mem_uc Cert.KernelIdeal.main_arg8 (by decide))).trans (W9_main_arg8 m c),
      (h c _ (mem_uc Cert.KernelIdeal.main_arg9 (by decide))).trans (W9_main_arg9 m c),
      (h c _ (mem_uc Cert.KernelIdeal.main_arg10 (by decide))).trans (W9_main_arg10 m c),
      (h c _ (mem_uc Cert.KernelIdeal.main_arg11 (by decide))).trans (W9_main_arg11 m c)⟩) (run_all m ρ)
  · -- the reference: its run's terms are the specification's, at the same arguments
    have hinp : ∀ c : Dev Cert.KernelIdeal.nD, Cert.ReferenceIdeal.RefValue.inp (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (srcOf m hpre c) (dstOf m hpre c) = inpOf m c (srcOf m hpre c) (dstOf m hpre c) := fun c => by
      obtain ⟨h0, h1, h2, h3, h4, h5, h6, h7, h8, h9, h10, h11⟩ := hagree c
      unfold Cert.ReferenceIdeal.RefValue.inp inpOf
      rw [h0, h1, h4, h5, h6, h7, h8, h9, h10, h11]
    have hs' : ∀ (c : Dev Cert.KernelIdeal.nD) (e : Fin 800000), ((m' ((c.tc : Thread Cert.ReferenceIdeal.nD Cert.ReferenceIdeal.τ).loc Cert.ReferenceIdeal.main_arg2) : Cert.ReferenceIdeal.S800000.Idx → BitVec 32) (ix1 e)).toInt = ((srcOf m hpre c e).val : ℤ) := fun c e => by
      rw [(hagree c).2.2.1]; exact (linked m hpre c).1 e
    have hd' : ∀ (c : Dev Cert.KernelIdeal.nD) (e : Fin 800000), ((m' ((c.tc : Thread Cert.ReferenceIdeal.nD Cert.ReferenceIdeal.τ).loc Cert.ReferenceIdeal.main_arg3) : Cert.ReferenceIdeal.S800000.Idx → BitVec 32) (ix1 e)).toInt = ((dstOf m hpre c e).val : ℤ) := fun c e => by
      rw [(hagree c).2.2.2.1]; exact (linked m hpre c).2 e
    exact (θ_run Cert.ReferenceIdeal.defs _ _).mono (fun r h c => ⟨
      ((h c).1.trans (Cert.ReferenceIdeal.Read.val_main_v61_eq m' c)).trans
        ((Cert.ReferenceIdeal.RefValue.ref_nodeOut _ _ _ _ _ _ _ _ _ _ _ _ _ _ (hs' c) (hd' c)).trans (congrArg Cert.Att.nodeOut (hinp c))),
      ((h c).2.1.trans (Cert.ReferenceIdeal.Read.val_main_v38_eq _ _ _ _ _ _ _ _ _ _)).trans
        ((Cert.ReferenceIdeal.RefValue.ref_edgeOut _ _ _ _ _ _ _ _ _ _ _ _ _ _ (hs' c) (hd' c)).trans (congrArg Cert.Att.edgeOut (hinp c))),
      (h c).2.2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Att.frame m ρ,
  fun m ρ _ => Cert.KernelIdeal.Att.frame m ρ,
  fun m ρ _ => (θ_run Cert.ReferenceIdeal.defs _ _).mono (fun _ h c => (h c).2.2) (Cert.ReferenceIdeal.Value.run (F := Ideal) m ρ),
  trivial,
  algebraic⟩

end Cert.Proof

end
